-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : FVec F S1024x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  main_v3
-- ==== Kernel.lean ====
abbrev S1024x512 : Shape := ⟨2, ![1024, 512]⟩
abbrev S4x2x1024 : Shape := ⟨3, ![4, 2, 1024]⟩
abbrev S3 : Shape := ⟨1, ![3]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S2x1024 : Shape := ⟨2, ![2, 1024]⟩
abbrev S1x2x1024 : Shape := ⟨3, ![1, 2, 1024]⟩
abbrev S1 : Shape := ⟨1, ![1]⟩
abbrev S1x1x1024 : Shape := ⟨3, ![1, 1, 1024]⟩
abbrev S1x1024 : Shape := ⟨2, ![1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S4x2x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v27 : Index := Scalar.indexCast v2
  let c0_14 : Index := 0#32
  let c0_15 : Index := 0#32
  ![v27.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_23 : BitVec 32 := 0#32
  let c0_i32_24 : BitVec 32 := 0#32
  ![v2.toNat, 0, 0]
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_17 : BitVec 32 := 2#32
  let v31 : BitVec 32 := Scalar.addi v2 c2_i32_17
  let c4_i32_18 : BitVec 32 := 4#32
  let v32 : BitVec 32 := Scalar.remsi v31 c4_i32_18
  let c1_i32_21 : BitVec 32 := 1#32
  let v33 : BitVec 32 := Scalar.muli v32 c1_i32_21
  let v34 : BitVec 32 := Scalar.addi c0_i32_22 v33
  v34.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v43 : BitVec 32 := Scalar.addi v2 c1_i32_27
  let c4_i32_28 : BitVec 32 := 4#32
  let v44 : BitVec 32 := Scalar.remsi v43 c4_i32_28
  let c1_i32_31 : BitVec 32 := 1#32
  let v45 : BitVec 32 := Scalar.muli v44 c1_i32_31
  let v46 : BitVec 32 := Scalar.addi c0_i32_32 v45
  v46.toNat
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v55 : BitVec 32 := Scalar.addi v2 c3_i32_37
  let c4_i32_38 : BitVec 32 := 4#32
  let v56 : BitVec 32 := Scalar.remsi v55 c4_i32_38
  let c1_i32_41 : BitVec 32 := 1#32
  let v57 : BitVec 32 := Scalar.muli v56 c1_i32_41
  let v58 : BitVec 32 := Scalar.addi c0_i32_42 v57
  v58.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v143 : Index := Scalar.indexCast v2
  let c0_113 : Index := 0#32
  let c0_114 : Index := 0#32
  ![v143.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  concatenates_S1024x1_S1024x1_S1024x2_d1 : Shape.Concatenates [S1024x1, S1024x1] S1024x2 1
  transposes_S1024x2_p1_0_S2x1024 : S1024x2.Transposes [1, 0] S2x1024
  h_S1x2x1024 : 0 < S1x2x1024.numel
  shapeCasts_S1x2x1024_S2x1024 : S1x2x1024.ShapeCasts S2x1024
  shapeCasts_S2x1024_S1x2x1024 : S2x1024.ShapeCasts S1x2x1024
  hamt_3 : (3#32 : BitVec 32).msb = false
  inb_S3_S1_1 : ∀ a, (![1] : Fin 1 → Nat) a + S1.size a ≤ S3.size a
  squeezes_S1_S_ : S1.Squeezes S_
  squeezes_S1x2x1024_S2x1024 : S1x2x1024.Squeezes S2x1024
  inb_S3_S1_0 : ∀ a, (![0] : Fin 1 → Nat) a + S1.size a ≤ S3.size a
  inb_S3_S1_2 : ∀ a, (![2] : Fin 1 → Nat) a + S1.size a ≤ S3.size a
  inb_S4x2x1024_S1x1x1024_0_0_0 : ∀ a, (![0, 0, 0] : Fin 3 → Nat) a + S1x1x1024.size a ≤ S4x2x1024.size a
  h_S1x1x1024 : 0 < S1x1x1024.numel
  shapeCasts_S1x1x1024_S1x1024 : S1x1x1024.ShapeCasts S1x1024
  inb_S4x2x1024_S1x1x1024_1_0_0 : ∀ a, (![1, 0, 0] : Fin 3 → Nat) a + S1x1x1024.size a ≤ S4x2x1024.size a
  inb_S4x2x1024_S1x1x1024_2_0_0 : ∀ a, (![2, 0, 0] : Fin 3 → Nat) a + S1x1x1024.size a ≤ S4x2x1024.size a
  inb_S4x2x1024_S1x1x1024_3_0_0 : ∀ a, (![3, 0, 0] : Fin 3 → Nat) a + S1x1x1024.size a ≤ S4x2x1024.size a
  inb_S4x2x1024_S1x1x1024_0_1_0 : ∀ a, (![0, 1, 0] : Fin 3 → Nat) a + S1x1x1024.size a ≤ S4x2x1024.size a
  inb_S4x2x1024_S1x1x1024_1_1_0 : ∀ a, (![1, 1, 0] : Fin 3 → Nat) a + S1x1x1024.size a ≤ S4x2x1024.size a
  inb_S4x2x1024_S1x1x1024_2_1_0 : ∀ a, (![2, 1, 0] : Fin 3 → Nat) a + S1x1x1024.size a ≤ S4x2x1024.size a
  inb_S4x2x1024_S1x1x1024_3_1_0 : ∀ a, (![3, 1, 0] : Fin 3 → Nat) a + S1x1x1024.size a ≤ S4x2x1024.size a
  transposes_S1x1024_p1_0_S1024x1 : S1x1024.Transposes [1, 0] S1024x1
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1x2x1024.size a ≤ S4x2x1024.size a
  k0_off2_inb : ∀ d0 : Dev nD, ∀ a, (k0_off2 d0) a + S1x2x1024.size a ≤ S4x2x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off3_inb : ∀ d0 : Dev nD, ∀ a, (k0_off3 d0) a + S1x1x1024.size a ≤ S4x2x1024.size a
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2048, .f32⟩
  | .hbm, ⟨11, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S1024x2048_S1024_d1 : S1024x2048.ReducesTo [1] S1024
  h_S_ : 0 < S_.numel
  bcast_S1024_S1024x1_0 : S1024.BroadcastsInDim S1024x1 (![0] : Fin 1 → Fin S1024x1.rank)
  bcast_S1024x1_S1024x2048_0_1 : S1024x1.BroadcastsInDim S1024x2048 (![0, 1] : Fin 2 → Fin S1024x2048.rank)

variable [Facts₀]

class Facts : Prop extends Facts₀ where

variable [Facts]
-- ==== Proof.Iface.lean ====
/-
  The kernel's result on one device as a pure term of the four devices' blocks.

  After the exchange every device's statistics buffer holds, in row j, the pair (block maximum,
  block sum of exponentials) that device j computed from its own block: `statsOf`. The result
  block is the body's last payload of the device's own exponentials and of the ten rows it loads
  from that buffer: `outOf`.
-/
import proofs.«900600_g7700000000000601_dist_softmax_colshard_i_m1024_n512_v7x_i4_f32_1_alg».proof.Proof.Gen.KernelIdeal.Skeleton
import Idealize.ShloMosaic.Lib.Pipeline.FrameBody
import Idealize.ShloMosaic.Lib.ValueIdx

noncomputable section

namespace Cert.KernelIdeal.Iface

open Idealize.ShloMosaic Idealize.ShloMosaic.ValueIdx
open Cert.KernelIdeal Cert.KernelIdeal.Gen

variable {F : FTy → Type} [FloatOps F] [Cert.KernelIdeal.Facts]

/-- The statistics buffer once every row has landed: row j is what device j stored, its block's
    row maxima (second coordinate 0) and row sums of exponentials (second coordinate 1). -/
def statsOf (x : Dev nD → Vec F S1024x512 .f32) : Vec F S4x2x1024 .f32 :=
  fun i => k0_pay4 (x ⟨(i 0).val, (i 0).isLt⟩) (ix3 (0 : Fin 1) (i 1) (i 2))

/-- One row of 1024 entries of the statistics buffer, as a load reads it. -/
abbrev rowOf (S : Vec F S4x2x1024 .f32) (off : Fin 3 → Nat) (h : ∀ a, off a + S1x1x1024.size a ≤ S4x2x1024.size a) : Vec F S1x1x1024 .f32 :=
  View.ld S (Rect.unit (s := S4x2x1024) off S1x1x1024.size h)

/-- Device c's result block: its own exponentials times the rescaling factor computed from the
    four maxima rows, the four sums rows and its own maxima row. -/
def outOf (c : Dev nD) (x : Dev nD → Vec F S1024x512 .f32) : FVec F S1024x512 .f32 :=
  k0_pay8 (k0_pay3 (x c))
    (k0_pay5 (rowOf (statsOf x) ![0, 0, 0] Facts₀.inb_S4x2x1024_S1x1x1024_0_0_0))
    (k0_pay6 (rowOf (statsOf x) ![1, 0, 0] Facts₀.inb_S4x2x1024_S1x1x1024_1_0_0))
    (k0_pay7 (rowOf (statsOf x) ![2, 0, 0] Facts₀.inb_S4x2x1024_S1x1x1024_2_0_0))
    (rowOf (statsOf x) ![3, 0, 0] Facts₀.inb_S4x2x1024_S1x1x1024_3_0_0)
    (rowOf (statsOf x) ![0, 1, 0] Facts₀.inb_S4x2x1024_S1x1x1024_0_1_0)
    (rowOf (statsOf x) ![1, 1, 0] Facts₀.inb_S4x2x1024_S1x1x1024_1_1_0)
    (rowOf (statsOf x) ![2, 1, 0] Facts₀.inb_S4x2x1024_S1x1x1024_2_1_0)
    (rowOf (statsOf x) ![3, 1, 0] Facts₀.inb_S4x2x1024_S1x1x1024_3_1_0)
    (rowOf (statsOf x) (k0_off3 c) (Facts₀.k0_off3_inb c))

end Cert.KernelIdeal.Iface

end
-- ==== Proof.Proto.lean ====
/-
  The exchange protocol of the column-sharded softmax on four devices, under the rounds discipline.

  Device c owns seven semaphore cells: the barrier cell, three send cells and three receive cells.
  Write p e c for the device e + 1 places after c around the mesh, and b e c for the device e + 1 places
  before it. The barrier cell of c has one round of three unit duties: duty e is paid by b e c, and hands
  c the row numbered c of that device's statistics buffer, the row c's copy to it will overwrite. The
  send cell k of c has one duty, paid by c's own copy k: it hands back the share of c's own row the copy
  read. The receive cell k of c has one duty, paid by the copy of b k c: it hands c the row numbered
  b k c of its own buffer, holding what that device stored, its block's row maxima and row sums.
  Barrier cells lie below receive cells: when c waits for its barrier it owes only receive credits.
-/
import proofs.«900600_g7700000000000601_dist_softmax_colshard_i_m1024_n512_v7x_i4_f32_1_alg».proof.Proof.Gen.KernelIdeal
import proofs.«900600_g7700000000000601_dist_softmax_colshard_i_m1024_n512_v7x_i4_f32_1_alg».proof.Proof.Gen.KernelIdeal.Skeleton
import proofs.«900600_g7700000000000601_dist_softmax_colshard_i_m1024_n512_v7x_i4_f32_1_alg».proof.Proof.Gen.KernelIdeal.Launch
import proofs.«900600_g7700000000000601_dist_softmax_colshard_i_m1024_n512_v7x_i4_f32_1_alg».proof.Proof.Iface
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The mesh: the device e + 1 places after c, and the one e + 1 places before it -/

def pe (e : Fin 3) (c : Dev nD) : Dev nD := ⟨(c.val + e.val + 1) % 4, Nat.mod_lt _ (by decide)⟩
def pb (e : Fin 3) (c : Dev nD) : Dev nD := ⟨(c.val + 3 - e.val) % 4, Nat.mod_lt _ (by decide)⟩

theorem pe_pb : ∀ (e : Fin 3) (c : Dev nD), pe e (pb e c) = c := by decide
theorem pb_pe : ∀ (e : Fin 3) (c : Dev nD), pb e (pe e c) = c := by decide
theorem pe_ne : ∀ (e : Fin 3) (c : Dev nD), pe e c ≠ c := by decide
theorem pb_ne : ∀ (e : Fin 3) (c : Dev nD), pb e c ≠ c := by decide
theorem pe_inj_e : ∀ (e e' : Fin 3) (c : Dev nD), pe e c = pe e' c → e = e' := by decide
theorem pb_inj_e : ∀ (e e' : Fin 3) (c : Dev nD), pb e c = pb e' c → e = e' := by decide

def ringE (e : Fin 3) : Dev nD ≃ Dev nD := ⟨pe e, pb e, pb_pe e, pe_pb e⟩

/-- The kernel's device chains: the three signals name p 0, p 1, p 2; the three copies p 1, p 0, p 2. -/
theorem dev1_eq (c : Dev nD) : (⟨k0_dev1 c, Gen.k0_dev1_lt c⟩ : Dev nD) = pe 0 c := Fin.ext ((k0_dev1_eq c).trans (by revert c; decide))
theorem dev2_eq (c : Dev nD) : (⟨k0_dev2 c, Gen.k0_dev2_lt c⟩ : Dev nD) = pe 1 c := Fin.ext ((k0_dev2_eq c).trans (by revert c; decide))
theorem dev3_eq (c : Dev nD) : (⟨k0_dev3 c, Gen.k0_dev3_lt c⟩ : Dev nD) = pe 2 c := Fin.ext ((k0_dev3_eq c).trans (by revert c; decide))
theorem dev4_eq (c : Dev nD) : (⟨k0_dev4 c, Gen.k0_dev4_lt c⟩ : Dev nD) = pe 1 c := Fin.ext ((k0_dev4_eq c).trans (by revert c; decide))
theorem dev5_eq (c : Dev nD) : (⟨k0_dev5 c, Gen.k0_dev5_lt c⟩ : Dev nD) = pe 0 c := Fin.ext ((k0_dev5_eq c).trans (by revert c; decide))
theorem dev6_eq (c : Dev nD) : (⟨k0_dev6 c, Gen.k0_dev6_lt c⟩ : Dev nD) = pe 2 c := Fin.ext ((k0_dev6_eq c).trans (by revert c; decide))

/-! ## The memrefs and cells -/

abbrev xM : Memref sig .tc .vmem S1024x512 .f32 := Memref.whole cc0_stg0_0
abbrev oM : Memref sig .tc .vmem S1024x512 .f32 := Memref.whole cc0_stg1_0
abbrev sM : Memref sig .tc .vmem S4x2x1024 .f32 := Memref.whole cc0_scratch0

/-- Row j of the statistics buffer, as the body slices it for a copy's source and target. -/
abbrev rowM (j : Dev nD) : Memref sig .tc .vmem S2x1024 .f32 :=
  (sM.slice (Rect.unit (s := S4x2x1024) (k0_off2 j) S1x2x1024.size (Gen.k0_off2_inb j)) (fun _ => rfl)).squeeze S2x1024 Gen.squeezes_S1x2x1024_S2x1024

abbrev barS : Sem sig := (SemArray.scalar (sig.barrier 0 rfl) : Sems sig S_).sem

abbrev sndV : Fin 3 → DmaSems sig S_ := fun k => match k with
  | 0 => (cc0_scratch1.slice (Rect.unit (s := S3) ![0] S1.size Gen.inb_S3_S1_0)).squeeze S_ Gen.squeezes_S1_S_
  | 1 => (cc0_scratch1.slice (Rect.unit (s := S3) ![1] S1.size Gen.inb_S3_S1_1)).squeeze S_ Gen.squeezes_S1_S_
  | 2 => (cc0_scratch1.slice (Rect.unit (s := S3) ![2] S1.size Gen.inb_S3_S1_2)).squeeze S_ Gen.squeezes_S1_S_
abbrev rcvV : Fin 3 → DmaSems sig S_ := fun k => match k with
  | 0 => (cc0_scratch2.slice (Rect.unit (s := S3) ![0] S1.size Gen.inb_S3_S1_0)).squeeze S_ Gen.squeezes_S1_S_
  | 1 => (cc0_scratch2.slice (Rect.unit (s := S3) ![1] S1.size Gen.inb_S3_S1_1)).squeeze S_ Gen.squeezes_S1_S_
  | 2 => (cc0_scratch2.slice (Rect.unit (s := S3) ![2] S1.size Gen.inb_S3_S1_2)).squeeze S_ Gen.squeezes_S1_S_
abbrev sndS (k : Fin 3) : DmaSem sig := (sndV k).sem
abbrev rcvS (k : Fin 3) : DmaSem sig := (rcvV k).sem

abbrev barCell (c : Dev nD) : GSem nD τ sig := ((c : Thread nD τ), .reg barS)
abbrev sndCell (c : Dev nD) (k : Fin 3) : GSem nD τ sig := ((c : Thread nD τ), .dma (sndS k))
abbrev rcvCell (c : Dev nD) (k : Fin 3) : GSem nD τ sig := ((c : Thread nD τ), .dma (rcvS k))

theorem sndS_val : ∀ k : Fin 3, (sndS k).val = 2 + k.val := by decide
theorem rcvS_val : ∀ k : Fin 3, (rcvS k).val = 5 + k.val := by decide

/-- The kernel's own (scoped) six DMA semaphores, as the launch indexes them; -/
abbrev osem : Fin 6 → SemLoc sig := fun | 0 => .dma (sndS 0) | 1 => .dma (sndS 1) | 2 => .dma (sndS 2) | 3 => .dma (rcvS 0) | 4 => .dma (rcvS 1) | 5 => .dma (rcvS 2)
/-- all seven of the exchange's: the barrier first. -/
abbrev csem : Fin 7 → SemLoc sig := fun | 0 => .reg barS | 1 => .dma (sndS 0) | 2 => .dma (sndS 1) | 3 => .dma (sndS 2) | 4 => .dma (rcvS 0) | 5 => .dma (rcvS 1) | 6 => .dma (rcvS 2)
abbrev kcell (ck : Dev nD × Fin 7) : GSem nD τ sig := ((ck.1 : Thread nD τ), csem ck.2)

/-- The credit of one row's copy. -/
abbrev N : ℕ := (rowM (0 : Dev nD)).view.dmaCredit
theorem N_pos : 0 < N := View.dmaCredit_pos _ (by decide)

/-! ## Contents -/

/-- Device j's input block as its staging buffer holds it. -/
def xin (j : Dev nD) : (cc0_stg0_0 : Ref sig .tc).ty.Contents (Elt F) :=
  (win0_0.blk (0 : Fin 1)).view.read (Elt F) ((s₀ m ρ).mem ((j : Thread nD τ).loc main_arg0))

/-- The statistics buffer once every row has landed: row j is what device j stored. -/
def stats : (cc0_scratch0 : Ref sig .tc).ty.Contents (Elt F) := Iface.statsOf (fun j => xin m ρ j)

/-- Row j of device c's statistics buffer, held at share q with contents f on that row. -/
def rowPts (c j : Dev nD) (q : PosShare TreeShare) (f : Buf (Elt F) ((rowM j).view.loc (c : Thread nD τ))) : sProp 𝕄 :=
  (rowM j).view.loc (c : Thread nD τ) ↦[(rowM j).view.set]{q} f

def xPts (c : Dev nD) : sProp 𝕄 :=
  (xM : Memref sig .tc .vmem S1024x512 .f32).view.loc (c : Thread nD τ) ↦[(xM : Memref sig .tc .vmem S1024x512 .f32).view.set]{fullShare} xin m ρ c

instance rowPts_storable (c j : Dev nD) (q) (f) : BI.Storable (upEmb : UEmb _ 𝕄) (rowPts (F := F) c j q f) := by unfold rowPts; infer_instance

/-- The three shares of its own row a device's three copies read through. -/
def shr : Fin 3 → PosShare TreeShare := fun | 0 => fullShare.left | 1 => fullShare.right.left | 2 => fullShare.right.right

/-! ## The schedule -/

def barPay (c : Dev nD) (d : Fin 3) : sProp 𝕄 := iprop(∃ f, rowPts (pb d c) c fullShare f)
def rcvPay (c : Dev nD) (k : Fin 3) : sProp 𝕄 := rowPts c (pb k c) fullShare (stats m ρ)
def sndPay (c : Dev nD) (k : Fin 3) : sProp 𝕄 := rowPts c c (shr k) (stats m ρ)

abbrev IsBar (g : GSem nD τ sig) : Prop := g.1.2 = .tc ∧ g.2 = .reg barS
abbrev IsRcv (sm : SemLoc sig) : Prop := sm = .dma (rcvS 0) ∨ sm = .dma (rcvS 1) ∨ sm = .dma (rcvS 2)
abbrev IsSnd (sm : SemLoc sig) : Prop := sm = .dma (sndS 0) ∨ sm = .dma (sndS 1) ∨ sm = .dma (sndS 2)
abbrev IsXfer (g : GSem nD τ sig) : Prop := g.1.2 = .tc ∧ (IsSnd g.2 ∨ IsRcv g.2)

/-- One round, round 0: a barrier cell has three unit duties; a send or receive cell the duty 0 of a row's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (rcvS 0) then rcvPay m ρ g.1.1 0
    else if g.2 = .dma (rcvS 1) then rcvPay m ρ g.1.1 1
    else if g.2 = .dma (rcvS 2) then rcvPay m ρ g.1.1 2
    else if g.2 = .dma (sndS 0) then sndPay m ρ g.1.1 0
    else if g.2 = .dma (sndS 1) then sndPay m ρ g.1.1 1
    else if g.2 = .dma (sndS 2) then sndPay m ρ g.1.1 2
    else iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m ρ).payload g r d) := by
  show BI.Storable upEmb (if g.2 = .reg barS then barPay g.1.1 d
    else if g.2 = .dma (rcvS 0) then rcvPay m ρ g.1.1 0
    else if g.2 = .dma (rcvS 1) then rcvPay m ρ g.1.1 1
    else if g.2 = .dma (rcvS 2) then rcvPay m ρ g.1.1 2
    else if g.2 = .dma (sndS 0) then sndPay m ρ g.1.1 0
    else if g.2 = .dma (sndS 1) then sndPay m ρ g.1.1 1
    else if g.2 = .dma (sndS 2) then sndPay m ρ g.1.1 2
    else iprop(emp))
  unfold barPay rcvPay sndPay
  (repeat' split) <;> infer_instance

section Sched
variable (c : Dev nD)

theorem snd_ne_bar (k : Fin 3) : (SemLoc.dma (sndS k) : SemLoc sig) ≠ .reg barS := fun h => by cases h
theorem rcv_ne_bar (k : Fin 3) : (SemLoc.dma (rcvS k) : SemLoc sig) ≠ .reg barS := fun h => by cases h
theorem snd_ne_rcv : ∀ k k' : Fin 3, (SemLoc.dma (sndS k) : SemLoc sig) ≠ .dma (rcvS k') := by decide
theorem rcv_ne_snd : ∀ k k' : Fin 3, (SemLoc.dma (rcvS k) : SemLoc sig) ≠ .dma (sndS k') := by decide
theorem snd_inj : ∀ k k' : Fin 3, (SemLoc.dma (sndS k) : SemLoc sig) = .dma (sndS k') → k = k' := by decide
theorem rcv_inj : ∀ k k' : Fin 3, (SemLoc.dma (rcvS k) : SemLoc sig) = .dma (rcvS k') → k = k' := by decide
theorem isSnd_snd : ∀ k : Fin 3, IsSnd (SemLoc.dma (sndS k) : SemLoc sig) := by decide
theorem isRcv_rcv : ∀ k : Fin 3, IsRcv (SemLoc.dma (rcvS k) : SemLoc sig) := by decide
theorem not_isRcv_snd : ∀ k : Fin 3, ¬ IsRcv (SemLoc.dma (sndS k) : SemLoc sig) := by decide
theorem not_isRcv_bar : ¬ IsRcv (SemLoc.reg barS : SemLoc sig) := by decide
theorem not_bar_snd (k : Fin 3) : ¬ IsBar (sndCell c k) := fun h => snd_ne_bar k h.2
theorem not_bar_rcv (k : Fin 3) : ¬ IsBar (rcvCell c k) := fun h => rcv_ne_bar k h.2

theorem duties_bar : (Rd (F := F) m ρ).duties (barCell c) 0 = Finset.univ := by dsimp only [Rd]; exact if_pos ⟨rfl, rfl, rfl⟩
theorem duties_snd (k : Fin 3) : (Rd (F := F) m ρ).duties (sndCell c k) 0 = {0} := by
  dsimp only [Rd]; rw [if_neg (fun h => not_bar_snd c k h.2)]; exact if_pos ⟨rfl, rfl, .inl (isSnd_snd k)⟩
theorem duties_rcv (k : Fin 3) : (Rd (F := F) m ρ).duties (rcvCell c k) 0 = {0} := by
  dsimp only [Rd]; rw [if_neg (fun h => not_bar_rcv c k h.2)]; exact if_pos ⟨rfl, rfl, .inr (isRcv_rcv k)⟩
theorem duties_later (g : GSem nD τ sig) : ∀ r, 1 ≤ r → (Rd (F := F) m ρ).duties g r = ∅ :=
  fun r hr => by dsimp only [Rd]; rw [if_neg fun h => by omega, if_neg fun h => by omega]

theorem amount_bar (d : Fin 3) : (Rd (F := F) m ρ).amount (barCell c) 0 d = 1 := by dsimp only [Rd]; exact if_pos rfl
theorem amount_snd (k d : Fin 3) : (Rd (F := F) m ρ).amount (sndCell c k) 0 d = N := by dsimp only [Rd]; exact if_neg (snd_ne_bar k)
theorem amount_rcv (k d : Fin 3) : (Rd (F := F) m ρ).amount (rcvCell c k) 0 d = N := by dsimp only [Rd]; exact if_neg (rcv_ne_bar k)

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_snd (k : Fin 3) : (Rd (F := F) m ρ).expect (sndCell c k) 0 = N := by
  unfold Schedule.expect Schedule.amountOf; rw [duties_snd, Finset.sum_singleton, amount_snd]
theorem expect_rcv (k : Fin 3) : (Rd (F := F) m ρ).expect (rcvCell c k) 0 = N := by
  unfold Schedule.expect Schedule.amountOf; rw [duties_rcv, Finset.sum_singleton, amount_rcv]

theorem payload_bar (d : Fin 3) : (Rd (F := F) m ρ).payload (barCell c) 0 d = barPay c d := by dsimp only [Rd]; rw [if_pos rfl]
theorem payload_rcv : ∀ (k d : Fin 3), (Rd (F := F) m ρ).payload (rcvCell c k) 0 d = rcvPay m ρ c k := by
  intro k d
  fin_cases k <;> dsimp only [Rd] <;> (repeat (first | rw [if_pos rfl] | rw [if_neg (by decide)])) <;> rfl
theorem payload_snd : ∀ (k d : Fin 3), (Rd (F := F) m ρ).payload (sndCell c k) 0 d = sndPay m ρ c k := by
  intro k d
  fin_cases k <;> dsimp only [Rd] <;> (repeat (first | rw [if_pos rfl] | rw [if_neg (by decide)])) <;> rfl

theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of the barrier cell's round, no duty taken: the three rows the peers handed over. -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_fin3, payload_bar, payload_bar, payload_bar]
theorem rest_snd (k : Fin 3) : bigSep ((Rd (F := F) m ρ).duties (sndCell c k) 0 \ ∅) (fun d => (Rd (F := F) m ρ).payload (sndCell c k) 0 d) = sndPay m ρ c k := by
  rw [Finset.sdiff_empty, duties_snd, bigSep_singleton, payload_snd]
theorem rest_rcv (k : Fin 3) : bigSep ((Rd (F := F) m ρ).duties (rcvCell c k) 0 \ ∅) (fun d => (Rd (F := F) m ρ).payload (rcvCell c k) 0 d) = rcvPay m ρ c k := by
  rw [Finset.sdiff_empty, duties_rcv, bigSep_singleton, payload_rcv]

end Sched

/-! ## What each device owes at launch; the levels -/

/-- The three receive credits a device's copies pay: summed so that the first copy (k = 1) peels the last summand. -/
def Orcv (c : Dev nD) : CellTallies nD τ sig Unit :=
  tallyAt (rcvCell (pe 2 c) 2) () N + tallyAt (rcvCell (pe 0 c) 0) () N + tallyAt (rcvCell (pe 1 c) 1) () N
/-- and with them the three barrier units, the first signal's (to p 0 c) last. -/
def O₀ (c : Dev nD) : CellTallies nD τ sig Unit :=
  Orcv c + tallyAt (barCell (pe 2 c)) () 1 + tallyAt (barCell (pe 1 c)) () 1 + tallyAt (barCell (pe 0 c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if IsRcv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [if_pos rfl]
theorem lv_rcv (c : Dev nD) (k : Fin 3) : lv (rcvCell c k) () = 2 := by dsimp only [lv]; rw [if_neg (rcv_ne_bar k), if_pos (isRcv_rcv k)]

theorem Orcv_pos {c : Dev nD} {g : GSem nD τ sig} {u : Unit} (h : 0 < Orcv c g u) : ∃ k, g = rcvCell (pe k c) k := by
  unfold Orcv at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 0 h'.1), if_neg (fun h' => hn 1 h'.1)] at h
  exact Nat.lt_irrefl 0 h

theorem O₀_pos {c : Dev nD} {g : GSem nD τ sig} {u : Unit} (h : 0 < O₀ c g u) : (∃ k, g = rcvCell (pe k c) k) ∨ ∃ e, g = barCell (pe e c) := by
  unfold O₀ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  exact (not_exists.mpr hn.1) (Orcv_pos h)

theorem mayWait_stage (c : Dev nD) (q : DmaSem sig) (hq : ¬ IsRcv (SemLoc.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨e, rfl⟩ <;> exact Finset.mem_singleton_self _)
      (fun p hp => by rw [Finset.mem_singleton.mp hp]; dsimp only [lv]; rw [if_neg (fun h => by cases h), if_neg hq])
      (fun g u hg => by
        rcases O₀_pos hg with ⟨k, rfl⟩ | ⟨e, rfl⟩
        · rw [lv_rcv]; decide
        · rw [lv_bar]; decide)
  · rw [MayWait_zero]; iintro -; iempintro

/-- At its barrier wait a device owes its three receive credits only: receive cells, above its barrier cell. -/
theorem mayWait_bar (c : Dev nD) :
    (levAts L lv : sProp 𝕄) ⊢ MayWait (c : Thread nD τ) (.reg barS) () (Orcv c) :=
  MayOwe.of_cut (L := L) (lev := lv) 1 (fun p hp => by rw [Finset.mem_singleton.mp hp, L_tc]; exact Finset.mem_singleton_self _)
    (fun g u hg => by obtain ⟨k, rfl⟩ := Orcv_pos hg; rw [L_tc]; exact Finset.mem_singleton_self _)
    (fun p hp => by rw [Finset.mem_singleton.mp hp]; dsimp only [lv]; rw [if_pos rfl])
    (fun g u hg => by obtain ⟨k, rfl⟩ := Orcv_pos hg; rw [lv_rcv]; decide)

end Cert.KernelIdealProof

end
-- ==== Proof.Rows.lean ====
/-
  The statistics buffer as its four rows.

  Row j is the set of indices whose first coordinate is j. The four rows are pairwise disjoint and
  cover the buffer, so the buffer held whole is its four rows held separately, named from any device c
  as its own row and the rows of the three devices after it. A device's own row held in full is its
  three shares. What a store of a device's statistics leaves on its own row, and what a copy of a row
  lands on the target's row, both read as the one function `stats` on that row.
-/
import proofs.«900600_g7700000000000601_dist_softmax_colshard_i_m1024_n512_v7x_i4_f32_1_alg».proof.Proof.Proto
import Idealize.ShloMosaic.Lib.Pipeline.Value

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The rows as sets -/

/-- A row's rectangle, at any spelling of the offsets (j, 0, 0). -/
theorem mem_rowRect {off : Fin 3 → Nat} {inb} (j : Dev nD) (hoff : off = ![j.val, 0, 0]) (i : S4x2x1024.Idx) :
    i ∈ (Rect.unit (s := S4x2x1024) off S1x2x1024.size inb).set ↔ (i 0).val = j.val := by
  rw [Rect.mem_set_unit]
  subst hoff
  constructor
  · intro h
    have h0 : j.val ≤ (i 0).val ∧ (i 0).val < j.val + 1 := h 0
    omega
  · intro h a
    match a with
    | ⟨0, _⟩ => exact (show j.val ≤ (i 0).val ∧ (i 0).val < j.val + 1 from by omega)
    | ⟨1, _⟩ => exact (show 0 ≤ (i 1).val ∧ (i 1).val < 0 + 2 from ⟨Nat.zero_le _, by have := (show (i 1).val < 2 from (i 1).isLt); omega⟩)
    | ⟨2, _⟩ => exact (show 0 ≤ (i 2).val ∧ (i 2).val < 0 + 1024 from ⟨Nat.zero_le _, by have := (show (i 2).val < 1024 from (i 2).isLt); omega⟩)

theorem rowM_set (j : Dev nD) :
    ((rowM j).view.set : Finset S4x2x1024.Idx) = (Rect.unit (s := S4x2x1024) (k0_off2 j) S1x2x1024.size (Gen.k0_off2_inb j)).set := by
  exact (View.set_reshape (v := (View.whole cc0_scratch0).slice (Rect.unit (s := S4x2x1024) (k0_off2 j) S1x2x1024.size (Gen.k0_off2_inb j))) _).trans
    (View.set_slice_whole cc0_scratch0 _)

theorem mem_rowM (j : Dev nD) (i : S4x2x1024.Idx) : i ∈ ((rowM j).view.set : Finset S4x2x1024.Idx) ↔ (i 0).val = j.val := by
  rw [rowM_set]; exact mem_rowRect j (k0_off2_eq j) i

theorem rows_disjoint {j j' : Dev nD} (h : j ≠ j') :
    Disjoint ((rowM j).view.set : Finset S4x2x1024.Idx) ((rowM j').view.set : Finset S4x2x1024.Idx) :=
  Finset.disjoint_left.mpr fun i h1 h2 => h (Fin.ext (((mem_rowM j i).mp h1).symm.trans ((mem_rowM j' i).mp h2)))

theorem dev_cases : ∀ (c x : Dev nD), x = c ∨ x = pe 0 c ∨ x = pe 1 c ∨ x = pe 2 c := by decide
theorem pe_ne_pe : ∀ (c : Dev nD) (e e' : Fin 3), e ≠ e' → pe e c ≠ pe e' c := by decide

theorem rows_cover (c : Dev nD) :
    (Finset.univ : Finset S4x2x1024.Idx)
      = (rowM c).view.set ∪ ((rowM (pe 0 c)).view.set ∪ ((rowM (pe 1 c)).view.set ∪ (rowM (pe 2 c)).view.set)) := by
  ext i
  simp only [Finset.mem_univ, Finset.mem_union, true_iff]
  have hx := dev_cases c ⟨(i 0).val, (i 0).isLt⟩
  rcases hx with h | h | h | h
  · exact .inl ((mem_rowM c i).mpr (congrArg Fin.val h))
  · exact .inr (.inl ((mem_rowM _ i).mpr (congrArg Fin.val h)))
  · exact .inr (.inr (.inl ((mem_rowM _ i).mpr (congrArg Fin.val h))))
  · exact .inr (.inr (.inr ((mem_rowM _ i).mpr (congrArg Fin.val h))))

/-! ## The buffer whole is its four rows -/

/-- Device d's statistics buffer held whole. -/
def wholePts (d : Dev nD) (f : Buf (Elt F) ((d : Thread nD τ).loc cc0_scratch0)) : sProp 𝕄 :=
  ((d : Thread nD τ).loc cc0_scratch0) ↦{fullShare} f

theorem rows_split (c d : Dev nD) (f : Buf (Elt F) ((d : Thread nD τ).loc cc0_scratch0)) :
    (wholePts d f : sProp 𝕄)
      ⊣⊢ iprop(rowPts d c fullShare f ∗ rowPts d (pe 0 c) fullShare f ∗ rowPts d (pe 1 c) fullShare f ∗ rowPts d (pe 2 c) fullShare f) := by
  unfold wholePts rowPts
  have h0 : Disjoint ((rowM c).view.set : Finset S4x2x1024.Idx) ((rowM (pe 0 c)).view.set ∪ ((rowM (pe 1 c)).view.set ∪ (rowM (pe 2 c)).view.set)) :=
    Finset.disjoint_union_right.mpr ⟨rows_disjoint (pe_ne 0 c).symm,
      Finset.disjoint_union_right.mpr ⟨rows_disjoint (pe_ne 1 c).symm, rows_disjoint (pe_ne 2 c).symm⟩⟩
  have h1 : Disjoint ((rowM (pe 0 c)).view.set : Finset S4x2x1024.Idx) ((rowM (pe 1 c)).view.set ∪ (rowM (pe 2 c)).view.set) :=
    Finset.disjoint_union_right.mpr ⟨rows_disjoint (pe_ne_pe c 0 1 (by decide)), rows_disjoint (pe_ne_pe c 0 2 (by decide))⟩
  have h2 : Disjoint ((rowM (pe 1 c)).view.set : Finset S4x2x1024.Idx) ((rowM (pe 2 c)).view.set) := rows_disjoint (pe_ne_pe c 1 2 (by decide))
  show (((d : Thread nD τ).loc cc0_scratch0) ↦[(Finset.univ : Finset S4x2x1024.Idx)]{fullShare} f : sProp 𝕄) ⊣⊢ _
  rw [rows_cover c]
  exact (pointsTo_union h0).trans (sep_congr_right ((pointsTo_union h1).trans (sep_congr_right (pointsTo_union h2))))

/-- A row held in full is its three shares. -/
theorem row_shares (c d : Dev nD) (f : Buf (Elt F) ((rowM c).view.loc (d : Thread nD τ))) :
    (rowPts d c fullShare f : sProp 𝕄) ⊣⊢ iprop(rowPts d c (shr 0) f ∗ rowPts d c (shr 1) f ∗ rowPts d c (shr 2) f) := by
  unfold rowPts shr
  exact (pointsTo_share (PosShare.mem_left_op_right fullShare)).trans
    (sep_congr_right (pointsTo_share (PosShare.mem_left_op_right fullShare.right)))

/-! ## What a row holds -/

/-- Writing through a view what the view reads of g leaves g on the view's elements. -/
theorem write_read_on {κ : Kind} {sp : Space} {s : Shape} {e : EltTy} (v : View sig κ sp s e) (fd g : v.ty.Contents (Elt F))
    {i : v.ty.Idx} (h : i ∈ v.set) : v.write (Elt F) fd (v.read (Elt F) g) Finset.univ i = g i := by
  obtain ⟨y, rfl⟩ := View.exists_emb_of_mem_set v h
  rw [View.write_emb_of_mem _ _ (Finset.mem_univ y), View.read_apply, cast_cast, cast_eq]

/-- A landed row reads as the source buffer on the row. -/
theorem landed_congr (c d : Dev nD) (q : PosShare TreeShare) (fd g : Buf (Elt F) ((rowM c).view.loc (d : Thread nD τ))) :
    (rowPts d c q ((rowM c).view.write (Elt F) fd ((rowM c).view.read (Elt F) g) Finset.univ) : sProp 𝕄) = rowPts d c q g := by
  unfold rowPts
  exact pointsTo_congr fun i hi => write_read_on (rowM c).view fd g hi

end Cert.KernelIdealProof

end
-- ==== Proof.Body.lean ====
/-
  One device's body, from its share of the exchange's ghost state to its result block.

  In program order: the three barrier signals hand each peer the row of this device's statistics
  buffer that the peer will overwrite; the device stores its own row (its block's row maxima and row
  sums), which then reads as `stats` on that row, and cuts it into three shares; the barrier wait
  brings back the three target rows on the peers; each copy spends one share and one target row; the
  three receive waits bring the peers' rows, the three send waits the shares; the four rows are the
  buffer whole again, holding `stats`; the ten row loads and the product give the result block.
-/
import proofs.«900600_g7700000000000601_dist_softmax_colshard_i_m1024_n512_v7x_i4_f32_1_alg».proof.Proof.Rows

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## What the store of a device's own row leaves -/

/-- The rectangle the body loads and stores its own row through. -/
abbrev r1 (c : Dev nD) : Rect S4x2x1024 := Rect.unit (s := S4x2x1024) (k0_off1 c) S1x2x1024.size (Gen.k0_off1_inb c)

theorem r1_set (c : Dev nD) : ((sM.access (r1 c)).set : Finset S4x2x1024.Idx) = (rowM c).view.set := by
  rw [rowM_set]
  refine (View.set_slice_whole cc0_scratch0 (r1 c)).trans ?_
  ext i; rw [mem_rowRect c (k0_off1_eq c), mem_rowRect c (k0_off2_eq c)]

/-- On row c the store leaves its payload, read at the two inner coordinates. -/
theorem stored_eq (c : Dev nD) (f0 : (cc0_scratch0 : Ref sig .tc).ty.Contents (Elt F)) (w : Vec F S1x2x1024 .f32)
    (i : S4x2x1024.Idx) (hi : i ∈ ((rowM c).view.set : Finset S4x2x1024.Idx)) :
    ((sM.access (r1 c)).write (Elt F) f0 w Finset.univ) i = w (ix3 (0 : Fin 1) (i 1) (i 2)) := by
  have hi' : i ∈ ((sM.access (r1 c)).set : Finset S4x2x1024.Idx) := by rw [r1_set]; exact hi
  obtain ⟨y, rfl⟩ := View.exists_emb_of_mem_set (sM.access (r1 c)) hi'
  rw [View.write_emb_of_mem _ _ (Finset.mem_univ y)]
  have hy : y = ix3 (0 : Fin 1) (((r1 c).emb y : S4x2x1024.Idx) 1) (((r1 c).emb y : S4x2x1024.Idx) 2) := by
    funext a
    match a with
    | ⟨0, _⟩ =>
        refine Fin.ext ?_
        show (y (0 : Fin 3)).val = 0
        have h0 : (y (0 : Fin 3)).val < 1 := (y (0 : Fin 3)).isLt
        omega
    | ⟨1, _⟩ =>
        refine Fin.ext ?_
        have h : (((r1 c).emb y) (1 : Fin 3) : Nat) = k0_off1 c 1 + 1 * (y (1 : Fin 3) : Nat) := Rect.emb_apply (r := r1 c) y 1
        rw [k0_off1_eq] at h
        have h' : (((r1 c).emb y) (1 : Fin 3) : Nat) = 0 + 1 * (y (1 : Fin 3) : Nat) := h
        show (y (1 : Fin 3) : Nat) = (((r1 c).emb y) (1 : Fin 3) : Nat)
        omega
    | ⟨2, _⟩ =>
        refine Fin.ext ?_
        have h : (((r1 c).emb y) (2 : Fin 3) : Nat) = k0_off1 c 2 + 1 * (y (2 : Fin 3) : Nat) := Rect.emb_apply (r := r1 c) y 2
        rw [k0_off1_eq] at h
        have h' : (((r1 c).emb y) (2 : Fin 3) : Nat) = 0 + 1 * (y (2 : Fin 3) : Nat) := h
        show (y (2 : Fin 3) : Nat) = (((r1 c).emb y) (2 : Fin 3) : Nat)
        omega
  exact (congrArg w hy)

theorem stored_congr (c : Dev nD) (f0 : (cc0_scratch0 : Ref sig .tc).ty.Contents (Elt F)) :
    (((sM.access (r1 c)).loc (c : Thread nD τ)) ↦[((rowM c).view.set : Finset S4x2x1024.Idx)]{fullShare}
        ((sM.access (r1 c)).write (Elt F) f0 (k0_pay4 (xin m ρ c)) Finset.univ) : sProp 𝕄)
      = rowPts c c fullShare (stats m ρ) := by
  unfold rowPts
  refine pointsTo_congr fun i hi => (stored_eq c f0 (k0_pay4 (xin m ρ c)) i hi).trans ?_
  have hc : (⟨(i 0).val, (i 0).isLt⟩ : Dev nD) = c := Fin.ext ((mem_rowM c i).mp hi)
  show _ = Iface.statsOf (fun j => xin m ρ j) i
  unfold Iface.statsOf
  show _ = k0_pay4 (xin m ρ ⟨(i 0).val, (i 0).isLt⟩) _
  rw [hc]

/-! ## The pipeline's proof data -/

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device c. -/
def outAt (c : Dev nD) : (cc0_stg1_0 : Ref sig .tc).ty.Contents (Elt F) := Iface.outOf c (fun j => xin m ρ j)

/-- The cells' invariants device c's body opens, under the names the launch allocated them at: its own seven,
    the three peers' barrier cells (its signals), and the receive cell k of the peer k + 1 places on (its copy k). -/
def invs (K : Dev nD × Fin 7 → ℕ) (c : Dev nD) : sProp 𝕄 :=
  iprop(cellInv ER (Rd m ρ) (K (c, 0)) (barCell c)
    ∗ (cellInv ER (Rd m ρ) (K (c, 1)) (sndCell c 0) ∗ cellInv ER (Rd m ρ) (K (c, 2)) (sndCell c 1) ∗ cellInv ER (Rd m ρ) (K (c, 3)) (sndCell c 2))
    ∗ (cellInv ER (Rd m ρ) (K (c, 4)) (rcvCell c 0) ∗ cellInv ER (Rd m ρ) (K (c, 5)) (rcvCell c 1) ∗ cellInv ER (Rd m ρ) (K (c, 6)) (rcvCell c 2))
    ∗ (cellInv ER (Rd m ρ) (K (pe 0 c, 0)) (barCell (pe 0 c)) ∗ cellInv ER (Rd m ρ) (K (pe 1 c, 0)) (barCell (pe 1 c)) ∗ cellInv ER (Rd m ρ) (K (pe 2 c, 0)) (barCell (pe 2 c)))
    ∗ (cellInv ER (Rd m ρ) (K (pe 0 c, 4)) (rcvCell (pe 0 c) 0) ∗ cellInv ER (Rd m ρ) (K (pe 1 c, 5)) (rcvCell (pe 1 c) 1) ∗ cellInv ER (Rd m ρ) (K (pe 2 c, 6)) (rcvCell (pe 2 c) 2)))

instance invs_persistent (K : Dev nD × Fin 7 → ℕ) (c : Dev nD) : BI.Persistent (invs m ρ K c) := by unfold invs; infer_instance

/-- The exchange's ghost state device c starts from: the invariants; its positions at round 0 of its seven cells; the
    reached-marks of the cells it pays; the nine duty tokens it pays with. -/
def ghost (K : Dev nD × Fin 7 → ℕ) (c : Dev nD) : sProp 𝕄 :=
  iprop(invs m ρ K c
    ∗ (atPos ER (barCell c) 0 ∅ 0
        ∗ (atPos ER (sndCell c 0) 0 ∅ 0 ∗ atPos ER (sndCell c 1) 0 ∅ 0 ∗ atPos ER (sndCell c 2) 0 ∅ 0)
        ∗ (atPos ER (rcvCell c 0) 0 ∅ 0 ∗ atPos ER (rcvCell c 1) 0 ∅ 0 ∗ atPos ER (rcvCell c 2) 0 ∅ 0))
    ∗ ((reached ER (barCell (pe 0 c)) 0 ∗ reached ER (barCell (pe 1 c)) 0 ∗ reached ER (barCell (pe 2 c)) 0)
        ∗ (reached ER (rcvCell (pe 0 c) 0) 0 ∗ reached ER (rcvCell (pe 1 c) 1) 0 ∗ reached ER (rcvCell (pe 2 c) 2) 0)
        ∗ (reached ER (sndCell c 0) 0 ∗ reached ER (sndCell c 1) 0 ∗ reached ER (sndCell c 2) 0))
    ∗ ((dutyTok ER (barCell (pe 0 c)) 0 0 ∗ dutyTok ER (barCell (pe 1 c)) 0 1 ∗ dutyTok ER (barCell (pe 2 c)) 0 2)
        ∗ (dutyTok ER (rcvCell (pe 0 c) 0) 0 0 ∗ dutyTok ER (rcvCell (pe 1 c) 1) 0 0 ∗ dutyTok ER (rcvCell (pe 2 c) 2) 0 0)
        ∗ (dutyTok ER (sndCell c 0) 0 0 ∗ dutyTok ER (sndCell c 1) 0 0 ∗ dutyTok ER (sndCell c 2) 0 0)))

/-- What device c's body starts from: that at some names, its credit tokens (its barrier's three units, its three
    receive cells' credits) and the level facts. -/
def start (c : Dev nD) : sProp 𝕄 :=
  iprop((∃ K, ghost m ρ K c) ∗ cred (tallyAt (barCell c) () 3)
    ∗ (cred (tallyAt (rcvCell c 0) () N) ∗ cred (tallyAt (rcvCell c 1) () N) ∗ cred (tallyAt (rcvCell c 2) () N)) ∗ levAts L lv)

def Φ₀ (c : Dev nD) : sProp 𝕄 := iprop(start m ρ c ∗ ∃ f, wholePts c f)
/-- After the point: the statistics buffer whole, holding every device's row; the six own cells at zero, closed. -/
def Φ₁ (c : Dev nD) : sProp 𝕄 :=
  iprop(wholePts c (stats m ρ)
    ∗ (semVal (sndCell c 0) 0 ∗ semVal (sndCell c 1) 0 ∗ semVal (sndCell c 2) 0)
    ∗ (semVal (rcvCell c 0) 0 ∗ semVal (rcvCell c 1) 0 ∗ semVal (rcvCell c 2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 7 → ℕ)

abbrev r0 : Rect S1024x512 := Rect.unit (s := S1024x512) ![0, 0] S1024x512.size Gen.inb_S1024x512_S1024x512_0_0

theorem hz : (![0, 0] : Fin 2 → Nat) = fun _ => 0 := funext fun a => by fin_cases a <;> rfl
theorem read_x (f : (cc0_stg0_0 : Ref sig .tc).ty.Contents (Elt F)) : (xM : Memref sig .tc .vmem S1024x512 .f32).view.readAt (Elt F) r0.toLoadRect f = f :=
  Memref.readAt_unit_zero (Elt F) cc0_stg0_0 hz _ f
theorem write_out (f w : (cc0_stg1_0 : Ref sig .tc).ty.Contents (Elt F)) :
    ((oM : Memref sig .tc .vmem S1024x512 .f32).access r0 : View sig .tc _ _ _).write (Elt F) f w Finset.univ = w :=
  Memref.write_access_unit_zero_univ (Elt F) cc0_stg1_0 hz _ f w

/-- The result store, in the form the run of the body's tail leaves it: through the slice of the whole staging buffer. -/
theorem write_out'' (inb) (f w : (cc0_stg1_0 : Ref sig .tc).ty.Contents (Elt F)) :
    View.write (Elt F) ((View.whole cc0_stg1_0).slice (Rect.unit (s := S1024x512) ![0, 0] ![1024, 512] inb)) f w Finset.univ = w :=
  Memref.write_access_unit_zero_univ (Elt F) cc0_stg1_0 hz _ f w

theorem pb0_eq : ∀ c : Dev nD, pb 0 c = pe 2 c := by decide
theorem pb1_eq : ∀ c : Dev nD, pb 1 c = pe 1 c := by decide
theorem pb2_eq : ∀ c : Dev nD, pb 2 c = pe 0 c := by decide

/-- The send rule at the exchange's cells: copy k of device c, addressed to n = p k c, reads its share of c's own row and
    overwrites row c of n's buffer; what lands reads as `stats` on that row. -/
theorem wp_send_row (κ₁ κ₂ : ℕ) (c n : Dev nD) (k : Fin 3) (hn : n = pe k c)
    {hsc : ((rowM c) : Memref sig (Dev.tc n : Thread nD τ).2.kind .vmem S2x1024 .f32).view.ref.isScScratch = false}
    {hsrc : ((rowM c) : Memref sig .tc .vmem S2x1024 .f32).view.WordExact} {hdst : ((rowM c) : Memref sig .tc .vmem S2x1024 .f32).view.WordExact}
    {hsem : DmaTarget.Typed .vmem (.dma (rcvS k)) (.remote (Dev.tc n : Thread nD τ) ((rowM c) : Memref sig .tc .vmem S2x1024 .f32) (.dma (sndS k)) hsc)}
    {α : Type} {Q : α → sProp 𝕄} {k' : PUnit → Prog (TpuEff nD τ sig (Elt F) Λ₀ .tc) α}
    (fn : Buf (Elt F) ((rowM c).view.loc (pe k c : Thread nD τ))) (O₁ O : CellTallies nD τ sig Unit) (hO : O₁ = O + tallyAt (rcvCell (pe k c) k) () N) (W : Waits sig Unit) :
    iprop(cellInv ER (Rd m ρ) κ₁ (sndCell c k) ∗ cellInv ER (Rd m ρ) κ₂ (rcvCell (pe k c) k)
        ∗ rowPts c c (shr k) (stats m ρ) ∗ rowPts (pe k c) c fullShare fn
        ∗ owes (c : Thread nD τ) O₁ W
        ∗ dutyTok ER (sndCell c k) 0 0 ∗ reached ER (sndCell c k) 0
        ∗ dutyTok ER (rcvCell (pe k c) k) 0 0 ∗ reached ER (rcvCell (pe k c) k) 0)
      ⊢ iprop(((cred (tallyAt (sndCell c k) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (rowM c) (.remote (Dev.tc n : Thread nD τ) (rowM c) (.dma (sndS k)) hsc) (.dma (rcvS k)) hsrc hdst hsem) k') Q) := by
  subst hn
  unfold rowPts
  exact Rounds.wp_send_pointsTo 𝒱₀ ER (Rd m ρ) (c : Thread nD τ) none (κ₁ := κ₁) (κ₂ := κ₂)
    (r₁ := 0) (r₂ := 0) (d₁ := 0) (d₂ := 0) (fd := fn)
    (by rw [duties_snd]; exact Finset.mem_singleton_self _) (by rw [duties_rcv]; exact Finset.mem_singleton_self _)
    () () N rfl (amount_snd m ρ c k 0) (amount_rcv m ρ (pe k c) k 0) O hO (W := W)
    (by rw [payload_snd]; exact BI.Entails.refl _)
    (by rw [payload_rcv]; unfold rcvPay; rw [pb_pe]; exact Entails.of_eq (landed_congr (F := F) c (pe k c) fullShare fn (stats m ρ)))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 3)
      ∗ (cred (tallyAt (rcvCell c 0) () N) ∗ cred (tallyAt (rcvCell c 1) () N) ∗ cred (tallyAt (rcvCell c 2) () N)) ∗ levAts L lv ∗ ∃ f, wholePts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xin m ρ c) ∗ stg c cc0_stg1_0 (outAt m ρ c))

set_option maxHeartbeats 1600000 in
/-- The body, stepped one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost invs
  iintro ⟨⟨⟨⟨⟨#HIB, ⟨#HIS0, #HIS1, #HIS2⟩, ⟨#HIR0, #HIR1, #HIR2⟩, ⟨#HIBp0, #HIBp1, #HIBp2⟩, ⟨#HIRp0, #HIRp1, #HIRp2⟩⟩,
      ⟨HatB, ⟨HatS0, HatS1, HatS2⟩, ⟨HatR0, HatR1, HatR2⟩⟩,
      ⟨⟨#HrBp0, #HrBp1, #HrBp2⟩, ⟨#HrRp0, #HrRp1, #HrRp2⟩, ⟨#HrS0, #HrS1, #HrS2⟩⟩,
      ⟨⟨HtBp0, HtBp1, HtBp2⟩, ⟨HtRp0, HtRp1, HtRp2⟩, ⟨HtS0, HtS1, HtS2⟩⟩⟩,
      HcB, ⟨HcR0, HcR1, HcR2⟩, #Hlev, ⟨%f0, Hscr⟩⟩,
    Ho, ⟨%d0, %g0, %hg0, Hx⟩, ⟨%d1, %g1, %hg1, Hout⟩⟩, Hk⟩
  have hx : g0 = xin m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the buffer cut into its four rows
  ihave Hr := (rows_split (F := F) c c f0).1 $$ Hscr
  icases Hr with ⟨Hrowc, Hrow0, Hrow1, Hrow2⟩
  unfold O₀
  -- the three SIGNALS: each hands a peer the row of this buffer it will overwrite
  iapply (Rounds.wp_signal 𝒱₀ ER (Rd m ρ) (c : Thread nD τ) none (dst := (pe 0 c : Thread nD τ)) (κ := K (pe 0 c, 0))
      (d := (0 : Fin 3)) (by rw [duties_bar]; exact Finset.mem_univ _) ((amount_bar m ρ (pe 0 c) 0).trans (by decide)) ()
      (Orcv c + tallyAt (barCell (pe 2 c)) () 1 + tallyAt (barCell (pe 1 c)) () 1) rfl) $$ [HO HtBp0 Hrow0]
  · isplitr; · iexact HIBp0
    isplitl [HO]; · iexact HO
    isplitl [HtBp0]; · iexact HtBp0
    isplitl [Hrow0]
    · rw [payload_bar]; unfold barPay; rw [pb_pe]; iexists f0; iexact Hrow0
    · iexact HrBp0
  iintro HO
  iapply (Rounds.wp_signal 𝒱₀ ER (Rd m ρ) (c : Thread nD τ) none (dst := (pe 1 c : Thread nD τ)) (κ := K (pe 1 c, 0))
      (d := (1 : Fin 3)) (by rw [duties_bar]; exact Finset.mem_univ _) ((amount_bar m ρ (pe 1 c) 1).trans (by decide)) ()
      (Orcv c + tallyAt (barCell (pe 2 c)) () 1) rfl) $$ [HO HtBp1 Hrow1]
  · isplitr; · iexact HIBp1
    isplitl [HO]; · iexact HO
    isplitl [HtBp1]; · iexact HtBp1
    isplitl [Hrow1]
    · rw [payload_bar]; unfold barPay; rw [pb_pe]; iexists f0; iexact Hrow1
    · iexact HrBp1
  iintro HO
  iapply (Rounds.wp_signal 𝒱₀ ER (Rd m ρ) (c : Thread nD τ) none (dst := (pe 2 c : Thread nD τ)) (κ := K (pe 2 c, 0))
      (d := (2 : Fin 3)) (by rw [duties_bar]; exact Finset.mem_univ _) ((amount_bar m ρ (pe 2 c) 2).trans (by decide)) ()
      (Orcv c) rfl) $$ [HO HtBp2 Hrow2]
  · isplitr; · iexact HIBp2
    isplitl [HO]; · iexact HO
    isplitl [HtBp2]; · iexact HtBp2
    isplitl [Hrow2]
    · rw [payload_bar]; unfold barPay; rw [pb_pe]; iexists f0; iexact Hrow2
    · iexact HrBp2
  iintro HO
  -- the block loaded; the own row loaded and stored: it then reads as `stats` on the row
  iapply (wp_load 𝒱₀ (c : Thread nD τ) none Set.univ (m := xM) (Finset.subset_univ _)) $$ Hx; iintro Hx
  rw [read_x]
  unfold rowPts
  iapply (wp_load_rect 𝒱₀ (c : Thread nD τ) none Set.univ (m := sM) (r := r1 c) (S := ((rowM c).view.set : Finset S4x2x1024.Idx)) (r1_set c).subset) $$ Hrowc; iintro Hrowc
  iapply (wp_store 𝒱₀ (c : Thread nD τ) none Set.univ (m := sM) (r := r1 c) (Mk := Finset.univ) (S := ((rowM c).view.set : Finset S4x2x1024.Idx)) (r1_set c).subset) $$ Hrowc; iintro Hrowc
  ihave Hown := (Entails.of_eq (stored_congr m ρ c f0)) $$ Hrowc
  ihave Hsh := (row_shares (F := F) c c (stats m ρ)).1 $$ Hown
  icases Hsh with ⟨Hs0, Hs1, Hs2⟩
  -- the WAIT for 3 on its own barrier, owing the three receive credits: the three target rows come with it
  iapply (Rounds.wp_wait_rest_token 𝒱₀ ER (Rd m ρ) (c : Thread nD τ) none (κ := K (c, 0))
      (wpE_semWait_eq 𝒱₀ (c : Thread nD τ) none Set.univ) (Set.mem_univ _) () (O := Orcv c) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  rw [pb0_eq c, pb1_eq c, pb2_eq c]
  icases Hp with ⟨⟨%fa, Hd2⟩, ⟨%fb, Hd1⟩, ⟨%fc, Hd0⟩⟩
  unfold Orcv
  -- the three COPIES, in program order k = 1, 0, 2
  iapply (wp_send_row m ρ (K (c, 2)) (K (pe 1 c, 5)) c _ 1 (dev4_eq c) fb _
      (tallyAt (rcvCell (pe 2 c) 2) () N + tallyAt (rcvCell (pe 0 c) 0) () N) rfl (insert (SemLoc.reg barS, ()) W)) $$ [Hs1 Hd1 HO HtS1 HtRp1]
  · isplitr; · iexact HIS1
    isplitr; · iexact HIRp1
    isplitl [Hs1]; · iexact Hs1
    isplitl [Hd1]; · iexact Hd1
    isplitl [HO]; · iexact HO
    isplitl [HtS1]; · iexact HtS1
    isplitr; · iexact HrS1
    isplitl [HtRp1]; · iexact HtRp1
    iexact HrRp1
  iintro ⟨HcS1, HO⟩
  iapply (wp_send_row m ρ (K (c, 1)) (K (pe 0 c, 4)) c _ 0 (dev5_eq c) fc _
      (tallyAt (rcvCell (pe 2 c) 2) () N) rfl (insert (SemLoc.reg barS, ()) W)) $$ [Hs0 Hd0 HO HtS0 HtRp0]
  · isplitr; · iexact HIS0
    isplitr; · iexact HIRp0
    isplitl [Hs0]; · iexact Hs0
    isplitl [Hd0]; · iexact Hd0
    isplitl [HO]; · iexact HO
    isplitl [HtS0]; · iexact HtS0
    isplitr; · iexact HrS0
    isplitl [HtRp0]; · iexact HtRp0
    iexact HrRp0
  iintro ⟨HcS0, HO⟩
  iapply (wp_send_row m ρ (K (c, 3)) (K (pe 2 c, 6)) c _ 2 (dev6_eq c) fa _
      0 (zero_add _).symm (insert (SemLoc.reg barS, ()) W)) $$ [Hs2 Hd2 HO HtS2 HtRp2]
  · isplitr; · iexact HIS2
    isplitr; · iexact HIRp2
    isplitl [Hs2]; · iexact Hs2
    isplitl [Hd2]; · iexact Hd2
    isplitl [HO]; · iexact HO
    isplitl [HtS2]; · iexact HtS2
    isplitr; · iexact HrS2
    isplitl [HtRp2]; · iexact HtRp2
    iexact HrRp2
  iintro ⟨HcS2, HO⟩
  -- the three RECEIVE waits (k = 1, 0, 2): each brings a peer's row
  iapply (Rounds.wp_wait_rest_token 𝒱₀ ER (Rd m ρ) (c : Thread nD τ) none (κ := K (c, 5))
      (wpE_waitDma2_eq 𝒱₀ (c : Thread nD τ) none Set.univ) (Set.mem_univ _) () (O := 0)
      (W := insert (SemLoc.reg barS, ()) W) (R := 0) (m := 0) (T := ∅)
      (by rw [Nat.zero_add]; exact (expect_rcv m ρ c 1).symm)) $$ [HcR1 HO HatR1]
  · isplitr; · iexact HIR1
    isplitl [HcR1]; · iexact HcR1
    isplitl [HO]; · iexact HO
    isplitr; · rw [MayWait_zero]; iempintro
    iexact HatR1
  iintro ⟨HO, HatR1, -, Hpay⟩
  ihave Hq1 := (Entails.of_eq (rest_rcv m ρ c 1)) $$ Hpay
  iapply (Rounds.wp_wait_rest_token 𝒱₀ ER (Rd m ρ) (c : Thread nD τ) none (κ := K (c, 4))
      (wpE_waitDma2_eq 𝒱₀ (c : Thread nD τ) none Set.univ) (Set.mem_univ _) () (O := 0)
      (W := insert (SemLoc.dma (rcvS 1), ()) (insert (SemLoc.reg barS, ()) W)) (R := 0) (m := 0) (T := ∅)
      (by rw [Nat.zero_add]; exact (expect_rcv m ρ c 0).symm)) $$ [HcR0 HO HatR0]
  · isplitr; · iexact HIR0
    isplitl [HcR0]; · iexact HcR0
    isplitl [HO]; · iexact HO
    isplitr; · rw [MayWait_zero]; iempintro
    iexact HatR0
  iintro ⟨HO, HatR0, -, Hpay⟩
  ihave Hq0 := (Entails.of_eq (rest_rcv m ρ c 0)) $$ Hpay
  iapply (Rounds.wp_wait_rest_token 𝒱₀ ER (Rd m ρ) (c : Thread nD τ) none (κ := K (c, 6))
      (wpE_waitDma2_eq 𝒱₀ (c : Thread nD τ) none Set.univ) (Set.mem_univ _) () (O := 0)
      (W := insert (SemLoc.dma (rcvS 0), ()) (insert (SemLoc.dma (rcvS 1), ()) (insert (SemLoc.reg barS, ()) W))) (R := 0) (m := 0) (T := ∅)
      (by rw [Nat.zero_add]; exact (expect_rcv m ρ c 2).symm)) $$ [HcR2 HO HatR2]
  · isplitr; · iexact HIR2
    isplitl [HcR2]; · iexact HcR2
    isplitl [HO]; · iexact HO
    isplitr; · rw [MayWait_zero]; iempintro
    iexact HatR2
  iintro ⟨HO, HatR2, -, Hpay⟩
  ihave Hq2 := (Entails.of_eq (rest_rcv m ρ c 2)) $$ Hpay
  -- the three SEND waits (k = 1, 0, 2): each brings back a share of the own row
  iapply (Rounds.wp_wait_rest_token 𝒱₀ ER (Rd m ρ) (c : Thread nD τ) none (κ := K (c, 2))
      (wpE_waitDma2_eq 𝒱₀ (c : Thread nD τ) none Set.univ) (Set.mem_univ _) () (O := 0)
      (W := insert (SemLoc.dma (rcvS 2), ()) (insert (SemLoc.dma (rcvS 0), ()) (insert (SemLoc.dma (rcvS 1), ()) (insert (SemLoc.reg barS, ()) W)))) (R := 0) (m := 0) (T := ∅)
      (by rw [Nat.zero_add]; exact (expect_snd m ρ c 1).symm)) $$ [HcS1 HO HatS1]
  · isplitr; · iexact HIS1
    isplitl [HcS1]; · iexact HcS1
    isplitl [HO]; · iexact HO
    isplitr; · rw [MayWait_zero]; iempintro
    iexact HatS1
  iintro ⟨HO, HatS1, -, Hpay⟩
  ihave Hp1 := (Entails.of_eq (rest_snd m ρ c 1)) $$ Hpay
  iapply (Rounds.wp_wait_rest_token 𝒱₀ ER (Rd m ρ) (c : Thread nD τ) none (κ := K (c, 1))
      (wpE_waitDma2_eq 𝒱₀ (c : Thread nD τ) none Set.univ) (Set.mem_univ _) () (O := 0)
      (W := insert (SemLoc.dma (sndS 1), ()) (insert (SemLoc.dma (rcvS 2), ()) (insert (SemLoc.dma (rcvS 0), ()) (insert (SemLoc.dma (rcvS 1), ()) (insert (SemLoc.reg barS, ()) W))))) (R := 0) (m := 0) (T := ∅)
      (by rw [Nat.zero_add]; exact (expect_snd m ρ c 0).symm)) $$ [HcS0 HO HatS0]
  · isplitr; · iexact HIS0
    isplitl [HcS0]; · iexact HcS0
    isplitl [HO]; · iexact HO
    isplitr; · rw [MayWait_zero]; iempintro
    iexact HatS0
  iintro ⟨HO, HatS0, -, Hpay⟩
  ihave Hp0 := (Entails.of_eq (rest_snd m ρ c 0)) $$ Hpay
  iapply (Rounds.wp_wait_rest_token 𝒱₀ ER (Rd m ρ) (c : Thread nD τ) none (κ := K (c, 3))
      (wpE_waitDma2_eq 𝒱₀ (c : Thread nD τ) none Set.univ) (Set.mem_univ _) () (O := 0)
      (W := insert (SemLoc.dma (sndS 0), ()) (insert (SemLoc.dma (sndS 1), ()) (insert (SemLoc.dma (rcvS 2), ()) (insert (SemLoc.dma (rcvS 0), ()) (insert (SemLoc.dma (rcvS 1), ()) (insert (SemLoc.reg barS, ()) W)))))) (R := 0) (m := 0) (T := ∅)
      (by rw [Nat.zero_add]; exact (expect_snd m ρ c 2).symm)) $$ [HcS2 HO HatS2]
  · isplitr; · iexact HIS2
    isplitl [HcS2]; · iexact HcS2
    isplitl [HO]; · iexact HO
    isplitr; · rw [MayWait_zero]; iempintro
    iexact HatS2
  iintro ⟨HO, HatS2, -, Hpay⟩
  ihave Hp2 := (Entails.of_eq (rest_snd m ρ c 2)) $$ Hpay
  -- the three shares are the own row; the four rows are the buffer whole, holding `stats`
  unfold rcvPay sndPay
  rw [pb0_eq c, pb1_eq c, pb2_eq c]
  ihave Hown := (row_shares (F := F) c c (stats m ρ)).2 $$ [Hp0 Hp1 Hp2]
  · isplitl [Hp0]; · iexact Hp0
    isplitl [Hp1] <;> iassumption
  ihave Hw := (rows_split (F := F) c c (stats m ρ)).2 $$ [Hown Hq0 Hq1 Hq2]
  · isplitl [Hown]; · iexact Hown
    isplitl [Hq2]; · iexact Hq2
    isplitl [Hq1]; · iexact Hq1
    iexact Hq0
  -- the six own cells close: their counters at zero are the core's again
  imod (Rounds.cell_close ER (Rd m ρ) (Set.mem_univ (K (c, 1))) (fun h => h) (R := 0 + 1) (duties_later m ρ (sndCell c 0))) $$ [HatS0] with HzS0
  · isplitr; · iexact HIS0
    iexact HatS0
  imod (Rounds.cell_close ER (Rd m ρ) (Set.mem_univ (K (c, 2))) (fun h => h) (R := 0 + 1) (duties_later m ρ (sndCell c 1))) $$ [HatS1] with HzS1
  · isplitr; · iexact HIS1
    iexact HatS1
  imod (Rounds.cell_close ER (Rd m ρ) (Set.mem_univ (K (c, 3))) (fun h => h) (R := 0 + 1) (duties_later m ρ (sndCell c 2))) $$ [HatS2] with HzS2
  · isplitr; · iexact HIS2
    iexact HatS2
  imod (Rounds.cell_close ER (Rd m ρ) (Set.mem_univ (K (c, 4))) (fun h => h) (R := 0 + 1) (duties_later m ρ (rcvCell c 0))) $$ [HatR0] with HzR0
  · isplitr; · iexact HIR0
    iexact HatR0
  imod (Rounds.cell_close ER (Rd m ρ) (Set.mem_univ (K (c, 5))) (fun h => h) (R := 0 + 1) (duties_later m ρ (rcvCell c 1))) $$ [HatR1] with HzR1
  · isplitr; · iexact HIR1
    iexact HatR1
  imod (Rounds.cell_close ER (Rd m ρ) (Set.mem_univ (K (c, 6))) (fun h => h) (R := 0 + 1) (duties_later m ρ (rcvCell c 2))) $$ [HatR2] with HzR2
  · isplitr; · iexact HIR2
    iexact HatR2
  -- the buffers spelt through their memrefs' views; then the nine row loads, the result block's load and its store in one run
  unfold wholePts
  ihave Hw2 := (Entails.of_eq (show ((((c : Thread nD τ).loc cc0_scratch0) ↦{fullShare} stats m ρ : sProp 𝕄)) = ((sM : Memref sig .tc .vmem S4x2x1024 .f32).view.loc (c : Thread nD τ) ↦{fullShare} stats m ρ) from rfl)) $$ Hw
  ihave Hout2 := (Entails.of_eq (show ((((c : Thread nD τ).loc cc0_stg1_0) ↦{fullShare} g1 : sProp 𝕄)) = ((oM : Memref sig .tc .vmem S1024x512 .f32).view.loc (c : Thread nD τ) ↦{fullShare} g1) from rfl)) $$ Hout
  sl_exec
  rw [wp_ret]; imodintro
  sl_unfold_run_names
  simp only [View.writes_cons, View.writes_nil]
  rw [write_out'']
  iapply Hk
  unfold bodyPost Φ₁ Dat.owesAt Pipeline.owesWithin
  rw [show (dats m ρ 0 c).owed t₀.succ = 0 from rfl]
  isplitl [Hw2 HzS0 HzS1 HzS2 HzR0 HzR1 HzR2]
  · isplitl [Hw2]; · unfold wholePts; iexact Hw2
    isplitl [HzS0 HzS1 HzS2]
    · isplitl [HzS0]; · iexact HzS0
      isplitl [HzS1] <;> iassumption
    · isplitl [HzR0]; · iexact HzR0
      isplitl [HzR1] <;> iassumption
  isplitl [HO]
  · iexists (insert (SemLoc.dma (sndS 2), ()) (insert (SemLoc.dma (sndS 0), ()) (insert (SemLoc.dma (sndS 1), ()) (insert (SemLoc.dma (rcvS 2), ()) (insert (SemLoc.dma (rcvS 0), ()) (insert (SemLoc.dma (rcvS 1), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout2

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdealProof

end
-- ==== Proof.Launch.lean ====
/-
  The launch: from each device's body to the run of the whole mesh.

  The exchange's ghost state is allocated once for all devices: every cell's round state, position and
  round-0 mark, and every duty's token. A barrier cell's token for duty e goes to the device e + 1 places
  before the cell's owner, a receive cell k's token to the device k + 1 places before its owner; send
  tokens stay. The credit a device finds at launch on its barrier cell is the three units its peers owe
  it, and on each receive cell the one row's credit of the peer that copies into it. The run's post
  names each device's result array as the body's result term and leaves the argument arrays as launched.
-/
import proofs.«900600_g7700000000000601_dist_softmax_colshard_i_m1024_n512_v7x_i4_f32_1_alg».proof.Proof.Body

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- The semaphore and the duty of each of a device's own cells' nine tokens: its barrier's three, its send cells', its
    receive cells'. -/
abbrev tokSD : Fin 9 → SemLoc sig × Fin 3 := fun
  | 0 => (.reg barS, 0) | 1 => (.reg barS, 1) | 2 => (.reg barS, 2)
  | 3 => (.dma (sndS 0), 0) | 4 => (.dma (sndS 1), 0) | 5 => (.dma (sndS 2), 0)
  | 6 => (.dma (rcvS 0), 0) | 7 => (.dma (rcvS 1), 0) | 8 => (.dma (rcvS 2), 0)
theorem tokSD_inj : Function.Injective tokSD := by decide
abbrev tokOf (cj : Dev nD × Fin 9) : GSem nD τ sig × ℕ × Fin 3 := (((cj.1 : Thread nD τ), (tokSD cj.2).1), 0, (tokSD cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : tokSD j = tokSD j' :=
    Prod.ext (congrArg (fun x : GSem nD τ sig × ℕ × Fin 3 => x.1.2) h) (congrArg (fun x : GSem nD τ sig × ℕ × Fin 3 => x.2.2) h)
  rw [tokSD_inj h2]
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device c's own cells. -/
def toks (c : Dev nD) : sProp 𝕄 :=
  iprop(dutyTok ER (barCell c) 0 0 ∗ dutyTok ER (barCell c) 0 1 ∗ dutyTok ER (barCell c) 0 2
    ∗ dutyTok ER (sndCell c 0) 0 0 ∗ dutyTok ER (sndCell c 1) 0 0 ∗ dutyTok ER (sndCell c 2) 0 0
    ∗ dutyTok ER (rcvCell c 0) 0 0 ∗ dutyTok ER (rcvCell c 1) 0 0 ∗ dutyTok ER (rcvCell c 2) 0 0)

/-- What the launch element deals device c. -/
def G (c : Dev nD) : sProp 𝕄 :=
  iprop((bigSep Finset.univ fun k : Fin 7 => roundState ER (Rd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (Rd m ρ) xCells xToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The six send and receive semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0 ∗ semVal (rcvCell c 0) 0 ∗ semVal (rcvCell c 1) 0 ∗ semVal (rcvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (Rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (Rd m ρ) (K ck) (kcell ck) : sProp 𝕄)) ⊢ cellInv ER (Rd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (pe 0 c)) 0 0 ∗ dutyTok ER (barCell (pe 1 c)) 0 1 ∗ dutyTok ER (barCell (pe 2 c)) 0 2
    ∗ dutyTok ER (sndCell c 0) 0 0 ∗ dutyTok ER (sndCell c 1) 0 0 ∗ dutyTok ER (sndCell c 2) 0 0
    ∗ dutyTok ER (rcvCell (pe 0 c) 0) 0 0 ∗ dutyTok ER (rcvCell (pe 1 c) 1) 0 0 ∗ dutyTok ER (rcvCell (pe 2 c) 2) 0 0)
def linear (c : Dev nD) : sProp 𝕄 :=
  iprop((bigSep Finset.univ fun k : Fin 7 => atPos ER (kcell (c, k)) 0 ∅ 0) ∗ payToks c)

theorem ghost_intro (K : Dev nD × Fin 7 → ℕ) (c : Dev nD) : iprop(records m ρ K ∗ linear c) ⊢ G' m ρ c := by
  unfold records linear payToks G' ghost invs
  rw [bigSep_fin7]
  iintro ⟨⟨#HI, #HR⟩, ⟨HaB, HaS0, HaS1, HaS2, HaR0, HaR1, HaR2⟩, HtB0, HtB1, HtB2, HtS0, HtS1, HtS2, HtR0, HtR1, HtR2⟩
  iexists K
  isplitr
  · isplitr; · iapply (inv_at m ρ K (c, 0)); iexact HI
    isplitr
    · isplitr; · iapply (inv_at m ρ K (c, 1)); iexact HI
      isplitr; · iapply (inv_at m ρ K (c, 2)); iexact HI
      iapply (inv_at m ρ K (c, 3)); iexact HI
    isplitr
    · isplitr; · iapply (inv_at m ρ K (c, 4)); iexact HI
      isplitr; · iapply (inv_at m ρ K (c, 5)); iexact HI
      iapply (inv_at m ρ K (c, 6)); iexact HI
    isplitr
    · isplitr; · iapply (inv_at m ρ K (pe 0 c, 0)); iexact HI
      isplitr; · iapply (inv_at m ρ K (pe 1 c, 0)); iexact HI
      iapply (inv_at m ρ K (pe 2 c, 0)); iexact HI
    · isplitr; · iapply (inv_at m ρ K (pe 0 c, 4)); iexact HI
      isplitr; · iapply (inv_at m ρ K (pe 1 c, 5)); iexact HI
      iapply (inv_at m ρ K (pe 2 c, 6)); iexact HI
  isplitl [HaB HaS0 HaS1 HaS2 HaR0 HaR1 HaR2]
  · isplitl [HaB]; · iexact HaB
    isplitl [HaS0 HaS1 HaS2]
    · isplitl [HaS0]; · iexact HaS0
      isplitl [HaS1] <;> iassumption
    · isplitl [HaR0]; · iexact HaR0
      isplitl [HaR1] <;> iassumption
  isplitr
  · isplitr
    · isplitr; · iapply (reached_at (F := F) (pe 0 c, 0)); iexact HR
      isplitr; · iapply (reached_at (F := F) (pe 1 c, 0)); iexact HR
      iapply (reached_at (F := F) (pe 2 c, 0)); iexact HR
    isplitr
    · isplitr; · iapply (reached_at (F := F) (pe 0 c, 4)); iexact HR
      isplitr; · iapply (reached_at (F := F) (pe 1 c, 5)); iexact HR
      iapply (reached_at (F := F) (pe 2 c, 6)); iexact HR
    · isplitr; · iapply (reached_at (F := F) (c, 1)); iexact HR
      isplitr; · iapply (reached_at (F := F) (c, 2)); iexact HR
      iapply (reached_at (F := F) (c, 3)); iexact HR
  isplitl [HtB0 HtB1 HtB2]
  · isplitl [HtB0]; · iexact HtB0
    isplitl [HtB1] <;> iassumption
  isplitl [HtR0 HtR1 HtR2]
  · isplitl [HtR0]; · iexact HtR0
    isplitl [HtR1] <;> iassumption
  · isplitl [HtS0]; · iexact HtS0
    isplitl [HtS1] <;> iassumption

/-- The tokens dealt around the mesh. -/
theorem toks_around : (bigSep Finset.univ fun c : Dev nD => (toks c : sProp 𝕄)) ⊢ bigSep Finset.univ fun c : Dev nD => payToks c := by
  unfold toks payToks
  simp only [bigSep_sep']
  rw [bigSep_univ_equiv (ringE 0) (fun c : Dev nD => (dutyTok ER (barCell c) 0 0 : sProp 𝕄)),
    bigSep_univ_equiv (ringE 1) (fun c : Dev nD => (dutyTok ER (barCell c) 0 1 : sProp 𝕄)),
    bigSep_univ_equiv (ringE 2) (fun c : Dev nD => (dutyTok ER (barCell c) 0 2 : sProp 𝕄)),
    bigSep_univ_equiv (ringE 0) (fun c : Dev nD => (dutyTok ER (rcvCell c 0) 0 0 : sProp 𝕄)),
    bigSep_univ_equiv (ringE 1) (fun c : Dev nD => (dutyTok ER (rcvCell c 1) 0 0 : sProp 𝕄)),
    bigSep_univ_equiv (ringE 2) (fun c : Dev nD => (dutyTok ER (rcvCell c 2) 0 0 : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (Rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The credit device c finds on its own cells: a unit from each of its three peers on its barrier cell, the row's
    credit on each receive cell from the peer that copies into it. -/
theorem creds (c : Dev nD) :
    (Pipeline.launchCred O₀ c : sProp 𝕄)
      ⊢ iprop(cred (tallyAt (barCell c) () 3)
          ∗ (cred (tallyAt (rcvCell c 0) () N) ∗ cred (tallyAt (rcvCell c 1) () N) ∗ cred (tallyAt (rcvCell c 2) () N))) := by
  have hO : (O₀ : Dev nD → CellTallies nD τ sig Unit) = fun d =>
      (((((fun d => tallyAt (rcvCell (pe 2 d) 2) () N) d + (fun d => tallyAt (rcvCell (pe 0 d) 0) () N) d) + (fun d => tallyAt (rcvCell (pe 1 d) 1) () N) d)
        + (fun d => tallyAt (barCell (pe 2 d)) () 1) d) + (fun d => tallyAt (barCell (pe 1 d)) () 1) d) + (fun d => tallyAt (barCell (pe 0 d)) () 1) d := rfl
  rw [hO, Pipeline.launchCred_add, Pipeline.launchCred_add, Pipeline.launchCred_add, Pipeline.launchCred_add, Pipeline.launchCred_add]
  iintro ⟨⟨⟨⟨⟨Hr2, Hr0⟩, Hr1⟩, Hb2⟩, Hb1⟩, Hb0⟩
  ihave Cr2 := (Pipeline.launchCred_tallyAt (SemLoc.dma (rcvS 2)) (pe 2) (pb 2) (pe_pb 2) (pb_pe 2) () N c) $$ Hr2
  ihave Cr0 := (Pipeline.launchCred_tallyAt (SemLoc.dma (rcvS 0)) (pe 0) (pb 0) (pe_pb 0) (pb_pe 0) () N c) $$ Hr0
  ihave Cr1 := (Pipeline.launchCred_tallyAt (SemLoc.dma (rcvS 1)) (pe 1) (pb 1) (pe_pb 1) (pb_pe 1) () N c) $$ Hr1
  ihave Cb2 := (Pipeline.launchCred_tallyAt (SemLoc.reg barS) (pe 2) (pb 2) (pe_pb 2) (pb_pe 2) () 1 c) $$ Hb2
  ihave Cb1 := (Pipeline.launchCred_tallyAt (SemLoc.reg barS) (pe 1) (pb 1) (pe_pb 1) (pb_pe 1) () 1 c) $$ Hb1
  ihave Cb0 := (Pipeline.launchCred_tallyAt (SemLoc.reg barS) (pe 0) (pb 0) (pe_pb 0) (pb_pe 0) () 1 c) $$ Hb0
  isplitl [Cb0 Cb1 Cb2]
  · have h3 : (tallyAt (barCell c) () 3 : CellTallies nD τ sig Unit) = tallyAt (barCell c) () 1 + (tallyAt (barCell c) () 1 + tallyAt (barCell c) () 1) := by
      rw [tallyAt_add, tallyAt_add]
    rw [h3]
    iapply (cred_add _ _).2
    isplitl [Cb0]; · iexact Cb0
    iapply (cred_add _ _).2
    isplitl [Cb1] <;> iassumption
  isplitl [Cr0]; · iexact Cr0
  isplitl [Cr1] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ wholePts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ wholePts
  iintro ⟨Hr, ⟨S0, S1, S2⟩, ⟨R0, R1, R2⟩⟩
  isplitr; · iempintro
  isplitl [S0 S1 S2 R0 R1 R2]
  · isplitl [S0]; · iexact S0
    isplitl [S1]; · iexact S1
    isplitl [S2]; · iexact S2
    isplitl [R0]; · iexact R0
    isplitl [R1] <;> iassumption
  iexists (stats m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's arrays at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

end Cert.KernelIdealProof

end
-- ==== Proof.Final.lean ====
/-
  The run's post as values: on every device the result array ends as the body's result term of the
  four devices' argument arrays, and the argument array ends as launched.

  The input window is the whole argument array, so what its staging buffer holds is the array itself;
  the output window is the whole result array, written back once, so the final array is what the body
  left in its staging buffer.
-/
import proofs.«900600_g7700000000000601_dist_softmax_colshard_i_m1024_n512_v7x_i4_f32_1_alg».proof.Proof.Launch
import proofs.«900600_g7700000000000601_dist_softmax_colshard_i_m1024_n512_v7x_i4_f32_1_alg».proof.Proof.Gen.KernelIdeal.Points

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The block the input window stages is the whole argument array. -/
theorem xin_eq (j : Dev nD) : xin m ρ j = m ((j : Thread nD τ).loc main_arg0) := by
  unfold xin s₀
  exact Memref.read_access_unit_zero (Elt F) main_arg0 (by funext a; fin_cases a <;> rfl) _ _

theorem finalA_in (c : Dev nD) : finalA m ρ c (0 : Fin 2) = m ((c : Thread nD τ).loc main_arg0) :=
  (dats (F := F) m ρ 0 c).arrAt_in (0 : Fin 2) rfl _

/-- The result array after the run is what the body left in the output staging buffer. -/
theorem finalA_out (c : Dev nD) : finalA m ρ c (1 : Fin 2) = outAt m ρ c := by
  unfold finalA
  have h := (dats (F := F) m ρ 0 c).arrAt_succ (1 : Fin 2) t₀
  rw [show (cfg0.win (1 : Fin 2)).flush t₀ = true from flush0_1 t₀, if_pos rfl] at h
  refine h.trans ?_
  exact Memref.write_access_unit_zero_univ (Elt F) main_v1 (by funext a; fin_cases a <;> rfl) _ _ _

/-- Every weakly fair execution of the four devices terminates; each device's result array ends as the body's result
    term of the four argument arrays, and its argument array as launched. -/
theorem run_value : θ_run defs (onTc (τ := τ) (main (F := F))) ⟨m, fun _ => 0, ρ⟩ (fun r => ∀ c : Dev nD,
      r.2.mem ((c.tc : Thread nD τ).loc main_v1) = Iface.outOf c (fun j => m ((j.tc : Thread nD τ).loc main_arg0))
      ∧ r.2.mem ((c.tc : Thread nD τ).loc main_arg0) = m ((c.tc : Thread nD τ).loc main_arg0)) :=
  (θ_run defs _ _).mono (fun r h c =>
    ⟨((h c (1 : Fin 2)).trans (finalA_out m ρ c)).trans (by
        unfold outAt
        exact congrArg (Iface.outOf c) (funext fun j => xin_eq m ρ j)),
      (h c (0 : Fin 2)).trans (finalA_in m ρ c)⟩) (run_main m ρ)

/-- The frame: it runs to the end, nothing faults, the argument arrays end unchanged. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_value m ρ)

/-- info: 'Cert.KernelIdealProof.run_value' depends on axioms: [propext, Classical.choice, Quot.sound] -/
#guard_msgs in #print axioms run_value

end Cert.KernelIdealProof

end
-- ==== Proof.IfaceK.lean ====
/-
  The kernel's result on one device as a pure term of the four devices' blocks.

  After the exchange every device's statistics buffer holds, in row j, the pair (block maximum,
  block sum of exponentials) that device j computed from its own block: `statsOf`. The result
  block is the body's last payload of the device's own exponentials and of the ten rows it loads
  from that buffer: `outOf`.
-/
import proofs.«900600_g7700000000000601_dist_softmax_colshard_i_m1024_n512_v7x_i4_f32_1_alg».proof.Proof.Gen.Kernel.Skeleton
import Idealize.ShloMosaic.Lib.Pipeline.FrameBody
import Idealize.ShloMosaic.Lib.ValueIdx

noncomputable section

namespace Cert.Kernel.Iface

open Idealize.ShloMosaic Idealize.ShloMosaic.ValueIdx
open Cert.Kernel Cert.Kernel.Gen

variable {F : FTy → Type} [FloatOps F] [Cert.Kernel.Facts]

/-- The statistics buffer once every row has landed: row j is what device j stored, its block's
    row maxima (second coordinate 0) and row sums of exponentials (second coordinate 1). -/
def statsOf (x : Dev nD → Vec F S1024x512 .f32) : Vec F S4x2x1024 .f32 :=
  fun i => k0_pay4 (x ⟨(i 0).val, (i 0).isLt⟩) (ix3 (0 : Fin 1) (i 1) (i 2))

/-- One row of 1024 entries of the statistics buffer, as a load reads it. -/
abbrev rowOf (S : Vec F S4x2x1024 .f32) (off : Fin 3 → Nat) (h : ∀ a, off a + S1x1x1024.size a ≤ S4x2x1024.size a) : Vec F S1x1x1024 .f32 :=
  View.ld S (Rect.unit (s := S4x2x1024) off S1x1x1024.size h)

/-- Device c's result block: its own exponentials times the rescaling factor computed from the
    four maxima rows, the four sums rows and its own maxima row. -/
def outOf (c : Dev nD) (x : Dev nD → Vec F S1024x512 .f32) : FVec F S1024x512 .f32 :=
  k0_pay8 (k0_pay3 (x c))
    (k0_pay5 (rowOf (statsOf x) ![0, 0, 0] Facts₀.inb_S4x2x1024_S1x1x1024_0_0_0))
    (k0_pay6 (rowOf (statsOf x) ![1, 0, 0] Facts₀.inb_S4x2x1024_S1x1x1024_1_0_0))
    (k0_pay7 (rowOf (statsOf x) ![2, 0, 0] Facts₀.inb_S4x2x1024_S1x1x1024_2_0_0))
    (rowOf (statsOf x) ![3, 0, 0] Facts₀.inb_S4x2x1024_S1x1x1024_3_0_0)
    (rowOf (statsOf x) ![0, 1, 0] Facts₀.inb_S4x2x1024_S1x1x1024_0_1_0)
    (rowOf (statsOf x) ![1, 1, 0] Facts₀.inb_S4x2x1024_S1x1x1024_1_1_0)
    (rowOf (statsOf x) ![2, 1, 0] Facts₀.inb_S4x2x1024_S1x1x1024_2_1_0)
    (rowOf (statsOf x) ![3, 1, 0] Facts₀.inb_S4x2x1024_S1x1x1024_3_1_0)
    (rowOf (statsOf x) (k0_off3 c) (Facts₀.k0_off3_inb c))

end Cert.Kernel.Iface

end
-- ==== Proof.ProtoK.lean ====
/-
  The exchange protocol of the column-sharded softmax on four devices, under the rounds discipline.

  Device c owns seven semaphore cells: the barrier cell, three send cells and three receive cells.
  Write p e c for the device e + 1 places after c around the mesh, and b e c for the device e + 1 places
  before it. The barrier cell of c has one round of three unit duties: duty e is paid by b e c, and hands
  c the row numbered c of that device's statistics buffer, the row c's copy to it will overwrite. The
  send cell k of c has one duty, paid by c's own copy k: it hands back the share of c's own row the copy
  read. The receive cell k of c has one duty, paid by the copy of b k c: it hands c the row numbered
  b k c of its own buffer, holding what that device stored, its block's row maxima and row sums.
  Barrier cells lie below receive cells: when c waits for its barrier it owes only receive credits.
-/
import proofs.«900600_g7700000000000601_dist_softmax_colshard_i_m1024_n512_v7x_i4_f32_1_alg».proof.Proof.Gen.Kernel
import proofs.«900600_g7700000000000601_dist_softmax_colshard_i_m1024_n512_v7x_i4_f32_1_alg».proof.Proof.Gen.Kernel.Skeleton
import proofs.«900600_g7700000000000601_dist_softmax_colshard_i_m1024_n512_v7x_i4_f32_1_alg».proof.Proof.Gen.Kernel.Launch
import proofs.«900600_g7700000000000601_dist_softmax_colshard_i_m1024_n512_v7x_i4_f32_1_alg».proof.Proof.IfaceK
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The mesh: the device e + 1 places after c, and the one e + 1 places before it -/

def pe (e : Fin 3) (c : Dev nD) : Dev nD := ⟨(c.val + e.val + 1) % 4, Nat.mod_lt _ (by decide)⟩
def pb (e : Fin 3) (c : Dev nD) : Dev nD := ⟨(c.val + 3 - e.val) % 4, Nat.mod_lt _ (by decide)⟩

theorem pe_pb : ∀ (e : Fin 3) (c : Dev nD), pe e (pb e c) = c := by decide
theorem pb_pe : ∀ (e : Fin 3) (c : Dev nD), pb e (pe e c) = c := by decide
theorem pe_ne : ∀ (e : Fin 3) (c : Dev nD), pe e c ≠ c := by decide
theorem pb_ne : ∀ (e : Fin 3) (c : Dev nD), pb e c ≠ c := by decide
theorem pe_inj_e : ∀ (e e' : Fin 3) (c : Dev nD), pe e c = pe e' c → e = e' := by decide
theorem pb_inj_e : ∀ (e e' : Fin 3) (c : Dev nD), pb e c = pb e' c → e = e' := by decide

def ringE (e : Fin 3) : Dev nD ≃ Dev nD := ⟨pe e, pb e, pb_pe e, pe_pb e⟩

/-- The kernel's device chains: the three signals name p 0, p 1, p 2; the three copies p 1, p 0, p 2. -/
theorem dev1_eq (c : Dev nD) : (⟨k0_dev1 c, Gen.k0_dev1_lt c⟩ : Dev nD) = pe 0 c := Fin.ext ((k0_dev1_eq c).trans (by revert c; decide))
theorem dev2_eq (c : Dev nD) : (⟨k0_dev2 c, Gen.k0_dev2_lt c⟩ : Dev nD) = pe 1 c := Fin.ext ((k0_dev2_eq c).trans (by revert c; decide))
theorem dev3_eq (c : Dev nD) : (⟨k0_dev3 c, Gen.k0_dev3_lt c⟩ : Dev nD) = pe 2 c := Fin.ext ((k0_dev3_eq c).trans (by revert c; decide))
theorem dev4_eq (c : Dev nD) : (⟨k0_dev4 c, Gen.k0_dev4_lt c⟩ : Dev nD) = pe 1 c := Fin.ext ((k0_dev4_eq c).trans (by revert c; decide))
theorem dev5_eq (c : Dev nD) : (⟨k0_dev5 c, Gen.k0_dev5_lt c⟩ : Dev nD) = pe 0 c := Fin.ext ((k0_dev5_eq c).trans (by revert c; decide))
theorem dev6_eq (c : Dev nD) : (⟨k0_dev6 c, Gen.k0_dev6_lt c⟩ : Dev nD) = pe 2 c := Fin.ext ((k0_dev6_eq c).trans (by revert c; decide))

/-! ## The memrefs and cells -/

abbrev xM : Memref sig .tc .vmem S1024x512 .f32 := Memref.whole cc0_stg0_0
abbrev oM : Memref sig .tc .vmem S1024x512 .f32 := Memref.whole cc0_stg1_0
abbrev sM : Memref sig .tc .vmem S4x2x1024 .f32 := Memref.whole cc0_scratch0

/-- Row j of the statistics buffer, as the body slices it for a copy's source and target. -/
abbrev rowM (j : Dev nD) : Memref sig .tc .vmem S2x1024 .f32 :=
  (sM.slice (Rect.unit (s := S4x2x1024) (k0_off2 j) S1x2x1024.size (Gen.k0_off2_inb j)) (fun _ => rfl)).squeeze S2x1024 Gen.squeezes_S1x2x1024_S2x1024

abbrev barS : Sem sig := (SemArray.scalar (sig.barrier 0 rfl) : Sems sig S_).sem

abbrev sndV : Fin 3 → DmaSems sig S_ := fun k => match k with
  | 0 => (cc0_scratch1.slice (Rect.unit (s := S3) ![0] S1.size Gen.inb_S3_S1_0)).squeeze S_ Gen.squeezes_S1_S_
  | 1 => (cc0_scratch1.slice (Rect.unit (s := S3) ![1] S1.size Gen.inb_S3_S1_1)).squeeze S_ Gen.squeezes_S1_S_
  | 2 => (cc0_scratch1.slice (Rect.unit (s := S3) ![2] S1.size Gen.inb_S3_S1_2)).squeeze S_ Gen.squeezes_S1_S_
abbrev rcvV : Fin 3 → DmaSems sig S_ := fun k => match k with
  | 0 => (cc0_scratch2.slice (Rect.unit (s := S3) ![0] S1.size Gen.inb_S3_S1_0)).squeeze S_ Gen.squeezes_S1_S_
  | 1 => (cc0_scratch2.slice (Rect.unit (s := S3) ![1] S1.size Gen.inb_S3_S1_1)).squeeze S_ Gen.squeezes_S1_S_
  | 2 => (cc0_scratch2.slice (Rect.unit (s := S3) ![2] S1.size Gen.inb_S3_S1_2)).squeeze S_ Gen.squeezes_S1_S_
abbrev sndS (k : Fin 3) : DmaSem sig := (sndV k).sem
abbrev rcvS (k : Fin 3) : DmaSem sig := (rcvV k).sem

abbrev barCell (c : Dev nD) : GSem nD τ sig := ((c : Thread nD τ), .reg barS)
abbrev sndCell (c : Dev nD) (k : Fin 3) : GSem nD τ sig := ((c : Thread nD τ), .dma (sndS k))
abbrev rcvCell (c : Dev nD) (k : Fin 3) : GSem nD τ sig := ((c : Thread nD τ), .dma (rcvS k))

theorem sndS_val : ∀ k : Fin 3, (sndS k).val = 2 + k.val := by decide
theorem rcvS_val : ∀ k : Fin 3, (rcvS k).val = 5 + k.val := by decide

/-- The kernel's own (scoped) six DMA semaphores, as the launch indexes them; -/
abbrev osem : Fin 6 → SemLoc sig := fun | 0 => .dma (sndS 0) | 1 => .dma (sndS 1) | 2 => .dma (sndS 2) | 3 => .dma (rcvS 0) | 4 => .dma (rcvS 1) | 5 => .dma (rcvS 2)
/-- all seven of the exchange's: the barrier first. -/
abbrev csem : Fin 7 → SemLoc sig := fun | 0 => .reg barS | 1 => .dma (sndS 0) | 2 => .dma (sndS 1) | 3 => .dma (sndS 2) | 4 => .dma (rcvS 0) | 5 => .dma (rcvS 1) | 6 => .dma (rcvS 2)
abbrev kcell (ck : Dev nD × Fin 7) : GSem nD τ sig := ((ck.1 : Thread nD τ), csem ck.2)

/-- The credit of one row's copy. -/
abbrev N : ℕ := (rowM (0 : Dev nD)).view.dmaCredit
theorem N_pos : 0 < N := View.dmaCredit_pos _ (by decide)

/-! ## Contents -/

/-- Device j's input block as its staging buffer holds it. -/
def xin (j : Dev nD) : (cc0_stg0_0 : Ref sig .tc).ty.Contents (Elt F) :=
  (win0_0.blk (0 : Fin 1)).view.read (Elt F) ((s₀ m ρ).mem ((j : Thread nD τ).loc main_arg0))

/-- The statistics buffer once every row has landed: row j is what device j stored. -/
def stats : (cc0_scratch0 : Ref sig .tc).ty.Contents (Elt F) := Iface.statsOf (fun j => xin m ρ j)

/-- Row j of device c's statistics buffer, held at share q with contents f on that row. -/
def rowPts (c j : Dev nD) (q : PosShare TreeShare) (f : Buf (Elt F) ((rowM j).view.loc (c : Thread nD τ))) : sProp 𝕄 :=
  (rowM j).view.loc (c : Thread nD τ) ↦[(rowM j).view.set]{q} f

def xPts (c : Dev nD) : sProp 𝕄 :=
  (xM : Memref sig .tc .vmem S1024x512 .f32).view.loc (c : Thread nD τ) ↦[(xM : Memref sig .tc .vmem S1024x512 .f32).view.set]{fullShare} xin m ρ c

instance rowPts_storable (c j : Dev nD) (q) (f) : BI.Storable (upEmb : UEmb _ 𝕄) (rowPts (F := F) c j q f) := by unfold rowPts; infer_instance

/-- The three shares of its own row a device's three copies read through. -/
def shr : Fin 3 → PosShare TreeShare := fun | 0 => fullShare.left | 1 => fullShare.right.left | 2 => fullShare.right.right

/-! ## The schedule -/

def barPay (c : Dev nD) (d : Fin 3) : sProp 𝕄 := iprop(∃ f, rowPts (pb d c) c fullShare f)
def rcvPay (c : Dev nD) (k : Fin 3) : sProp 𝕄 := rowPts c (pb k c) fullShare (stats m ρ)
def sndPay (c : Dev nD) (k : Fin 3) : sProp 𝕄 := rowPts c c (shr k) (stats m ρ)

abbrev IsBar (g : GSem nD τ sig) : Prop := g.1.2 = .tc ∧ g.2 = .reg barS
abbrev IsRcv (sm : SemLoc sig) : Prop := sm = .dma (rcvS 0) ∨ sm = .dma (rcvS 1) ∨ sm = .dma (rcvS 2)
abbrev IsSnd (sm : SemLoc sig) : Prop := sm = .dma (sndS 0) ∨ sm = .dma (sndS 1) ∨ sm = .dma (sndS 2)
abbrev IsXfer (g : GSem nD τ sig) : Prop := g.1.2 = .tc ∧ (IsSnd g.2 ∨ IsRcv g.2)

/-- One round, round 0: a barrier cell has three unit duties; a send or receive cell the duty 0 of a row's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (rcvS 0) then rcvPay m ρ g.1.1 0
    else if g.2 = .dma (rcvS 1) then rcvPay m ρ g.1.1 1
    else if g.2 = .dma (rcvS 2) then rcvPay m ρ g.1.1 2
    else if g.2 = .dma (sndS 0) then sndPay m ρ g.1.1 0
    else if g.2 = .dma (sndS 1) then sndPay m ρ g.1.1 1
    else if g.2 = .dma (sndS 2) then sndPay m ρ g.1.1 2
    else iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m ρ).payload g r d) := by
  show BI.Storable upEmb (if g.2 = .reg barS then barPay g.1.1 d
    else if g.2 = .dma (rcvS 0) then rcvPay m ρ g.1.1 0
    else if g.2 = .dma (rcvS 1) then rcvPay m ρ g.1.1 1
    else if g.2 = .dma (rcvS 2) then rcvPay m ρ g.1.1 2
    else if g.2 = .dma (sndS 0) then sndPay m ρ g.1.1 0
    else if g.2 = .dma (sndS 1) then sndPay m ρ g.1.1 1
    else if g.2 = .dma (sndS 2) then sndPay m ρ g.1.1 2
    else iprop(emp))
  unfold barPay rcvPay sndPay
  (repeat' split) <;> infer_instance

section Sched
variable (c : Dev nD)

theorem snd_ne_bar (k : Fin 3) : (SemLoc.dma (sndS k) : SemLoc sig) ≠ .reg barS := fun h => by cases h
theorem rcv_ne_bar (k : Fin 3) : (SemLoc.dma (rcvS k) : SemLoc sig) ≠ .reg barS := fun h => by cases h
theorem snd_ne_rcv : ∀ k k' : Fin 3, (SemLoc.dma (sndS k) : SemLoc sig) ≠ .dma (rcvS k') := by decide
theorem rcv_ne_snd : ∀ k k' : Fin 3, (SemLoc.dma (rcvS k) : SemLoc sig) ≠ .dma (sndS k') := by decide
theorem snd_inj : ∀ k k' : Fin 3, (SemLoc.dma (sndS k) : SemLoc sig) = .dma (sndS k') → k = k' := by decide
theorem rcv_inj : ∀ k k' : Fin 3, (SemLoc.dma (rcvS k) : SemLoc sig) = .dma (rcvS k') → k = k' := by decide
theorem isSnd_snd : ∀ k : Fin 3, IsSnd (SemLoc.dma (sndS k) : SemLoc sig) := by decide
theorem isRcv_rcv : ∀ k : Fin 3, IsRcv (SemLoc.dma (rcvS k) : SemLoc sig) := by decide
theorem not_isRcv_snd : ∀ k : Fin 3, ¬ IsRcv (SemLoc.dma (sndS k) : SemLoc sig) := by decide
theorem not_isRcv_bar : ¬ IsRcv (SemLoc.reg barS : SemLoc sig) := by decide
theorem not_bar_snd (k : Fin 3) : ¬ IsBar (sndCell c k) := fun h => snd_ne_bar k h.2
theorem not_bar_rcv (k : Fin 3) : ¬ IsBar (rcvCell c k) := fun h => rcv_ne_bar k h.2

theorem duties_bar : (Rd (F := F) m ρ).duties (barCell c) 0 = Finset.univ := by dsimp only [Rd]; exact if_pos ⟨rfl, rfl, rfl⟩
theorem duties_snd (k : Fin 3) : (Rd (F := F) m ρ).duties (sndCell c k) 0 = {0} := by
  dsimp only [Rd]; rw [if_neg (fun h => not_bar_snd c k h.2)]; exact if_pos ⟨rfl, rfl, .inl (isSnd_snd k)⟩
theorem duties_rcv (k : Fin 3) : (Rd (F := F) m ρ).duties (rcvCell c k) 0 = {0} := by
  dsimp only [Rd]; rw [if_neg (fun h => not_bar_rcv c k h.2)]; exact if_pos ⟨rfl, rfl, .inr (isRcv_rcv k)⟩
theorem duties_later (g : GSem nD τ sig) : ∀ r, 1 ≤ r → (Rd (F := F) m ρ).duties g r = ∅ :=
  fun r hr => by dsimp only [Rd]; rw [if_neg fun h => by omega, if_neg fun h => by omega]

theorem amount_bar (d : Fin 3) : (Rd (F := F) m ρ).amount (barCell c) 0 d = 1 := by dsimp only [Rd]; exact if_pos rfl
theorem amount_snd (k d : Fin 3) : (Rd (F := F) m ρ).amount (sndCell c k) 0 d = N := by dsimp only [Rd]; exact if_neg (snd_ne_bar k)
theorem amount_rcv (k d : Fin 3) : (Rd (F := F) m ρ).amount (rcvCell c k) 0 d = N := by dsimp only [Rd]; exact if_neg (rcv_ne_bar k)

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_snd (k : Fin 3) : (Rd (F := F) m ρ).expect (sndCell c k) 0 = N := by
  unfold Schedule.expect Schedule.amountOf; rw [duties_snd, Finset.sum_singleton, amount_snd]
theorem expect_rcv (k : Fin 3) : (Rd (F := F) m ρ).expect (rcvCell c k) 0 = N := by
  unfold Schedule.expect Schedule.amountOf; rw [duties_rcv, Finset.sum_singleton, amount_rcv]

theorem payload_bar (d : Fin 3) : (Rd (F := F) m ρ).payload (barCell c) 0 d = barPay c d := by dsimp only [Rd]; rw [if_pos rfl]
theorem payload_rcv : ∀ (k d : Fin 3), (Rd (F := F) m ρ).payload (rcvCell c k) 0 d = rcvPay m ρ c k := by
  intro k d
  fin_cases k <;> dsimp only [Rd] <;> (repeat (first | rw [if_pos rfl] | rw [if_neg (by decide)])) <;> rfl
theorem payload_snd : ∀ (k d : Fin 3), (Rd (F := F) m ρ).payload (sndCell c k) 0 d = sndPay m ρ c k := by
  intro k d
  fin_cases k <;> dsimp only [Rd] <;> (repeat (first | rw [if_pos rfl] | rw [if_neg (by decide)])) <;> rfl

theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of the barrier cell's round, no duty taken: the three rows the peers handed over. -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_fin3, payload_bar, payload_bar, payload_bar]
theorem rest_snd (k : Fin 3) : bigSep ((Rd (F := F) m ρ).duties (sndCell c k) 0 \ ∅) (fun d => (Rd (F := F) m ρ).payload (sndCell c k) 0 d) = sndPay m ρ c k := by
  rw [Finset.sdiff_empty, duties_snd, bigSep_singleton, payload_snd]
theorem rest_rcv (k : Fin 3) : bigSep ((Rd (F := F) m ρ).duties (rcvCell c k) 0 \ ∅) (fun d => (Rd (F := F) m ρ).payload (rcvCell c k) 0 d) = rcvPay m ρ c k := by
  rw [Finset.sdiff_empty, duties_rcv, bigSep_singleton, payload_rcv]

end Sched

/-! ## What each device owes at launch; the levels -/

/-- The three receive credits a device's copies pay: summed so that the first copy (k = 1) peels the last summand. -/
def Orcv (c : Dev nD) : CellTallies nD τ sig Unit :=
  tallyAt (rcvCell (pe 2 c) 2) () N + tallyAt (rcvCell (pe 0 c) 0) () N + tallyAt (rcvCell (pe 1 c) 1) () N
/-- and with them the three barrier units, the first signal's (to p 0 c) last. -/
def O₀ (c : Dev nD) : CellTallies nD τ sig Unit :=
  Orcv c + tallyAt (barCell (pe 2 c)) () 1 + tallyAt (barCell (pe 1 c)) () 1 + tallyAt (barCell (pe 0 c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if IsRcv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [if_pos rfl]
theorem lv_rcv (c : Dev nD) (k : Fin 3) : lv (rcvCell c k) () = 2 := by dsimp only [lv]; rw [if_neg (rcv_ne_bar k), if_pos (isRcv_rcv k)]

theorem Orcv_pos {c : Dev nD} {g : GSem nD τ sig} {u : Unit} (h : 0 < Orcv c g u) : ∃ k, g = rcvCell (pe k c) k := by
  unfold Orcv at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 0 h'.1), if_neg (fun h' => hn 1 h'.1)] at h
  exact Nat.lt_irrefl 0 h

theorem O₀_pos {c : Dev nD} {g : GSem nD τ sig} {u : Unit} (h : 0 < O₀ c g u) : (∃ k, g = rcvCell (pe k c) k) ∨ ∃ e, g = barCell (pe e c) := by
  unfold O₀ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  exact (not_exists.mpr hn.1) (Orcv_pos h)

theorem mayWait_stage (c : Dev nD) (q : DmaSem sig) (hq : ¬ IsRcv (SemLoc.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨e, rfl⟩ <;> exact Finset.mem_singleton_self _)
      (fun p hp => by rw [Finset.mem_singleton.mp hp]; dsimp only [lv]; rw [if_neg (fun h => by cases h), if_neg hq])
      (fun g u hg => by
        rcases O₀_pos hg with ⟨k, rfl⟩ | ⟨e, rfl⟩
        · rw [lv_rcv]; decide
        · rw [lv_bar]; decide)
  · rw [MayWait_zero]; iintro -; iempintro

/-- At its barrier wait a device owes its three receive credits only: receive cells, above its barrier cell. -/
theorem mayWait_bar (c : Dev nD) :
    (levAts L lv : sProp 𝕄) ⊢ MayWait (c : Thread nD τ) (.reg barS) () (Orcv c) :=
  MayOwe.of_cut (L := L) (lev := lv) 1 (fun p hp => by rw [Finset.mem_singleton.mp hp, L_tc]; exact Finset.mem_singleton_self _)
    (fun g u hg => by obtain ⟨k, rfl⟩ := Orcv_pos hg; rw [L_tc]; exact Finset.mem_singleton_self _)
    (fun p hp => by rw [Finset.mem_singleton.mp hp]; dsimp only [lv]; rw [if_pos rfl])
    (fun g u hg => by obtain ⟨k, rfl⟩ := Orcv_pos hg; rw [lv_rcv]; decide)

end Cert.KernelProof

end
-- ==== Proof.RowsK.lean ====
/-
  The statistics buffer as its four rows.

  Row j is the set of indices whose first coordinate is j. The four rows are pairwise disjoint and
  cover the buffer, so the buffer held whole is its four rows held separately, named from any device c
  as its own row and the rows of the three devices after it. A device's own row held in full is its
  three shares. What a store of a device's statistics leaves on its own row, and what a copy of a row
  lands on the target's row, both read as the one function `stats` on that row.
-/
import proofs.«900600_g7700000000000601_dist_softmax_colshard_i_m1024_n512_v7x_i4_f32_1_alg».proof.Proof.ProtoK
import Idealize.ShloMosaic.Lib.Pipeline.Value

noncomputable section

namespace Cert.KernelProof

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The rows as sets -/

/-- A row's rectangle, at any spelling of the offsets (j, 0, 0). -/
theorem mem_rowRect {off : Fin 3 → Nat} {inb} (j : Dev nD) (hoff : off = ![j.val, 0, 0]) (i : S4x2x1024.Idx) :
    i ∈ (Rect.unit (s := S4x2x1024) off S1x2x1024.size inb).set ↔ (i 0).val = j.val := by
  rw [Rect.mem_set_unit]
  subst hoff
  constructor
  · intro h
    have h0 : j.val ≤ (i 0).val ∧ (i 0).val < j.val + 1 := h 0
    omega
  · intro h a
    match a with
    | ⟨0, _⟩ => exact (show j.val ≤ (i 0).val ∧ (i 0).val < j.val + 1 from by omega)
    | ⟨1, _⟩ => exact (show 0 ≤ (i 1).val ∧ (i 1).val < 0 + 2 from ⟨Nat.zero_le _, by have := (show (i 1).val < 2 from (i 1).isLt); omega⟩)
    | ⟨2, _⟩ => exact (show 0 ≤ (i 2).val ∧ (i 2).val < 0 + 1024 from ⟨Nat.zero_le _, by have := (show (i 2).val < 1024 from (i 2).isLt); omega⟩)

theorem rowM_set (j : Dev nD) :
    ((rowM j).view.set : Finset S4x2x1024.Idx) = (Rect.unit (s := S4x2x1024) (k0_off2 j) S1x2x1024.size (Gen.k0_off2_inb j)).set := by
  exact (View.set_reshape (v := (View.whole cc0_scratch0).slice (Rect.unit (s := S4x2x1024) (k0_off2 j) S1x2x1024.size (Gen.k0_off2_inb j))) _).trans
    (View.set_slice_whole cc0_scratch0 _)

theorem mem_rowM (j : Dev nD) (i : S4x2x1024.Idx) : i ∈ ((rowM j).view.set : Finset S4x2x1024.Idx) ↔ (i 0).val = j.val := by
  rw [rowM_set]; exact mem_rowRect j (k0_off2_eq j) i

theorem rows_disjoint {j j' : Dev nD} (h : j ≠ j') :
    Disjoint ((rowM j).view.set : Finset S4x2x1024.Idx) ((rowM j').view.set : Finset S4x2x1024.Idx) :=
  Finset.disjoint_left.mpr fun i h1 h2 => h (Fin.ext (((mem_rowM j i).mp h1).symm.trans ((mem_rowM j' i).mp h2)))

theorem dev_cases : ∀ (c x : Dev nD), x = c ∨ x = pe 0 c ∨ x = pe 1 c ∨ x = pe 2 c := by decide
theorem pe_ne_pe : ∀ (c : Dev nD) (e e' : Fin 3), e ≠ e' → pe e c ≠ pe e' c := by decide

theorem rows_cover (c : Dev nD) :
    (Finset.univ : Finset S4x2x1024.Idx)
      = (rowM c).view.set ∪ ((rowM (pe 0 c)).view.set ∪ ((rowM (pe 1 c)).view.set ∪ (rowM (pe 2 c)).view.set)) := by
  ext i
  simp only [Finset.mem_univ, Finset.mem_union, true_iff]
  have hx := dev_cases c ⟨(i 0).val, (i 0).isLt⟩
  rcases hx with h | h | h | h
  · exact .inl ((mem_rowM c i).mpr (congrArg Fin.val h))
  · exact .inr (.inl ((mem_rowM _ i).mpr (congrArg Fin.val h)))
  · exact .inr (.inr (.inl ((mem_rowM _ i).mpr (congrArg Fin.val h))))
  · exact .inr (.inr (.inr ((mem_rowM _ i).mpr (congrArg Fin.val h))))

/-! ## The buffer whole is its four rows -/

/-- Device d's statistics buffer held whole. -/
def wholePts (d : Dev nD) (f : Buf (Elt F) ((d : Thread nD τ).loc cc0_scratch0)) : sProp 𝕄 :=
  ((d : Thread nD τ).loc cc0_scratch0) ↦{fullShare} f

theorem rows_split (c d : Dev nD) (f : Buf (Elt F) ((d : Thread nD τ).loc cc0_scratch0)) :
    (wholePts d f : sProp 𝕄)
      ⊣⊢ iprop(rowPts d c fullShare f ∗ rowPts d (pe 0 c) fullShare f ∗ rowPts d (pe 1 c) fullShare f ∗ rowPts d (pe 2 c) fullShare f) := by
  unfold wholePts rowPts
  have h0 : Disjoint ((rowM c).view.set : Finset S4x2x1024.Idx) ((rowM (pe 0 c)).view.set ∪ ((rowM (pe 1 c)).view.set ∪ (rowM (pe 2 c)).view.set)) :=
    Finset.disjoint_union_right.mpr ⟨rows_disjoint (pe_ne 0 c).symm,
      Finset.disjoint_union_right.mpr ⟨rows_disjoint (pe_ne 1 c).symm, rows_disjoint (pe_ne 2 c).symm⟩⟩
  have h1 : Disjoint ((rowM (pe 0 c)).view.set : Finset S4x2x1024.Idx) ((rowM (pe 1 c)).view.set ∪ (rowM (pe 2 c)).view.set) :=
    Finset.disjoint_union_right.mpr ⟨rows_disjoint (pe_ne_pe c 0 1 (by decide)), rows_disjoint (pe_ne_pe c 0 2 (by decide))⟩
  have h2 : Disjoint ((rowM (pe 1 c)).view.set : Finset S4x2x1024.Idx) ((rowM (pe 2 c)).view.set) := rows_disjoint (pe_ne_pe c 1 2 (by decide))
  show (((d : Thread nD τ).loc cc0_scratch0) ↦[(Finset.univ : Finset S4x2x1024.Idx)]{fullShare} f : sProp 𝕄) ⊣⊢ _
  rw [rows_cover c]
  exact (pointsTo_union h0).trans (sep_congr_right ((pointsTo_union h1).trans (sep_congr_right (pointsTo_union h2))))

/-- A row held in full is its three shares. -/
theorem row_shares (c d : Dev nD) (f : Buf (Elt F) ((rowM c).view.loc (d : Thread nD τ))) :
    (rowPts d c fullShare f : sProp 𝕄) ⊣⊢ iprop(rowPts d c (shr 0) f ∗ rowPts d c (shr 1) f ∗ rowPts d c (shr 2) f) := by
  unfold rowPts shr
  exact (pointsTo_share (PosShare.mem_left_op_right fullShare)).trans
    (sep_congr_right (pointsTo_share (PosShare.mem_left_op_right fullShare.right)))

/-! ## What a row holds -/

/-- Writing through a view what the view reads of g leaves g on the view's elements. -/
theorem write_read_on {κ : Kind} {sp : Space} {s : Shape} {e : EltTy} (v : View sig κ sp s e) (fd g : v.ty.Contents (Elt F))
    {i : v.ty.Idx} (h : i ∈ v.set) : v.write (Elt F) fd (v.read (Elt F) g) Finset.univ i = g i := by
  obtain ⟨y, rfl⟩ := View.exists_emb_of_mem_set v h
  rw [View.write_emb_of_mem _ _ (Finset.mem_univ y), View.read_apply, cast_cast, cast_eq]

/-- A landed row reads as the source buffer on the row. -/
theorem landed_congr (c d : Dev nD) (q : PosShare TreeShare) (fd g : Buf (Elt F) ((rowM c).view.loc (d : Thread nD τ))) :
    (rowPts d c q ((rowM c).view.write (Elt F) fd ((rowM c).view.read (Elt F) g) Finset.univ) : sProp 𝕄) = rowPts d c q g := by
  unfold rowPts
  exact pointsTo_congr fun i hi => write_read_on (rowM c).view fd g hi

end Cert.KernelProof

end
-- ==== Proof.BodyK.lean ====
/-
  One device's body, from its share of the exchange's ghost state to its result block.

  In program order: the three barrier signals hand each peer the row of this device's statistics
  buffer that the peer will overwrite; the device stores its own row (its block's row maxima and row
  sums), which then reads as `stats` on that row, and cuts it into three shares; the barrier wait
  brings back the three target rows on the peers; each copy spends one share and one target row; the
  three receive waits bring the peers' rows, the three send waits the shares; the four rows are the
  buffer whole again, holding `stats`; the ten row loads and the product give the result block.
-/
import proofs.«900600_g7700000000000601_dist_softmax_colshard_i_m1024_n512_v7x_i4_f32_1_alg».proof.Proof.RowsK

noncomputable section

namespace Cert.KernelProof

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## What the store of a device's own row leaves -/

/-- The rectangle the body loads and stores its own row through. -/
abbrev r1 (c : Dev nD) : Rect S4x2x1024 := Rect.unit (s := S4x2x1024) (k0_off1 c) S1x2x1024.size (Gen.k0_off1_inb c)

theorem r1_set (c : Dev nD) : ((sM.access (r1 c)).set : Finset S4x2x1024.Idx) = (rowM c).view.set := by
  rw [rowM_set]
  refine (View.set_slice_whole cc0_scratch0 (r1 c)).trans ?_
  ext i; rw [mem_rowRect c (k0_off1_eq c), mem_rowRect c (k0_off2_eq c)]

/-- On row c the store leaves its payload, read at the two inner coordinates. -/
theorem stored_eq (c : Dev nD) (f0 : (cc0_scratch0 : Ref sig .tc).ty.Contents (Elt F)) (w : Vec F S1x2x1024 .f32)
    (i : S4x2x1024.Idx) (hi : i ∈ ((rowM c).view.set : Finset S4x2x1024.Idx)) :
    ((sM.access (r1 c)).write (Elt F) f0 w Finset.univ) i = w (ix3 (0 : Fin 1) (i 1) (i 2)) := by
  have hi' : i ∈ ((sM.access (r1 c)).set : Finset S4x2x1024.Idx) := by rw [r1_set]; exact hi
  obtain ⟨y, rfl⟩ := View.exists_emb_of_mem_set (sM.access (r1 c)) hi'
  rw [View.write_emb_of_mem _ _ (Finset.mem_univ y)]
  have hy : y = ix3 (0 : Fin 1) (((r1 c).emb y : S4x2x1024.Idx) 1) (((r1 c).emb y : S4x2x1024.Idx) 2) := by
    funext a
    match a with
    | ⟨0, _⟩ =>
        refine Fin.ext ?_
        show (y (0 : Fin 3)).val = 0
        have h0 : (y (0 : Fin 3)).val < 1 := (y (0 : Fin 3)).isLt
        omega
    | ⟨1, _⟩ =>
        refine Fin.ext ?_
        have h : (((r1 c).emb y) (1 : Fin 3) : Nat) = k0_off1 c 1 + 1 * (y (1 : Fin 3) : Nat) := Rect.emb_apply (r := r1 c) y 1
        rw [k0_off1_eq] at h
        have h' : (((r1 c).emb y) (1 : Fin 3) : Nat) = 0 + 1 * (y (1 : Fin 3) : Nat) := h
        show (y (1 : Fin 3) : Nat) = (((r1 c).emb y) (1 : Fin 3) : Nat)
        omega
    | ⟨2, _⟩ =>
        refine Fin.ext ?_
        have h : (((r1 c).emb y) (2 : Fin 3) : Nat) = k0_off1 c 2 + 1 * (y (2 : Fin 3) : Nat) := Rect.emb_apply (r := r1 c) y 2
        rw [k0_off1_eq] at h
        have h' : (((r1 c).emb y) (2 : Fin 3) : Nat) = 0 + 1 * (y (2 : Fin 3) : Nat) := h
        show (y (2 : Fin 3) : Nat) = (((r1 c).emb y) (2 : Fin 3) : Nat)
        omega
  exact (congrArg w hy)

theorem stored_congr (c : Dev nD) (f0 : (cc0_scratch0 : Ref sig .tc).ty.Contents (Elt F)) :
    (((sM.access (r1 c)).loc (c : Thread nD τ)) ↦[((rowM c).view.set : Finset S4x2x1024.Idx)]{fullShare}
        ((sM.access (r1 c)).write (Elt F) f0 (k0_pay4 (xin m ρ c)) Finset.univ) : sProp 𝕄)
      = rowPts c c fullShare (stats m ρ) := by
  unfold rowPts
  refine pointsTo_congr fun i hi => (stored_eq c f0 (k0_pay4 (xin m ρ c)) i hi).trans ?_
  have hc : (⟨(i 0).val, (i 0).isLt⟩ : Dev nD) = c := Fin.ext ((mem_rowM c i).mp hi)
  show _ = Iface.statsOf (fun j => xin m ρ j) i
  unfold Iface.statsOf
  show _ = k0_pay4 (xin m ρ ⟨(i 0).val, (i 0).isLt⟩) _
  rw [hc]

/-! ## The pipeline's proof data -/

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device c. -/
def outAt (c : Dev nD) : (cc0_stg1_0 : Ref sig .tc).ty.Contents (Elt F) := Iface.outOf c (fun j => xin m ρ j)

/-- The cells' invariants device c's body opens, under the names the launch allocated them at: its own seven,
    the three peers' barrier cells (its signals), and the receive cell k of the peer k + 1 places on (its copy k). -/
def invs (K : Dev nD × Fin 7 → ℕ) (c : Dev nD) : sProp 𝕄 :=
  iprop(cellInv ER (Rd m ρ) (K (c, 0)) (barCell c)
    ∗ (cellInv ER (Rd m ρ) (K (c, 1)) (sndCell c 0) ∗ cellInv ER (Rd m ρ) (K (c, 2)) (sndCell c 1) ∗ cellInv ER (Rd m ρ) (K (c, 3)) (sndCell c 2))
    ∗ (cellInv ER (Rd m ρ) (K (c, 4)) (rcvCell c 0) ∗ cellInv ER (Rd m ρ) (K (c, 5)) (rcvCell c 1) ∗ cellInv ER (Rd m ρ) (K (c, 6)) (rcvCell c 2))
    ∗ (cellInv ER (Rd m ρ) (K (pe 0 c, 0)) (barCell (pe 0 c)) ∗ cellInv ER (Rd m ρ) (K (pe 1 c, 0)) (barCell (pe 1 c)) ∗ cellInv ER (Rd m ρ) (K (pe 2 c, 0)) (barCell (pe 2 c)))
    ∗ (cellInv ER (Rd m ρ) (K (pe 0 c, 4)) (rcvCell (pe 0 c) 0) ∗ cellInv ER (Rd m ρ) (K (pe 1 c, 5)) (rcvCell (pe 1 c) 1) ∗ cellInv ER (Rd m ρ) (K (pe 2 c, 6)) (rcvCell (pe 2 c) 2)))

instance invs_persistent (K : Dev nD × Fin 7 → ℕ) (c : Dev nD) : BI.Persistent (invs m ρ K c) := by unfold invs; infer_instance

/-- The exchange's ghost state device c starts from: the invariants; its positions at round 0 of its seven cells; the
    reached-marks of the cells it pays; the nine duty tokens it pays with. -/
def ghost (K : Dev nD × Fin 7 → ℕ) (c : Dev nD) : sProp 𝕄 :=
  iprop(invs m ρ K c
    ∗ (atPos ER (barCell c) 0 ∅ 0
        ∗ (atPos ER (sndCell c 0) 0 ∅ 0 ∗ atPos ER (sndCell c 1) 0 ∅ 0 ∗ atPos ER (sndCell c 2) 0 ∅ 0)
        ∗ (atPos ER (rcvCell c 0) 0 ∅ 0 ∗ atPos ER (rcvCell c 1) 0 ∅ 0 ∗ atPos ER (rcvCell c 2) 0 ∅ 0))
    ∗ ((reached ER (barCell (pe 0 c)) 0 ∗ reached ER (barCell (pe 1 c)) 0 ∗ reached ER (barCell (pe 2 c)) 0)
        ∗ (reached ER (rcvCell (pe 0 c) 0) 0 ∗ reached ER (rcvCell (pe 1 c) 1) 0 ∗ reached ER (rcvCell (pe 2 c) 2) 0)
        ∗ (reached ER (sndCell c 0) 0 ∗ reached ER (sndCell c 1) 0 ∗ reached ER (sndCell c 2) 0))
    ∗ ((dutyTok ER (barCell (pe 0 c)) 0 0 ∗ dutyTok ER (barCell (pe 1 c)) 0 1 ∗ dutyTok ER (barCell (pe 2 c)) 0 2)
        ∗ (dutyTok ER (rcvCell (pe 0 c) 0) 0 0 ∗ dutyTok ER (rcvCell (pe 1 c) 1) 0 0 ∗ dutyTok ER (rcvCell (pe 2 c) 2) 0 0)
        ∗ (dutyTok ER (sndCell c 0) 0 0 ∗ dutyTok ER (sndCell c 1) 0 0 ∗ dutyTok ER (sndCell c 2) 0 0)))

/-- What device c's body starts from: that at some names, its credit tokens (its barrier's three units, its three
    receive cells' credits) and the level facts. -/
def start (c : Dev nD) : sProp 𝕄 :=
  iprop((∃ K, ghost m ρ K c) ∗ cred (tallyAt (barCell c) () 3)
    ∗ (cred (tallyAt (rcvCell c 0) () N) ∗ cred (tallyAt (rcvCell c 1) () N) ∗ cred (tallyAt (rcvCell c 2) () N)) ∗ levAts L lv)

def Φ₀ (c : Dev nD) : sProp 𝕄 := iprop(start m ρ c ∗ ∃ f, wholePts c f)
/-- After the point: the statistics buffer whole, holding every device's row; the six own cells at zero, closed. -/
def Φ₁ (c : Dev nD) : sProp 𝕄 :=
  iprop(wholePts c (stats m ρ)
    ∗ (semVal (sndCell c 0) 0 ∗ semVal (sndCell c 1) 0 ∗ semVal (sndCell c 2) 0)
    ∗ (semVal (rcvCell c 0) 0 ∗ semVal (rcvCell c 1) 0 ∗ semVal (rcvCell c 2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 7 → ℕ)

abbrev r0 : Rect S1024x512 := Rect.unit (s := S1024x512) ![0, 0] S1024x512.size Gen.inb_S1024x512_S1024x512_0_0

theorem hz : (![0, 0] : Fin 2 → Nat) = fun _ => 0 := funext fun a => by fin_cases a <;> rfl
theorem read_x (f : (cc0_stg0_0 : Ref sig .tc).ty.Contents (Elt F)) : (xM : Memref sig .tc .vmem S1024x512 .f32).view.readAt (Elt F) r0.toLoadRect f = f :=
  Memref.readAt_unit_zero (Elt F) cc0_stg0_0 hz _ f
theorem write_out (f w : (cc0_stg1_0 : Ref sig .tc).ty.Contents (Elt F)) :
    ((oM : Memref sig .tc .vmem S1024x512 .f32).access r0 : View sig .tc _ _ _).write (Elt F) f w Finset.univ = w :=
  Memref.write_access_unit_zero_univ (Elt F) cc0_stg1_0 hz _ f w

/-- The result store, in the form the run of the body's tail leaves it: through the slice of the whole staging buffer. -/
theorem write_out'' (inb) (f w : (cc0_stg1_0 : Ref sig .tc).ty.Contents (Elt F)) :
    View.write (Elt F) ((View.whole cc0_stg1_0).slice (Rect.unit (s := S1024x512) ![0, 0] ![1024, 512] inb)) f w Finset.univ = w :=
  Memref.write_access_unit_zero_univ (Elt F) cc0_stg1_0 hz _ f w

theorem pb0_eq : ∀ c : Dev nD, pb 0 c = pe 2 c := by decide
theorem pb1_eq : ∀ c : Dev nD, pb 1 c = pe 1 c := by decide
theorem pb2_eq : ∀ c : Dev nD, pb 2 c = pe 0 c := by decide

/-- The send rule at the exchange's cells: copy k of device c, addressed to n = p k c, reads its share of c's own row and
    overwrites row c of n's buffer; what lands reads as `stats` on that row. -/
theorem wp_send_row (κ₁ κ₂ : ℕ) (c n : Dev nD) (k : Fin 3) (hn : n = pe k c)
    {hsc : ((rowM c) : Memref sig (Dev.tc n : Thread nD τ).2.kind .vmem S2x1024 .f32).view.ref.isScScratch = false}
    {hsrc : ((rowM c) : Memref sig .tc .vmem S2x1024 .f32).view.WordExact} {hdst : ((rowM c) : Memref sig .tc .vmem S2x1024 .f32).view.WordExact}
    {hsem : DmaTarget.Typed .vmem (.dma (rcvS k)) (.remote (Dev.tc n : Thread nD τ) ((rowM c) : Memref sig .tc .vmem S2x1024 .f32) (.dma (sndS k)) hsc)}
    {α : Type} {Q : α → sProp 𝕄} {k' : PUnit → Prog (TpuEff nD τ sig (Elt F) Λ₀ .tc) α}
    (fn : Buf (Elt F) ((rowM c).view.loc (pe k c : Thread nD τ))) (O₁ O : CellTallies nD τ sig Unit) (hO : O₁ = O + tallyAt (rcvCell (pe k c) k) () N) (W : Waits sig Unit) :
    iprop(cellInv ER (Rd m ρ) κ₁ (sndCell c k) ∗ cellInv ER (Rd m ρ) κ₂ (rcvCell (pe k c) k)
        ∗ rowPts c c (shr k) (stats m ρ) ∗ rowPts (pe k c) c fullShare fn
        ∗ owes (c : Thread nD τ) O₁ W
        ∗ dutyTok ER (sndCell c k) 0 0 ∗ reached ER (sndCell c k) 0
        ∗ dutyTok ER (rcvCell (pe k c) k) 0 0 ∗ reached ER (rcvCell (pe k c) k) 0)
      ⊢ iprop(((cred (tallyAt (sndCell c k) () N) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (rowM c) (.remote (Dev.tc n : Thread nD τ) (rowM c) (.dma (sndS k)) hsc) (.dma (rcvS k)) hsrc hdst hsem) k') Q) := by
  subst hn
  unfold rowPts
  exact Rounds.wp_send_pointsTo 𝒱₀ ER (Rd m ρ) (c : Thread nD τ) none (κ₁ := κ₁) (κ₂ := κ₂)
    (r₁ := 0) (r₂ := 0) (d₁ := 0) (d₂ := 0) (fd := fn)
    (by rw [duties_snd]; exact Finset.mem_singleton_self _) (by rw [duties_rcv]; exact Finset.mem_singleton_self _)
    () () N rfl (amount_snd m ρ c k 0) (amount_rcv m ρ (pe k c) k 0) O hO (W := W)
    (by rw [payload_snd]; exact BI.Entails.refl _)
    (by rw [payload_rcv]; unfold rcvPay; rw [pb_pe]; exact Entails.of_eq (landed_congr (F := F) c (pe k c) fullShare fn (stats m ρ)))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 3)
      ∗ (cred (tallyAt (rcvCell c 0) () N) ∗ cred (tallyAt (rcvCell c 1) () N) ∗ cred (tallyAt (rcvCell c 2) () N)) ∗ levAts L lv ∗ ∃ f, wholePts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xin m ρ c) ∗ stg c cc0_stg1_0 (outAt m ρ c))

set_option maxHeartbeats 1600000 in
/-- The body, stepped one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost invs
  iintro ⟨⟨⟨⟨⟨#HIB, ⟨#HIS0, #HIS1, #HIS2⟩, ⟨#HIR0, #HIR1, #HIR2⟩, ⟨#HIBp0, #HIBp1, #HIBp2⟩, ⟨#HIRp0, #HIRp1, #HIRp2⟩⟩,
      ⟨HatB, ⟨HatS0, HatS1, HatS2⟩, ⟨HatR0, HatR1, HatR2⟩⟩,
      ⟨⟨#HrBp0, #HrBp1, #HrBp2⟩, ⟨#HrRp0, #HrRp1, #HrRp2⟩, ⟨#HrS0, #HrS1, #HrS2⟩⟩,
      ⟨⟨HtBp0, HtBp1, HtBp2⟩, ⟨HtRp0, HtRp1, HtRp2⟩, ⟨HtS0, HtS1, HtS2⟩⟩⟩,
      HcB, ⟨HcR0, HcR1, HcR2⟩, #Hlev, ⟨%f0, Hscr⟩⟩,
    Ho, ⟨%d0, %g0, %hg0, Hx⟩, ⟨%d1, %g1, %hg1, Hout⟩⟩, Hk⟩
  have hx : g0 = xin m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the buffer cut into its four rows
  ihave Hr := (rows_split (F := F) c c f0).1 $$ Hscr
  icases Hr with ⟨Hrowc, Hrow0, Hrow1, Hrow2⟩
  unfold O₀
  -- the three SIGNALS: each hands a peer the row of this buffer it will overwrite
  iapply (Rounds.wp_signal 𝒱₀ ER (Rd m ρ) (c : Thread nD τ) none (dst := (pe 0 c : Thread nD τ)) (κ := K (pe 0 c, 0))
      (d := (0 : Fin 3)) (by rw [duties_bar]; exact Finset.mem_univ _) ((amount_bar m ρ (pe 0 c) 0).trans (by decide)) ()
      (Orcv c + tallyAt (barCell (pe 2 c)) () 1 + tallyAt (barCell (pe 1 c)) () 1) rfl) $$ [HO HtBp0 Hrow0]
  · isplitr; · iexact HIBp0
    isplitl [HO]; · iexact HO
    isplitl [HtBp0]; · iexact HtBp0
    isplitl [Hrow0]
    · rw [payload_bar]; unfold barPay; rw [pb_pe]; iexists f0; iexact Hrow0
    · iexact HrBp0
  iintro HO
  iapply (Rounds.wp_signal 𝒱₀ ER (Rd m ρ) (c : Thread nD τ) none (dst := (pe 1 c : Thread nD τ)) (κ := K (pe 1 c, 0))
      (d := (1 : Fin 3)) (by rw [duties_bar]; exact Finset.mem_univ _) ((amount_bar m ρ (pe 1 c) 1).trans (by decide)) ()
      (Orcv c + tallyAt (barCell (pe 2 c)) () 1) rfl) $$ [HO HtBp1 Hrow1]
  · isplitr; · iexact HIBp1
    isplitl [HO]; · iexact HO
    isplitl [HtBp1]; · iexact HtBp1
    isplitl [Hrow1]
    · rw [payload_bar]; unfold barPay; rw [pb_pe]; iexists f0; iexact Hrow1
    · iexact HrBp1
  iintro HO
  iapply (Rounds.wp_signal 𝒱₀ ER (Rd m ρ) (c : Thread nD τ) none (dst := (pe 2 c : Thread nD τ)) (κ := K (pe 2 c, 0))
      (d := (2 : Fin 3)) (by rw [duties_bar]; exact Finset.mem_univ _) ((amount_bar m ρ (pe 2 c) 2).trans (by decide)) ()
      (Orcv c) rfl) $$ [HO HtBp2 Hrow2]
  · isplitr; · iexact HIBp2
    isplitl [HO]; · iexact HO
    isplitl [HtBp2]; · iexact HtBp2
    isplitl [Hrow2]
    · rw [payload_bar]; unfold barPay; rw [pb_pe]; iexists f0; iexact Hrow2
    · iexact HrBp2
  iintro HO
  -- the block loaded; the own row loaded and stored: it then reads as `stats` on the row
  iapply (wp_load 𝒱₀ (c : Thread nD τ) none Set.univ (m := xM) (Finset.subset_univ _)) $$ Hx; iintro Hx
  rw [read_x]
  unfold rowPts
  iapply (wp_load_rect 𝒱₀ (c : Thread nD τ) none Set.univ (m := sM) (r := r1 c) (S := ((rowM c).view.set : Finset S4x2x1024.Idx)) (r1_set c).subset) $$ Hrowc; iintro Hrowc
  iapply (wp_store 𝒱₀ (c : Thread nD τ) none Set.univ (m := sM) (r := r1 c) (Mk := Finset.univ) (S := ((rowM c).view.set : Finset S4x2x1024.Idx)) (r1_set c).subset) $$ Hrowc; iintro Hrowc
  ihave Hown := (Entails.of_eq (stored_congr m ρ c f0)) $$ Hrowc
  ihave Hsh := (row_shares (F := F) c c (stats m ρ)).1 $$ Hown
  icases Hsh with ⟨Hs0, Hs1, Hs2⟩
  -- the WAIT for 3 on its own barrier, owing the three receive credits: the three target rows come with it
  iapply (Rounds.wp_wait_rest_token 𝒱₀ ER (Rd m ρ) (c : Thread nD τ) none (κ := K (c, 0))
      (wpE_semWait_eq 𝒱₀ (c : Thread nD τ) none Set.univ) (Set.mem_univ _) () (O := Orcv c) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  rw [pb0_eq c, pb1_eq c, pb2_eq c]
  icases Hp with ⟨⟨%fa, Hd2⟩, ⟨%fb, Hd1⟩, ⟨%fc, Hd0⟩⟩
  unfold Orcv
  -- the three COPIES, in program order k = 1, 0, 2
  iapply (wp_send_row m ρ (K (c, 2)) (K (pe 1 c, 5)) c _ 1 (dev4_eq c) fb _
      (tallyAt (rcvCell (pe 2 c) 2) () N + tallyAt (rcvCell (pe 0 c) 0) () N) rfl (insert (SemLoc.reg barS, ()) W)) $$ [Hs1 Hd1 HO HtS1 HtRp1]
  · isplitr; · iexact HIS1
    isplitr; · iexact HIRp1
    isplitl [Hs1]; · iexact Hs1
    isplitl [Hd1]; · iexact Hd1
    isplitl [HO]; · iexact HO
    isplitl [HtS1]; · iexact HtS1
    isplitr; · iexact HrS1
    isplitl [HtRp1]; · iexact HtRp1
    iexact HrRp1
  iintro ⟨HcS1, HO⟩
  iapply (wp_send_row m ρ (K (c, 1)) (K (pe 0 c, 4)) c _ 0 (dev5_eq c) fc _
      (tallyAt (rcvCell (pe 2 c) 2) () N) rfl (insert (SemLoc.reg barS, ()) W)) $$ [Hs0 Hd0 HO HtS0 HtRp0]
  · isplitr; · iexact HIS0
    isplitr; · iexact HIRp0
    isplitl [Hs0]; · iexact Hs0
    isplitl [Hd0]; · iexact Hd0
    isplitl [HO]; · iexact HO
    isplitl [HtS0]; · iexact HtS0
    isplitr; · iexact HrS0
    isplitl [HtRp0]; · iexact HtRp0
    iexact HrRp0
  iintro ⟨HcS0, HO⟩
  iapply (wp_send_row m ρ (K (c, 3)) (K (pe 2 c, 6)) c _ 2 (dev6_eq c) fa _
      0 (zero_add _).symm (insert (SemLoc.reg barS, ()) W)) $$ [Hs2 Hd2 HO HtS2 HtRp2]
  · isplitr; · iexact HIS2
    isplitr; · iexact HIRp2
    isplitl [Hs2]; · iexact Hs2
    isplitl [Hd2]; · iexact Hd2
    isplitl [HO]; · iexact HO
    isplitl [HtS2]; · iexact HtS2
    isplitr; · iexact HrS2
    isplitl [HtRp2]; · iexact HtRp2
    iexact HrRp2
  iintro ⟨HcS2, HO⟩
  -- the three RECEIVE waits (k = 1, 0, 2): each brings a peer's row
  iapply (Rounds.wp_wait_rest_token 𝒱₀ ER (Rd m ρ) (c : Thread nD τ) none (κ := K (c, 5))
      (wpE_waitDma2_eq 𝒱₀ (c : Thread nD τ) none Set.univ) (Set.mem_univ _) () (O := 0)
      (W := insert (SemLoc.reg barS, ()) W) (R := 0) (m := 0) (T := ∅)
      (by rw [Nat.zero_add]; exact (expect_rcv m ρ c 1).symm)) $$ [HcR1 HO HatR1]
  · isplitr; · iexact HIR1
    isplitl [HcR1]; · iexact HcR1
    isplitl [HO]; · iexact HO
    isplitr; · rw [MayWait_zero]; iempintro
    iexact HatR1
  iintro ⟨HO, HatR1, -, Hpay⟩
  ihave Hq1 := (Entails.of_eq (rest_rcv m ρ c 1)) $$ Hpay
  iapply (Rounds.wp_wait_rest_token 𝒱₀ ER (Rd m ρ) (c : Thread nD τ) none (κ := K (c, 4))
      (wpE_waitDma2_eq 𝒱₀ (c : Thread nD τ) none Set.univ) (Set.mem_univ _) () (O := 0)
      (W := insert (SemLoc.dma (rcvS 1), ()) (insert (SemLoc.reg barS, ()) W)) (R := 0) (m := 0) (T := ∅)
      (by rw [Nat.zero_add]; exact (expect_rcv m ρ c 0).symm)) $$ [HcR0 HO HatR0]
  · isplitr; · iexact HIR0
    isplitl [HcR0]; · iexact HcR0
    isplitl [HO]; · iexact HO
    isplitr; · rw [MayWait_zero]; iempintro
    iexact HatR0
  iintro ⟨HO, HatR0, -, Hpay⟩
  ihave Hq0 := (Entails.of_eq (rest_rcv m ρ c 0)) $$ Hpay
  iapply (Rounds.wp_wait_rest_token 𝒱₀ ER (Rd m ρ) (c : Thread nD τ) none (κ := K (c, 6))
      (wpE_waitDma2_eq 𝒱₀ (c : Thread nD τ) none Set.univ) (Set.mem_univ _) () (O := 0)
      (W := insert (SemLoc.dma (rcvS 0), ()) (insert (SemLoc.dma (rcvS 1), ()) (insert (SemLoc.reg barS, ()) W))) (R := 0) (m := 0) (T := ∅)
      (by rw [Nat.zero_add]; exact (expect_rcv m ρ c 2).symm)) $$ [HcR2 HO HatR2]
  · isplitr; · iexact HIR2
    isplitl [HcR2]; · iexact HcR2
    isplitl [HO]; · iexact HO
    isplitr; · rw [MayWait_zero]; iempintro
    iexact HatR2
  iintro ⟨HO, HatR2, -, Hpay⟩
  ihave Hq2 := (Entails.of_eq (rest_rcv m ρ c 2)) $$ Hpay
  -- the three SEND waits (k = 1, 0, 2): each brings back a share of the own row
  iapply (Rounds.wp_wait_rest_token 𝒱₀ ER (Rd m ρ) (c : Thread nD τ) none (κ := K (c, 2))
      (wpE_waitDma2_eq 𝒱₀ (c : Thread nD τ) none Set.univ) (Set.mem_univ _) () (O := 0)
      (W := insert (SemLoc.dma (rcvS 2), ()) (insert (SemLoc.dma (rcvS 0), ()) (insert (SemLoc.dma (rcvS 1), ()) (insert (SemLoc.reg barS, ()) W)))) (R := 0) (m := 0) (T := ∅)
      (by rw [Nat.zero_add]; exact (expect_snd m ρ c 1).symm)) $$ [HcS1 HO HatS1]
  · isplitr; · iexact HIS1
    isplitl [HcS1]; · iexact HcS1
    isplitl [HO]; · iexact HO
    isplitr; · rw [MayWait_zero]; iempintro
    iexact HatS1
  iintro ⟨HO, HatS1, -, Hpay⟩
  ihave Hp1 := (Entails.of_eq (rest_snd m ρ c 1)) $$ Hpay
  iapply (Rounds.wp_wait_rest_token 𝒱₀ ER (Rd m ρ) (c : Thread nD τ) none (κ := K (c, 1))
      (wpE_waitDma2_eq 𝒱₀ (c : Thread nD τ) none Set.univ) (Set.mem_univ _) () (O := 0)
      (W := insert (SemLoc.dma (sndS 1), ()) (insert (SemLoc.dma (rcvS 2), ()) (insert (SemLoc.dma (rcvS 0), ()) (insert (SemLoc.dma (rcvS 1), ()) (insert (SemLoc.reg barS, ()) W))))) (R := 0) (m := 0) (T := ∅)
      (by rw [Nat.zero_add]; exact (expect_snd m ρ c 0).symm)) $$ [HcS0 HO HatS0]
  · isplitr; · iexact HIS0
    isplitl [HcS0]; · iexact HcS0
    isplitl [HO]; · iexact HO
    isplitr; · rw [MayWait_zero]; iempintro
    iexact HatS0
  iintro ⟨HO, HatS0, -, Hpay⟩
  ihave Hp0 := (Entails.of_eq (rest_snd m ρ c 0)) $$ Hpay
  iapply (Rounds.wp_wait_rest_token 𝒱₀ ER (Rd m ρ) (c : Thread nD τ) none (κ := K (c, 3))
      (wpE_waitDma2_eq 𝒱₀ (c : Thread nD τ) none Set.univ) (Set.mem_univ _) () (O := 0)
      (W := insert (SemLoc.dma (sndS 0), ()) (insert (SemLoc.dma (sndS 1), ()) (insert (SemLoc.dma (rcvS 2), ()) (insert (SemLoc.dma (rcvS 0), ()) (insert (SemLoc.dma (rcvS 1), ()) (insert (SemLoc.reg barS, ()) W)))))) (R := 0) (m := 0) (T := ∅)
      (by rw [Nat.zero_add]; exact (expect_snd m ρ c 2).symm)) $$ [HcS2 HO HatS2]
  · isplitr; · iexact HIS2
    isplitl [HcS2]; · iexact HcS2
    isplitl [HO]; · iexact HO
    isplitr; · rw [MayWait_zero]; iempintro
    iexact HatS2
  iintro ⟨HO, HatS2, -, Hpay⟩
  ihave Hp2 := (Entails.of_eq (rest_snd m ρ c 2)) $$ Hpay
  -- the three shares are the own row; the four rows are the buffer whole, holding `stats`
  unfold rcvPay sndPay
  rw [pb0_eq c, pb1_eq c, pb2_eq c]
  ihave Hown := (row_shares (F := F) c c (stats m ρ)).2 $$ [Hp0 Hp1 Hp2]
  · isplitl [Hp0]; · iexact Hp0
    isplitl [Hp1] <;> iassumption
  ihave Hw := (rows_split (F := F) c c (stats m ρ)).2 $$ [Hown Hq0 Hq1 Hq2]
  · isplitl [Hown]; · iexact Hown
    isplitl [Hq2]; · iexact Hq2
    isplitl [Hq1]; · iexact Hq1
    iexact Hq0
  -- the six own cells close: their counters at zero are the core's again
  imod (Rounds.cell_close ER (Rd m ρ) (Set.mem_univ (K (c, 1))) (fun h => h) (R := 0 + 1) (duties_later m ρ (sndCell c 0))) $$ [HatS0] with HzS0
  · isplitr; · iexact HIS0
    iexact HatS0
  imod (Rounds.cell_close ER (Rd m ρ) (Set.mem_univ (K (c, 2))) (fun h => h) (R := 0 + 1) (duties_later m ρ (sndCell c 1))) $$ [HatS1] with HzS1
  · isplitr; · iexact HIS1
    iexact HatS1
  imod (Rounds.cell_close ER (Rd m ρ) (Set.mem_univ (K (c, 3))) (fun h => h) (R := 0 + 1) (duties_later m ρ (sndCell c 2))) $$ [HatS2] with HzS2
  · isplitr; · iexact HIS2
    iexact HatS2
  imod (Rounds.cell_close ER (Rd m ρ) (Set.mem_univ (K (c, 4))) (fun h => h) (R := 0 + 1) (duties_later m ρ (rcvCell c 0))) $$ [HatR0] with HzR0
  · isplitr; · iexact HIR0
    iexact HatR0
  imod (Rounds.cell_close ER (Rd m ρ) (Set.mem_univ (K (c, 5))) (fun h => h) (R := 0 + 1) (duties_later m ρ (rcvCell c 1))) $$ [HatR1] with HzR1
  · isplitr; · iexact HIR1
    iexact HatR1
  imod (Rounds.cell_close ER (Rd m ρ) (Set.mem_univ (K (c, 6))) (fun h => h) (R := 0 + 1) (duties_later m ρ (rcvCell c 2))) $$ [HatR2] with HzR2
  · isplitr; · iexact HIR2
    iexact HatR2
  -- the buffers spelt through their memrefs' views; then the nine row loads, the result block's load and its store in one run
  unfold wholePts
  ihave Hw2 := (Entails.of_eq (show ((((c : Thread nD τ).loc cc0_scratch0) ↦{fullShare} stats m ρ : sProp 𝕄)) = ((sM : Memref sig .tc .vmem S4x2x1024 .f32).view.loc (c : Thread nD τ) ↦{fullShare} stats m ρ) from rfl)) $$ Hw
  ihave Hout2 := (Entails.of_eq (show ((((c : Thread nD τ).loc cc0_stg1_0) ↦{fullShare} g1 : sProp 𝕄)) = ((oM : Memref sig .tc .vmem S1024x512 .f32).view.loc (c : Thread nD τ) ↦{fullShare} g1) from rfl)) $$ Hout
  sl_exec
  rw [wp_ret]; imodintro
  sl_unfold_run_names
  simp only [View.writes_cons, View.writes_nil]
  rw [write_out'']
  iapply Hk
  unfold bodyPost Φ₁ Dat.owesAt Pipeline.owesWithin
  rw [show (dats m ρ 0 c).owed t₀.succ = 0 from rfl]
  isplitl [Hw2 HzS0 HzS1 HzS2 HzR0 HzR1 HzR2]
  · isplitl [Hw2]; · unfold wholePts; iexact Hw2
    isplitl [HzS0 HzS1 HzS2]
    · isplitl [HzS0]; · iexact HzS0
      isplitl [HzS1] <;> iassumption
    · isplitl [HzR0]; · iexact HzR0
      isplitl [HzR1] <;> iassumption
  isplitl [HO]
  · iexists (insert (SemLoc.dma (sndS 2), ()) (insert (SemLoc.dma (sndS 0), ()) (insert (SemLoc.dma (sndS 1), ()) (insert (SemLoc.dma (rcvS 2), ()) (insert (SemLoc.dma (rcvS 0), ()) (insert (SemLoc.dma (rcvS 1), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout2

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelProof

end
-- ==== Proof.LaunchK.lean ====
/-
  The launch: from each device's body to the run of the whole mesh.

  The exchange's ghost state is allocated once for all devices: every cell's round state, position and
  round-0 mark, and every duty's token. A barrier cell's token for duty e goes to the device e + 1 places
  before the cell's owner, a receive cell k's token to the device k + 1 places before its owner; send
  tokens stay. The credit a device finds at launch on its barrier cell is the three units its peers owe
  it, and on each receive cell the one row's credit of the peer that copies into it. The run's post
  names each device's result array as the body's result term and leaves the argument arrays as launched.
-/
import proofs.«900600_g7700000000000601_dist_softmax_colshard_i_m1024_n512_v7x_i4_f32_1_alg».proof.Proof.BodyK

noncomputable section

namespace Cert.KernelProof

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- The semaphore and the duty of each of a device's own cells' nine tokens: its barrier's three, its send cells', its
    receive cells'. -/
abbrev tokSD : Fin 9 → SemLoc sig × Fin 3 := fun
  | 0 => (.reg barS, 0) | 1 => (.reg barS, 1) | 2 => (.reg barS, 2)
  | 3 => (.dma (sndS 0), 0) | 4 => (.dma (sndS 1), 0) | 5 => (.dma (sndS 2), 0)
  | 6 => (.dma (rcvS 0), 0) | 7 => (.dma (rcvS 1), 0) | 8 => (.dma (rcvS 2), 0)
theorem tokSD_inj : Function.Injective tokSD := by decide
abbrev tokOf (cj : Dev nD × Fin 9) : GSem nD τ sig × ℕ × Fin 3 := (((cj.1 : Thread nD τ), (tokSD cj.2).1), 0, (tokSD cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : tokSD j = tokSD j' :=
    Prod.ext (congrArg (fun x : GSem nD τ sig × ℕ × Fin 3 => x.1.2) h) (congrArg (fun x : GSem nD τ sig × ℕ × Fin 3 => x.2.2) h)
  rw [tokSD_inj h2]
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device c's own cells. -/
def toks (c : Dev nD) : sProp 𝕄 :=
  iprop(dutyTok ER (barCell c) 0 0 ∗ dutyTok ER (barCell c) 0 1 ∗ dutyTok ER (barCell c) 0 2
    ∗ dutyTok ER (sndCell c 0) 0 0 ∗ dutyTok ER (sndCell c 1) 0 0 ∗ dutyTok ER (sndCell c 2) 0 0
    ∗ dutyTok ER (rcvCell c 0) 0 0 ∗ dutyTok ER (rcvCell c 1) 0 0 ∗ dutyTok ER (rcvCell c 2) 0 0)

/-- What the launch element deals device c. -/
def G (c : Dev nD) : sProp 𝕄 :=
  iprop((bigSep Finset.univ fun k : Fin 7 => roundState ER (Rd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (Rd m ρ) xCells xToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The six send and receive semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0 ∗ semVal (rcvCell c 0) 0 ∗ semVal (rcvCell c 1) 0 ∗ semVal (rcvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (Rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (Rd m ρ) (K ck) (kcell ck) : sProp 𝕄)) ⊢ cellInv ER (Rd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (pe 0 c)) 0 0 ∗ dutyTok ER (barCell (pe 1 c)) 0 1 ∗ dutyTok ER (barCell (pe 2 c)) 0 2
    ∗ dutyTok ER (sndCell c 0) 0 0 ∗ dutyTok ER (sndCell c 1) 0 0 ∗ dutyTok ER (sndCell c 2) 0 0
    ∗ dutyTok ER (rcvCell (pe 0 c) 0) 0 0 ∗ dutyTok ER (rcvCell (pe 1 c) 1) 0 0 ∗ dutyTok ER (rcvCell (pe 2 c) 2) 0 0)
def linear (c : Dev nD) : sProp 𝕄 :=
  iprop((bigSep Finset.univ fun k : Fin 7 => atPos ER (kcell (c, k)) 0 ∅ 0) ∗ payToks c)

theorem ghost_intro (K : Dev nD × Fin 7 → ℕ) (c : Dev nD) : iprop(records m ρ K ∗ linear c) ⊢ G' m ρ c := by
  unfold records linear payToks G' ghost invs
  rw [bigSep_fin7]
  iintro ⟨⟨#HI, #HR⟩, ⟨HaB, HaS0, HaS1, HaS2, HaR0, HaR1, HaR2⟩, HtB0, HtB1, HtB2, HtS0, HtS1, HtS2, HtR0, HtR1, HtR2⟩
  iexists K
  isplitr
  · isplitr; · iapply (inv_at m ρ K (c, 0)); iexact HI
    isplitr
    · isplitr; · iapply (inv_at m ρ K (c, 1)); iexact HI
      isplitr; · iapply (inv_at m ρ K (c, 2)); iexact HI
      iapply (inv_at m ρ K (c, 3)); iexact HI
    isplitr
    · isplitr; · iapply (inv_at m ρ K (c, 4)); iexact HI
      isplitr; · iapply (inv_at m ρ K (c, 5)); iexact HI
      iapply (inv_at m ρ K (c, 6)); iexact HI
    isplitr
    · isplitr; · iapply (inv_at m ρ K (pe 0 c, 0)); iexact HI
      isplitr; · iapply (inv_at m ρ K (pe 1 c, 0)); iexact HI
      iapply (inv_at m ρ K (pe 2 c, 0)); iexact HI
    · isplitr; · iapply (inv_at m ρ K (pe 0 c, 4)); iexact HI
      isplitr; · iapply (inv_at m ρ K (pe 1 c, 5)); iexact HI
      iapply (inv_at m ρ K (pe 2 c, 6)); iexact HI
  isplitl [HaB HaS0 HaS1 HaS2 HaR0 HaR1 HaR2]
  · isplitl [HaB]; · iexact HaB
    isplitl [HaS0 HaS1 HaS2]
    · isplitl [HaS0]; · iexact HaS0
      isplitl [HaS1] <;> iassumption
    · isplitl [HaR0]; · iexact HaR0
      isplitl [HaR1] <;> iassumption
  isplitr
  · isplitr
    · isplitr; · iapply (reached_at (F := F) (pe 0 c, 0)); iexact HR
      isplitr; · iapply (reached_at (F := F) (pe 1 c, 0)); iexact HR
      iapply (reached_at (F := F) (pe 2 c, 0)); iexact HR
    isplitr
    · isplitr; · iapply (reached_at (F := F) (pe 0 c, 4)); iexact HR
      isplitr; · iapply (reached_at (F := F) (pe 1 c, 5)); iexact HR
      iapply (reached_at (F := F) (pe 2 c, 6)); iexact HR
    · isplitr; · iapply (reached_at (F := F) (c, 1)); iexact HR
      isplitr; · iapply (reached_at (F := F) (c, 2)); iexact HR
      iapply (reached_at (F := F) (c, 3)); iexact HR
  isplitl [HtB0 HtB1 HtB2]
  · isplitl [HtB0]; · iexact HtB0
    isplitl [HtB1] <;> iassumption
  isplitl [HtR0 HtR1 HtR2]
  · isplitl [HtR0]; · iexact HtR0
    isplitl [HtR1] <;> iassumption
  · isplitl [HtS0]; · iexact HtS0
    isplitl [HtS1] <;> iassumption

/-- The tokens dealt around the mesh. -/
theorem toks_around : (bigSep Finset.univ fun c : Dev nD => (toks c : sProp 𝕄)) ⊢ bigSep Finset.univ fun c : Dev nD => payToks c := by
  unfold toks payToks
  simp only [bigSep_sep']
  rw [bigSep_univ_equiv (ringE 0) (fun c : Dev nD => (dutyTok ER (barCell c) 0 0 : sProp 𝕄)),
    bigSep_univ_equiv (ringE 1) (fun c : Dev nD => (dutyTok ER (barCell c) 0 1 : sProp 𝕄)),
    bigSep_univ_equiv (ringE 2) (fun c : Dev nD => (dutyTok ER (barCell c) 0 2 : sProp 𝕄)),
    bigSep_univ_equiv (ringE 0) (fun c : Dev nD => (dutyTok ER (rcvCell c 0) 0 0 : sProp 𝕄)),
    bigSep_univ_equiv (ringE 1) (fun c : Dev nD => (dutyTok ER (rcvCell c 1) 0 0 : sProp 𝕄)),
    bigSep_univ_equiv (ringE 2) (fun c : Dev nD => (dutyTok ER (rcvCell c 2) 0 0 : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (Rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The credit device c finds on its own cells: a unit from each of its three peers on its barrier cell, the row's
    credit on each receive cell from the peer that copies into it. -/
theorem creds (c : Dev nD) :
    (Pipeline.launchCred O₀ c : sProp 𝕄)
      ⊢ iprop(cred (tallyAt (barCell c) () 3)
          ∗ (cred (tallyAt (rcvCell c 0) () N) ∗ cred (tallyAt (rcvCell c 1) () N) ∗ cred (tallyAt (rcvCell c 2) () N))) := by
  have hO : (O₀ : Dev nD → CellTallies nD τ sig Unit) = fun d =>
      (((((fun d => tallyAt (rcvCell (pe 2 d) 2) () N) d + (fun d => tallyAt (rcvCell (pe 0 d) 0) () N) d) + (fun d => tallyAt (rcvCell (pe 1 d) 1) () N) d)
        + (fun d => tallyAt (barCell (pe 2 d)) () 1) d) + (fun d => tallyAt (barCell (pe 1 d)) () 1) d) + (fun d => tallyAt (barCell (pe 0 d)) () 1) d := rfl
  rw [hO, Pipeline.launchCred_add, Pipeline.launchCred_add, Pipeline.launchCred_add, Pipeline.launchCred_add, Pipeline.launchCred_add]
  iintro ⟨⟨⟨⟨⟨Hr2, Hr0⟩, Hr1⟩, Hb2⟩, Hb1⟩, Hb0⟩
  ihave Cr2 := (Pipeline.launchCred_tallyAt (SemLoc.dma (rcvS 2)) (pe 2) (pb 2) (pe_pb 2) (pb_pe 2) () N c) $$ Hr2
  ihave Cr0 := (Pipeline.launchCred_tallyAt (SemLoc.dma (rcvS 0)) (pe 0) (pb 0) (pe_pb 0) (pb_pe 0) () N c) $$ Hr0
  ihave Cr1 := (Pipeline.launchCred_tallyAt (SemLoc.dma (rcvS 1)) (pe 1) (pb 1) (pe_pb 1) (pb_pe 1) () N c) $$ Hr1
  ihave Cb2 := (Pipeline.launchCred_tallyAt (SemLoc.reg barS) (pe 2) (pb 2) (pe_pb 2) (pb_pe 2) () 1 c) $$ Hb2
  ihave Cb1 := (Pipeline.launchCred_tallyAt (SemLoc.reg barS) (pe 1) (pb 1) (pe_pb 1) (pb_pe 1) () 1 c) $$ Hb1
  ihave Cb0 := (Pipeline.launchCred_tallyAt (SemLoc.reg barS) (pe 0) (pb 0) (pe_pb 0) (pb_pe 0) () 1 c) $$ Hb0
  isplitl [Cb0 Cb1 Cb2]
  · have h3 : (tallyAt (barCell c) () 3 : CellTallies nD τ sig Unit) = tallyAt (barCell c) () 1 + (tallyAt (barCell c) () 1 + tallyAt (barCell c) () 1) := by
      rw [tallyAt_add, tallyAt_add]
    rw [h3]
    iapply (cred_add _ _).2
    isplitl [Cb0]; · iexact Cb0
    iapply (cred_add _ _).2
    isplitl [Cb1] <;> iassumption
  isplitl [Cr0]; · iexact Cr0
  isplitl [Cr1] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ wholePts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ wholePts
  iintro ⟨Hr, ⟨S0, S1, S2⟩, ⟨R0, R1, R2⟩⟩
  isplitr; · iempintro
  isplitl [S0 S1 S2 R0 R1 R2]
  · isplitl [S0]; · iexact S0
    isplitl [S1]; · iexact S1
    isplitl [S2]; · iexact S2
    isplitl [R0]; · iexact R0
    isplitl [R1] <;> iassumption
  iexists (stats m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's arrays at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

end Cert.KernelProof

end
-- ==== Proof.FinalK.lean ====
/-
  The run's post as values: on every device the result array ends as the body's result term of the
  four devices' argument arrays, and the argument array ends as launched.

  The input window is the whole argument array, so what its staging buffer holds is the array itself;
  the output window is the whole result array, written back once, so the final array is what the body
  left in its staging buffer.
-/
import proofs.«900600_g7700000000000601_dist_softmax_colshard_i_m1024_n512_v7x_i4_f32_1_alg».proof.Proof.LaunchK
import proofs.«900600_g7700000000000601_dist_softmax_colshard_i_m1024_n512_v7x_i4_f32_1_alg».proof.Proof.Gen.Kernel.Points

noncomputable section

namespace Cert.KernelProof

open Cert.Kernel Cert.Kernel.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The block the input window stages is the whole argument array. -/
theorem xin_eq (j : Dev nD) : xin m ρ j = m ((j : Thread nD τ).loc main_arg0) := by
  unfold xin s₀
  exact Memref.read_access_unit_zero (Elt F) main_arg0 (by funext a; fin_cases a <;> rfl) _ _

theorem finalA_in (c : Dev nD) : finalA m ρ c (0 : Fin 2) = m ((c : Thread nD τ).loc main_arg0) :=
  (dats (F := F) m ρ 0 c).arrAt_in (0 : Fin 2) rfl _

/-- The result array after the run is what the body left in the output staging buffer. -/
theorem finalA_out (c : Dev nD) : finalA m ρ c (1 : Fin 2) = outAt m ρ c := by
  unfold finalA
  have h := (dats (F := F) m ρ 0 c).arrAt_succ (1 : Fin 2) t₀
  rw [show (cfg0.win (1 : Fin 2)).flush t₀ = true from flush0_1 t₀, if_pos rfl] at h
  refine h.trans ?_
  exact Memref.write_access_unit_zero_univ (Elt F) main_v1 (by funext a; fin_cases a <;> rfl) _ _ _

/-- Every weakly fair execution of the four devices terminates; each device's result array ends as the body's result
    term of the four argument arrays, and its argument array as launched. -/
theorem run_value : θ_run defs (onTc (τ := τ) (main (F := F))) ⟨m, fun _ => 0, ρ⟩ (fun r => ∀ c : Dev nD,
      r.2.mem ((c.tc : Thread nD τ).loc main_v1) = Iface.outOf c (fun j => m ((j.tc : Thread nD τ).loc main_arg0))
      ∧ r.2.mem ((c.tc : Thread nD τ).loc main_arg0) = m ((c.tc : Thread nD τ).loc main_arg0)) :=
  (θ_run defs _ _).mono (fun r h c =>
    ⟨((h c (1 : Fin 2)).trans (finalA_out m ρ c)).trans (by
        unfold outAt
        exact congrArg (Iface.outOf c) (funext fun j => xin_eq m ρ j)),
      (h c (0 : Fin 2)).trans (finalA_in m ρ c)⟩) (run_main m ρ)

/-- The frame: it runs to the end, nothing faults, the argument arrays end unchanged. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_value m ρ)

/-- info: 'Cert.KernelProof.run_value' depends on axioms: [propext, Classical.choice, Quot.sound] -/
#guard_msgs in #print axioms run_value

end Cert.KernelProof

end
-- ==== Proof.Spec.lean ====
/-
  The mathematics of the column-sharded softmax, over the reals.

  A row of 2048 numbers is cut into four blocks of 512. Block j has its own maximum m_j and its own
  sum s_j = Σ_k exp (x_j k - m_j). With M the maximum of the four block maxima, the row's softmax at
  column q of block c is
      exp (x_c q - m_c) · (exp (m_c - M) / Σ_j s_j · exp (m_j - M)),
  which is the plain softmax exp (X col - M) / Σ_k exp (X k - M) of the whole row, because
  exp (a - m) · exp (m - M) = exp (a - M) and M is the whole row's maximum.
-/
import Idealize.ShloMosaic.PureOps.Ideal

noncomputable section

namespace Cert.SoftmaxSpec

open scoped BigOperators

/-- The maximum of a nonempty finite family of reals. -/
def rowMax {n : ℕ} [NeZero n] (f : Fin n → ℝ) : ℝ := Finset.univ.sup' Finset.univ_nonempty f

/-- What one device computes at row r, column q of its block c, from the four blocks: its own
    exponentials rescaled from the block maximum to the maximum of the four block maxima, over the
    four block sums rescaled the same way (summed left to right). -/
def kerReal (xr : Fin 4 → Fin 1024 → Fin 512 → ℝ) (c : Fin 4) (r : Fin 1024) (q : Fin 512) : ℝ :=
  let m : Fin 4 → ℝ := fun j => rowMax (xr j r)
  let s : Fin 4 → ℝ := fun j => ∑ k, Real.exp (xr j r k - m j)
  let M : ℝ := max (max (max (m 0) (m 1)) (m 2)) (m 3)
  Real.exp (xr c r q - m c)
    * (Real.exp (m c - M)
        / (s 0 * Real.exp (m 0 - M) + s 1 * Real.exp (m 1 - M) + s 2 * Real.exp (m 2 - M) + s 3 * Real.exp (m 3 - M)))

/-- The softmax of a whole row of 2048 reals at a column. -/
def refReal (Xr : Fin 1024 → Fin 2048 → ℝ) (r : Fin 1024) (col : Fin 2048) : ℝ :=
  Real.exp (Xr r col - rowMax (Xr r)) / ∑ k, Real.exp (Xr r k - rowMax (Xr r))

end Cert.SoftmaxSpec

end
-- ==== Proof.KerValue.lean ====
/-
  The kernel's result block on one device, read at an index, as a real number.

  Device j's block of the input is a 1024 × 512 array of reals x_j. For a row r its block maximum is
  m_j = max_k x_j r k and its block sum of exponentials is s_j = Σ_k exp (x_j r k - m_j). Every device's
  statistics buffer holds, in row (j, 0), the maxima m_j and, in row (j, 1), the sums s_j of device j.
  With M = max (max (max m_0 m_1) m_2) m_3, device c's result at (r, q) is
      exp (x_c r q - m_c) · (exp (m_c - M) / (s_0 · exp (m_0 - M) + s_1 · exp (m_1 - M) + s_2 · exp (m_2 - M) + s_3 · exp (m_3 - M))).

  The steps: each payload read at an index (the row maximum as a fold of `max` from -∞, the row sum as a
  finite sum, the shape casts, the transpose, the concatenation and the broadcasts as reads of one operand
  entry); a row load of the statistics buffer as a read of that buffer's row; and the arithmetic of the
  extended reals on coerced reals, where the maximum, the difference, the exponential, the product and the
  sum are the coerced real ones and the quotient is too because the divisor, a sum of four positive terms,
  is not zero.
-/
import proofs.«900600_g7700000000000601_dist_softmax_colshard_i_m1024_n512_v7x_i4_f32_1_alg».proof.Proof.Iface
import proofs.«900600_g7700000000000601_dist_softmax_colshard_i_m1024_n512_v7x_i4_f32_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.EReal.Basic
import Mathlib.Data.EReal.Operations
import Mathlib.Data.Finset.Lattice.Fold
import Mathlib.Order.MinMax
import Mathlib.Analysis.Complex.Exponential
import Mathlib.Algebra.Order.BigOperators.Group.Finset

noncomputable section

namespace Cert.KernelIdeal.KerValue

open Idealize.ShloMosaic Idealize.ShloMosaic.ValueIdx
open Cert.KernelIdeal Cert.KernelIdeal.Gen Cert.KernelIdeal.Iface
open scoped BigOperators

variable [Cert.KernelIdeal.Facts]

/-! ## The payloads of the first phase, read at an index -/

/-- A shape cast to the same shape reads the operand. -/
theorem pay1_apply (v : Vec Ideal S1024x512 .f32) (r : Fin 1024) (q : Fin 512) :
    k0_pay1 (F := Ideal) v (ix2 r q) = v (ix2 r q) := by
  unfold k0_pay1
  exact congrFun (shapeCast_self v _) _

/-- The fold of `max` from the bottom over coerced reals is the coerced maximum. -/
theorem fold_max_coe {n : ℕ} [NeZero n] (f : Fin n → ℝ) :
    (Finset.univ : Finset (Fin n)).fold max (⊥ : EReal) (fun k => ((f k : ℝ) : EReal))
      = ((Cert.SoftmaxSpec.rowMax f : ℝ) : EReal) := by
  unfold Cert.SoftmaxSpec.rowMax
  rw [Finset.comp_sup'_eq_sup'_comp Finset.univ_nonempty (fun x : ℝ => (x : EReal))
      (fun x y => EReal.coe_strictMono.monotone.map_max),
    Finset.sup'_eq_sup]
  rfl

/-- The row maximum, kept as a column: the fold of `max` from minus infinity over the row. -/
theorem pay2_apply (v : Vec Ideal S1024x512 .f32) (f : Fin 512 → ℝ) (r : Fin 1024) (u : Fin 1)
    (hv : ∀ k : Fin 512, v (ix2 r k) = ((f k : ℝ) : EReal)) :
    k0_pay2 (F := Ideal) v (ix2 r u) = ((Cert.SoftmaxSpec.rowMax f : ℝ) : EReal) := by
  unfold k0_pay2
  refine (shapeCast_apply _ shapeCasts_S1024_S1024x1 (ix2 r u) (ix1 r) ?_).trans ?_
  · rw [Shape.rowMajor_val_one, Shape.rowMajor_val_two]; show r.val = r.val * 1 + u.val; omega
  refine (Ideal.multiReduction_maximumf_single (k0_pay1 (F := Ideal) v) 0xFF800000#32 reduces_S1024x512_S1024 (.inl rfl) rfl (ix1 r)).trans ?_
  have hb : (FloatOps.ofBits (F := Ideal) .f32 0xFF800000#32) = (⊥ : EReal) := by
    show Ideal.ofBits .f32 0xFF800000#32 = ⊥; simp [Ideal.ofBits, Ideal.ieee]
  have hf : (k0_pay1 (F := Ideal) v ∘ (reduces_S1024x512_S1024).lift (ix1 r)) = fun k : Fin 512 => ((f k : ℝ) : EReal) := by
    refine funext fun (k : Fin 512) => ?_
    show k0_pay1 (F := Ideal) v ((reduces_S1024x512_S1024).lift (ix1 r) k) = _
    have : (reduces_S1024x512_S1024).lift (ix1 r) k = ix2 r k := by
      funext a; match a with | ⟨0, _⟩ => exact Fin.ext rfl | ⟨1, _⟩ => exact Fin.ext rfl
    rw [this, pay1_apply, hv]
  rw [hb, hf]
  exact fold_max_coe f

/-- A finite sum of coerced reals is the coerced sum. -/
theorem coe_finset_sum {ι : Type*} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- The column of row maxima broadcast along the row reads the row's maximum. -/
theorem bcast_col_apply (w : FVec Ideal S1024x1 .f32) (r : Fin 1024) (q : Fin 512) :
    broadcastTo S1024x512 w broadcasts_S1024x1_S1024x512 (ix2 r q) = w (ix2 r (0 : Fin 1)) := by
  refine broadcastTo_apply w broadcasts_S1024x1_S1024x512 (ix2 r q) (ix2 r (0 : Fin 1)) fun a => ?_
  match a with
  | ⟨0, _⟩ => rfl
  | ⟨1, _⟩ => rfl

/-- The exponential of the entry less its row's maximum. -/
theorem pay3_apply (v : Vec Ideal S1024x512 .f32) (f : Fin 512 → ℝ) (r : Fin 1024) (q : Fin 512)
    (hv : ∀ k : Fin 512, v (ix2 r k) = ((f k : ℝ) : EReal)) :
    k0_pay3 (F := Ideal) v (ix2 r q) = ((Real.exp (f q - Cert.SoftmaxSpec.rowMax f) : ℝ) : EReal) := by
  unfold k0_pay3
  show Ideal.exp (k0_pay1 (F := Ideal) v (ix2 r q)
      - broadcastTo S1024x512 (k0_pay2 (F := Ideal) v) broadcasts_S1024x1_S1024x512 (ix2 r q)) = _
  rw [bcast_col_apply, pay1_apply, hv, pay2_apply v f r 0 hv]
  rfl

/-- The row sum of the exponentials: the sum over the row's 512 entries. -/
theorem sum_apply (v : Vec Ideal S1024x512 .f32) (f : Fin 512 → ℝ) (r : Fin 1024)
    (hv : ∀ k : Fin 512, v (ix2 r k) = ((f k : ℝ) : EReal)) :
    multiReduction .add [1] S1024 (k0_pay3 (F := Ideal) v) 0x00000000#32 reduces_S1024x512_S1024 (.inl rfl) rfl (ix1 r)
      = ((∑ k : Fin 512, Real.exp (f k - Cert.SoftmaxSpec.rowMax f) : ℝ) : EReal) := by
  refine (Ideal.multiReduction_add_single (k0_pay3 (F := Ideal) v) 0x00000000#32 reduces_S1024x512_S1024 (.inl rfl) rfl (ix1 r)).trans ?_
  refine Eq.trans ?_ (coe_finset_sum Finset.univ fun k : Fin 512 => Real.exp (f k - Cert.SoftmaxSpec.rowMax f))
  refine Finset.sum_congr rfl fun (k : Fin 512) _ => ?_
  have : (reduces_S1024x512_S1024).lift (ix1 r) k = ix2 r k := by
    funext a; match a with | ⟨0, _⟩ => exact Fin.ext rfl | ⟨1, _⟩ => exact Fin.ext rfl
  rw [this, pay3_apply v f r k hv]

/-- The statistics block's first row: the row maxima. -/
theorem pay4_apply_max (v : Vec Ideal S1024x512 .f32) (f : Fin 512 → ℝ) (u : Fin 1) (r : Fin 1024)
    (hv : ∀ k : Fin 512, v (ix2 r k) = ((f k : ℝ) : EReal)) :
    k0_pay4 (F := Ideal) v (ix3 u (0 : Fin 2) r) = ((Cert.SoftmaxSpec.rowMax f : ℝ) : EReal) := by
  unfold k0_pay4
  refine (shapeCast_ab_1ab_apply _ shapeCasts_S2x1024_S1x2x1024 u (0 : Fin 2) r).trans ?_
  refine (transpose_ix2_apply _ transposes_S1024x2_p1_0_S2x1024 (0 : Fin 2) r).trans ?_
  have hi : ∀ b : Fin S1024x1.rank, ((ix2 r (0 : Fin 1) : S1024x1.Idx) b).val
      = ((ix2 r (0 : Fin 2) : S1024x2.Idx) (b.cast (rfl : S1024x1.rank = S1024x2.rank))).val := by
    intro b
    match b with
    | ⟨0, _⟩ => rfl
    | ⟨1, _⟩ => rfl
  refine (concatenate_pair_apply_left (t := S1024x2) (s₁ := S1024x1) (s₂ := S1024x1) (1 : Fin 2) _ _
    concatenates_S1024x1_S1024x1_S1024x2_d1 (ix2 r (0 : Fin 2)) rfl (ix2 r (0 : Fin 1)) hi).trans ?_
  exact pay2_apply v f r 0 hv

/-- The statistics block's second row: the row sums of the exponentials. -/
theorem pay4_apply_sum (v : Vec Ideal S1024x512 .f32) (f : Fin 512 → ℝ) (u : Fin 1) (r : Fin 1024)
    (hv : ∀ k : Fin 512, v (ix2 r k) = ((f k : ℝ) : EReal)) :
    k0_pay4 (F := Ideal) v (ix3 u (1 : Fin 2) r)
      = ((∑ k : Fin 512, Real.exp (f k - Cert.SoftmaxSpec.rowMax f) : ℝ) : EReal) := by
  unfold k0_pay4
  refine (shapeCast_ab_1ab_apply _ shapeCasts_S2x1024_S1x2x1024 u (1 : Fin 2) r).trans ?_
  refine (transpose_ix2_apply _ transposes_S1024x2_p1_0_S2x1024 (1 : Fin 2) r).trans ?_
  have hi : ∀ b : Fin S1024x1.rank, b.cast (rfl : S1024x1.rank = S1024x2.rank) ≠ (1 : Fin 2) →
      ((ix2 r (0 : Fin 1) : S1024x1.Idx) b).val
        = ((ix2 r (1 : Fin 2) : S1024x2.Idx) (b.cast (rfl : S1024x1.rank = S1024x2.rank))).val := by
    intro b hb
    match b, hb with
    | ⟨0, _⟩, _ => rfl
    | ⟨1, _⟩, hb => exact absurd rfl hb
  refine (concatenate_pair_apply_right (t := S1024x2) (s₁ := S1024x1) (s₂ := S1024x1) (1 : Fin 2) _ _
    concatenates_S1024x1_S1024x1_S1024x2_d1 (ix2 r (1 : Fin 2)) rfl rfl (ix2 r (0 : Fin 1)) hi rfl).trans ?_
  refine (shapeCast_apply _ shapeCasts_S1024_S1024x1 (ix2 r (0 : Fin 1)) (ix1 r) ?_).trans ?_
  · rw [Shape.rowMajor_val_one, Shape.rowMajor_val_two]; show r.val = r.val * 1 + 0; omega
  exact sum_apply v f r hv

/-! ## The statistics buffer and its row loads -/

/-- Row `(j, 0)` of the statistics buffer holds device `j`'s row maxima. -/
theorem statsOf_max (x : Dev nD → Vec Ideal S1024x512 .f32) (xr : Fin 4 → Fin 1024 → Fin 512 → ℝ)
    (hx : ∀ (j : Fin 4) (r : Fin 1024) (k : Fin 512), x j (ix2 r k) = ((xr j r k : ℝ) : EReal))
    (j : Fin 4) (r : Fin 1024) :
    statsOf (F := Ideal) x (ix3 j (0 : Fin 2) r) = ((Cert.SoftmaxSpec.rowMax (xr j r) : ℝ) : EReal) :=
  pay4_apply_max (x j) (xr j r) 0 r (hx j r)

/-- Row `(j, 1)` of the statistics buffer holds device `j`'s row sums of exponentials. -/
theorem statsOf_sum (x : Dev nD → Vec Ideal S1024x512 .f32) (xr : Fin 4 → Fin 1024 → Fin 512 → ℝ)
    (hx : ∀ (j : Fin 4) (r : Fin 1024) (k : Fin 512), x j (ix2 r k) = ((xr j r k : ℝ) : EReal))
    (j : Fin 4) (r : Fin 1024) :
    statsOf (F := Ideal) x (ix3 j (1 : Fin 2) r)
      = ((∑ k : Fin 512, Real.exp (xr j r k - Cert.SoftmaxSpec.rowMax (xr j r)) : ℝ) : EReal) :=
  pay4_apply_sum (x j) (xr j r) 0 r (hx j r)

/-- A load of one row of 1024 entries at offsets `(a, b, 0)` reads the buffer's row `(a, b)`. -/
theorem rowOf_apply (S : Vec Ideal S4x2x1024 .f32) (off : Fin 3 → Nat)
    (h : ∀ a, off a + S1x1x1024.size a ≤ S4x2x1024.size a) (a : Fin 4) (b : Fin 2) (r : Fin 1024)
    (h0 : off 0 = a.val) (h1 : off 1 = b.val) (h2 : off 2 = 0) :
    rowOf S off h (ix3 (0 : Fin 1) (0 : Fin 1) r) = S (ix3 a b r) := by
  show S _ = S _
  refine congrArg S (funext fun c => Fin.ext ?_)
  match c with
  | ⟨0, _⟩ => show off 0 + 1 * 0 = a.val; omega
  | ⟨1, _⟩ => show off 1 + 1 * 0 = b.val; omega
  | ⟨2, _⟩ => show off 2 + 1 * r.val = r.val; omega

/-! ## The last payload, read at an index -/

/-- A loaded `1 × 1 × 1024` row viewed `1 × 1024` reads the same entry. -/
theorem cast_row_apply (w : Vec Ideal S1x1x1024 .f32) (r : Fin 1024) :
    shapeCast S1x1024 w shapeCasts_S1x1x1024_S1x1024 (ix2 (0 : Fin 1) r) = w (ix3 (0 : Fin 1) (0 : Fin 1) r) :=
  shapeCast_1ab_ab_apply w shapeCasts_S1x1x1024_S1x1024 (0 : Fin 1) r

/-- The exponential of a vector reads the exponential of the element. -/
theorem exp_apply {s : Shape} {φ : FTy} (a : FVec Ideal s φ) (i : s.Idx) : exp a i = Ideal.exp (a i) := rfl

/-- The result block at `(r, q)`: the device's own exponential times the rescaling factor of row `r`. -/
theorem pay8_apply (e : FVec Ideal S1024x512 .f32) (a0 a1 a2 : FVec Ideal S1x1024 .f32)
    (b3 c0 c1 c2 c3 d : Vec Ideal S1x1x1024 .f32) (r : Fin 1024) (q : Fin 512) :
    k0_pay8 (F := Ideal) e a0 a1 a2 b3 c0 c1 c2 c3 d (ix2 r q)
      = e (ix2 r q)
        * Ideal.div
            (Ideal.exp (d (ix3 (0 : Fin 1) (0 : Fin 1) r)
              - max (max (max (a0 (ix2 (0 : Fin 1) r)) (a1 (ix2 (0 : Fin 1) r))) (a2 (ix2 (0 : Fin 1) r)))
                  (b3 (ix3 (0 : Fin 1) (0 : Fin 1) r))))
            (c0 (ix3 (0 : Fin 1) (0 : Fin 1) r)
                * Ideal.exp (a0 (ix2 (0 : Fin 1) r)
                  - max (max (max (a0 (ix2 (0 : Fin 1) r)) (a1 (ix2 (0 : Fin 1) r))) (a2 (ix2 (0 : Fin 1) r)))
                      (b3 (ix3 (0 : Fin 1) (0 : Fin 1) r)))
              + c1 (ix3 (0 : Fin 1) (0 : Fin 1) r)
                * Ideal.exp (a1 (ix2 (0 : Fin 1) r)
                  - max (max (max (a0 (ix2 (0 : Fin 1) r)) (a1 (ix2 (0 : Fin 1) r))) (a2 (ix2 (0 : Fin 1) r)))
                      (b3 (ix3 (0 : Fin 1) (0 : Fin 1) r)))
              + c2 (ix3 (0 : Fin 1) (0 : Fin 1) r)
                * Ideal.exp (a2 (ix2 (0 : Fin 1) r)
                  - max (max (max (a0 (ix2 (0 : Fin 1) r)) (a1 (ix2 (0 : Fin 1) r))) (a2 (ix2 (0 : Fin 1) r)))
                      (b3 (ix3 (0 : Fin 1) (0 : Fin 1) r)))
              + c3 (ix3 (0 : Fin 1) (0 : Fin 1) r)
                * Ideal.exp (b3 (ix3 (0 : Fin 1) (0 : Fin 1) r)
                  - max (max (max (a0 (ix2 (0 : Fin 1) r)) (a1 (ix2 (0 : Fin 1) r))) (a2 (ix2 (0 : Fin 1) r)))
                      (b3 (ix3 (0 : Fin 1) (0 : Fin 1) r)))) := by
  unfold k0_pay8
  refine (mulf_apply _ _ _).trans ?_
  refine congrArg (e (ix2 r q) * ·) ?_
  refine (bcast_col_apply _ r q).trans ?_
  refine (transpose_ix2_apply _ transposes_S1x1024_p1_0_S1024x1 r (0 : Fin 1)).trans ?_
  simp only [divf_apply, exp_apply, subf_apply, mulf_apply, addf_apply, maximumf_apply]
  rw [cast_row_apply d r, cast_row_apply b3 r, cast_row_apply c0 r, cast_row_apply c1 r, cast_row_apply c2 r,
    cast_row_apply c3 r]

/-! ## The arithmetic on coerced reals, and the result -/

/-- The maximum of two coerced reals is the coerced maximum. -/
theorem max_coe (a b : ℝ) : max (a : EReal) (b : EReal) = ((max a b : ℝ) : EReal) :=
  (EReal.coe_strictMono.monotone.map_max).symm

/-- On coerced reals, with positive block sums, the extended-real expression of the rescaled
    exponential is the coerced real one: every operation stays finite and the divisor is positive. -/
theorem scalar_eq (e mc m0 m1 m2 m3 s0 s1 s2 s3 : ℝ) (h0 : 0 < s0) (h1 : 0 < s1) (h2 : 0 < s2) (h3 : 0 < s3) :
    (e : EReal)
        * Ideal.div
            (Ideal.exp ((mc : EReal) - max (max (max (m0 : EReal) (m1 : EReal)) (m2 : EReal)) (m3 : EReal)))
            ((s0 : EReal) * Ideal.exp ((m0 : EReal) - max (max (max (m0 : EReal) (m1 : EReal)) (m2 : EReal)) (m3 : EReal))
              + (s1 : EReal) * Ideal.exp ((m1 : EReal) - max (max (max (m0 : EReal) (m1 : EReal)) (m2 : EReal)) (m3 : EReal))
              + (s2 : EReal) * Ideal.exp ((m2 : EReal) - max (max (max (m0 : EReal) (m1 : EReal)) (m2 : EReal)) (m3 : EReal))
              + (s3 : EReal) * Ideal.exp ((m3 : EReal) - max (max (max (m0 : EReal) (m1 : EReal)) (m2 : EReal)) (m3 : EReal)))
      = ((e * (Real.exp (mc - max (max (max m0 m1) m2) m3)
            / (s0 * Real.exp (m0 - max (max (max m0 m1) m2) m3) + s1 * Real.exp (m1 - max (max (max m0 m1) m2) m3)
                + s2 * Real.exp (m2 - max (max (max m0 m1) m2) m3) + s3 * Real.exp (m3 - max (max (max m0 m1) m2) m3))) : ℝ) : EReal) := by
  rw [max_coe, max_coe, max_coe]
  generalize max (max (max m0 m1) m2) m3 = M
  have hD : 0 < s0 * Real.exp (m0 - M) + s1 * Real.exp (m1 - M) + s2 * Real.exp (m2 - M) + s3 * Real.exp (m3 - M) :=
    add_pos (add_pos (add_pos (mul_pos h0 (Real.exp_pos _)) (mul_pos h1 (Real.exp_pos _))) (mul_pos h2 (Real.exp_pos _)))
      (mul_pos h3 (Real.exp_pos _))
  show (e : EReal) * Ideal.div ((Real.exp (mc - M) : ℝ) : EReal)
      ((s0 : EReal) * ((Real.exp (m0 - M) : ℝ) : EReal) + (s1 : EReal) * ((Real.exp (m1 - M) : ℝ) : EReal)
        + (s2 : EReal) * ((Real.exp (m2 - M) : ℝ) : EReal) + (s3 : EReal) * ((Real.exp (m3 - M) : ℝ) : EReal)) = _
  rw [← EReal.coe_mul, ← EReal.coe_mul, ← EReal.coe_mul, ← EReal.coe_mul, ← EReal.coe_add, ← EReal.coe_add,
    ← EReal.coe_add, Ideal.div_coe hD.ne', ← EReal.coe_mul, ← EReal.coe_mul, mul_one_div]

/-- A block's row sum of exponentials is positive. -/
theorem rowSum_pos (f : Fin 512 → ℝ) : 0 < ∑ k : Fin 512, Real.exp (f k - Cert.SoftmaxSpec.rowMax f) :=
  Finset.sum_pos (fun _ _ => Real.exp_pos _) Finset.univ_nonempty

/-- Device `c`'s result block at `(r, q)` is the coerced real `kerReal xr c r q`. -/
theorem ker_real (x : Dev Cert.KernelIdeal.nD → Vec Ideal Cert.KernelIdeal.S1024x512 .f32) (xr : Fin 4 → Fin 1024 → Fin 512 → ℝ)
    (hx : ∀ (j : Fin 4) (r : Fin 1024) (k : Fin 512), x j (ValueIdx.ix2 r k) = ((xr j r k : ℝ) : EReal))
    (c : Dev Cert.KernelIdeal.nD) (r : Fin 1024) (q : Fin 512) :
    Cert.KernelIdeal.Iface.outOf (F := Ideal) c x (ValueIdx.ix2 r q) = ((Cert.SoftmaxSpec.kerReal xr c r q : ℝ) : EReal) := by
  have em0 : k0_pay5 (F := Ideal) (rowOf (statsOf x) ![0, 0, 0] Facts₀.inb_S4x2x1024_S1x1x1024_0_0_0) (ix2 (0 : Fin 1) r)
      = ((Cert.SoftmaxSpec.rowMax (xr 0 r) : ℝ) : EReal) :=
    (cast_row_apply _ r).trans ((rowOf_apply _ _ _ 0 0 r rfl rfl rfl).trans (statsOf_max x xr hx 0 r))
  have em1 : k0_pay6 (F := Ideal) (rowOf (statsOf x) ![1, 0, 0] Facts₀.inb_S4x2x1024_S1x1x1024_1_0_0) (ix2 (0 : Fin 1) r)
      = ((Cert.SoftmaxSpec.rowMax (xr 1 r) : ℝ) : EReal) :=
    (cast_row_apply _ r).trans ((rowOf_apply _ _ _ 1 0 r rfl rfl rfl).trans (statsOf_max x xr hx 1 r))
  have em2 : k0_pay7 (F := Ideal) (rowOf (statsOf x) ![2, 0, 0] Facts₀.inb_S4x2x1024_S1x1x1024_2_0_0) (ix2 (0 : Fin 1) r)
      = ((Cert.SoftmaxSpec.rowMax (xr 2 r) : ℝ) : EReal) :=
    (cast_row_apply _ r).trans ((rowOf_apply _ _ _ 2 0 r rfl rfl rfl).trans (statsOf_max x xr hx 2 r))
  have em3 : rowOf (statsOf (F := Ideal) x) ![3, 0, 0] Facts₀.inb_S4x2x1024_S1x1x1024_3_0_0 (ix3 (0 : Fin 1) (0 : Fin 1) r)
      = ((Cert.SoftmaxSpec.rowMax (xr 3 r) : ℝ) : EReal) :=
    (rowOf_apply _ _ _ 3 0 r rfl rfl rfl).trans (statsOf_max x xr hx 3 r)
  have es0 : rowOf (statsOf (F := Ideal) x) ![0, 1, 0] Facts₀.inb_S4x2x1024_S1x1x1024_0_1_0 (ix3 (0 : Fin 1) (0 : Fin 1) r)
      = ((∑ k : Fin 512, Real.exp (xr 0 r k - Cert.SoftmaxSpec.rowMax (xr 0 r)) : ℝ) : EReal) :=
    (rowOf_apply _ _ _ 0 1 r rfl rfl rfl).trans (statsOf_sum x xr hx 0 r)
  have es1 : rowOf (statsOf (F := Ideal) x) ![1, 1, 0] Facts₀.inb_S4x2x1024_S1x1x1024_1_1_0 (ix3 (0 : Fin 1) (0 : Fin 1) r)
      = ((∑ k : Fin 512, Real.exp (xr 1 r k - Cert.SoftmaxSpec.rowMax (xr 1 r)) : ℝ) : EReal) :=
    (rowOf_apply _ _ _ 1 1 r rfl rfl rfl).trans (statsOf_sum x xr hx 1 r)
  have es2 : rowOf (statsOf (F := Ideal) x) ![2, 1, 0] Facts₀.inb_S4x2x1024_S1x1x1024_2_1_0 (ix3 (0 : Fin 1) (0 : Fin 1) r)
      = ((∑ k : Fin 512, Real.exp (xr 2 r k - Cert.SoftmaxSpec.rowMax (xr 2 r)) : ℝ) : EReal) :=
    (rowOf_apply _ _ _ 2 1 r rfl rfl rfl).trans (statsOf_sum x xr hx 2 r)
  have es3 : rowOf (statsOf (F := Ideal) x) ![3, 1, 0] Facts₀.inb_S4x2x1024_S1x1x1024_3_1_0 (ix3 (0 : Fin 1) (0 : Fin 1) r)
      = ((∑ k : Fin 512, Real.exp (xr 3 r k - Cert.SoftmaxSpec.rowMax (xr 3 r)) : ℝ) : EReal) :=
    (rowOf_apply _ _ _ 3 1 r rfl rfl rfl).trans (statsOf_sum x xr hx 3 r)
  have emc : rowOf (statsOf (F := Ideal) x) (k0_off3 c) (Facts₀.k0_off3_inb c) (ix3 (0 : Fin 1) (0 : Fin 1) r)
      = ((Cert.SoftmaxSpec.rowMax (xr c r) : ℝ) : EReal) :=
    (rowOf_apply _ _ _ c 0 r (congrFun (k0_off3_eq c) 0) (congrFun (k0_off3_eq c) 1) (congrFun (k0_off3_eq c) 2)).trans
      (statsOf_max x xr hx c r)
  unfold outOf
  refine (pay8_apply _ _ _ _ _ _ _ _ _ _ r q).trans ?_
  rw [em0, em1, em2, em3, es0, es1, es2, es3, emc, pay3_apply (x c) (xr c r) r q (hx c r)]
  exact scalar_eq _ _ _ _ _ _ _ _ _ _ (rowSum_pos _) (rowSum_pos _) (rowSum_pos _) (rowSum_pos _)

end Cert.KernelIdeal.KerValue

end
-- ==== Proof.RefValue.lean ====
/-
  The reference's result read at an index, over the reals.

  When every entry of the input is a real, each stage of the reference is the coercion of a real:
  the row maximum (a fold of max from -∞ over the 2048 columns) is the coercion of the real row
  maximum, the exponentials exp (x - max) are coercions of real exponentials, their sum from 0 is
  the coercion of the real sum, which is positive, so the quotient is the real quotient: the
  softmax of the row.
-/
import proofs.«900600_g7700000000000601_dist_softmax_colshard_i_m1024_n512_v7x_i4_f32_1_alg».proof.Proof.Gen.ReferenceIdeal.Run
import proofs.«900600_g7700000000000601_dist_softmax_colshard_i_m1024_n512_v7x_i4_f32_1_alg».proof.Proof.Gen.ReferenceIdeal.Read
import proofs.«900600_g7700000000000601_dist_softmax_colshard_i_m1024_n512_v7x_i4_f32_1_alg».proof.Proof.Spec
import Idealize.ShloMosaic.Lib.ValueIdx
import Idealize.ShloMosaic.PureOps.Reduce
import Idealize.ShloMosaic.PureOps.Ideal.Laws
import Mathlib.Data.EReal.Basic
import Mathlib.Data.EReal.Operations
import Mathlib.Data.EReal.Inv
import Mathlib.Data.Finset.Fold
import Mathlib.Data.Finset.Lattice.Fold
import Mathlib.Analysis.SpecialFunctions.Exp

noncomputable section

namespace Cert.ReferenceIdeal.RefValue

open Cert.ReferenceIdeal Cert.ReferenceIdeal.Gen Cert.ReferenceIdeal.Read Idealize.ShloMosaic Idealize.ShloMosaic.ValueIdx
open scoped BigOperators

/-- The fold of max from the bottom over coerced reals is the coercion of their maximum. -/
theorem fold_max_bot_coe {ι : Type*} (s : Finset ι) (H : s.Nonempty) (f : ι → ℝ) :
    s.fold max (⊥ : EReal) (fun k => ((f k : ℝ) : EReal)) = ((s.sup' H f : ℝ) : EReal) := by
  induction H using Finset.Nonempty.cons_induction with
  | singleton a =>
    rw [Finset.fold_singleton, Finset.sup'_singleton, max_eq_left bot_le]
  | cons a s ha hs ih =>
    rw [Finset.fold_cons, ih, Finset.sup'_cons hs]
    exact (EReal.coe_strictMono.monotone.map_max).symm

/-- A finite sum of coerced reals is the coercion of the sum. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The column axis of the 1024 × 2048 array reduces to the 1024 rows. -/
theorem reduces_d1 : S1024x2048.Reduces [1] S1024 := by decide

/-- Row r with column k put back is the index (r, k). -/
theorem lift_ix (r : Fin 1024) (k : Fin (S1024x2048.size 1)) :
    reduces_d1.lift (ix1 r) k = ix2 r (⟨k.val, k.isLt⟩ : Fin 2048) := by
  funext c
  match c with
  | ⟨0, _⟩ => exact Fin.ext rfl
  | ⟨1, _⟩ => exact Fin.ext rfl

section
variable (X : (⟨Cert.ReferenceIdeal.S1024x2048, .f32⟩ : BufTy).Contents (Elt Ideal)) (Xr : Fin 1024 → Fin 2048 → ℝ)
  (hX : ∀ (r : Fin 1024) (k : Fin 2048), X (ValueIdx.ix2 r k) = ((Xr r k : ℝ) : EReal))
include hX

/-- The reference's row maximum, a fold of max from -∞ over the row, is the coercion of the real
    row maximum. -/
theorem v0_real (r : Fin 1024) :
    val_main_v0 (F := Ideal) X (ix1 r) = ((Cert.SoftmaxSpec.rowMax (Xr r) : ℝ) : EReal) := by
  unfold val_main_v0
  rw [Host.reduce_eq_fold_single (α := Ideal .f32) (FloatOps.maximumf (F := Ideal) (φ := .f32)) X
    (val_main_cst (F := Ideal)) reducesTo_S1024x2048_S1024_d1 reduces_d1 h_S_ (ix1 r)]
  have hbot : val_main_cst (F := Ideal) (Shape.Idx.first h_S_) = (⊥ : EReal) := by
    rw [val_main_cst_apply]; simp [Ideal.ofBits, Ideal.ieee]
  have hf : (X ∘ reduces_d1.lift (ix1 r)) = fun k : Fin 2048 => ((Xr r k : ℝ) : EReal) :=
    funext fun k => by rw [Function.comp_apply, lift_ix, hX]; rfl
  rw [hbot, hf]
  exact fold_max_bot_coe Finset.univ Finset.univ_nonempty (Xr r)

/-- The reference's exponential at (r, k) is the coercion of exp (x - rowmax). -/
theorem v4_real (r : Fin 1024) (k : Fin 2048) :
    val_main_v4 (F := Ideal) X (ix2 r k)
      = ((Real.exp (Xr r k - Cert.SoftmaxSpec.rowMax (Xr r)) : ℝ) : EReal) := by
  have hidx : idx_main_v1 (idx_main_v2 (ix2 r k)) = ix1 r := by
    funext a
    match a with
    | ⟨0, _⟩ => rfl
  rw [val_main_v4_apply, val_main_v3_apply, val_main_v2_apply, val_main_v1_apply, hidx,
    v0_real X Xr hX r, hX, Ideal.hostUnary_exp_def, Ideal.subf_def, ← EReal.coe_sub, Ideal.exp_coe]

/-- The reference's row sum of exponentials, from 0, is the coercion of the real sum. -/
theorem v5_real (r : Fin 1024) :
    val_main_v5 (F := Ideal) X (ix1 r)
      = ((∑ k : Fin 2048, Real.exp (Xr r k - Cert.SoftmaxSpec.rowMax (Xr r)) : ℝ) : EReal) := by
  have hidx : ∀ k : Fin 2048, idx_main_v5 (ix1 r) k = ix2 r k := fun k => by
    funext a
    match a with
    | ⟨0, _⟩ => rfl
    | ⟨1, _⟩ => rfl
  rw [val_main_v5_apply, val_main_cst_0_apply, Ideal.ofBits_def, Ideal.ofBits_zero_f32, zero_add,
    ← sum_coe]
  exact Finset.sum_congr rfl fun k _ => by rw [hidx, v4_real X Xr hX r k]

end

/-- The reference's result at (r, col) is the coercion of the real softmax of row r at col. -/
theorem ref_real (X : (⟨Cert.ReferenceIdeal.S1024x2048, .f32⟩ : BufTy).Contents (Elt Ideal)) (Xr : Fin 1024 → Fin 2048 → ℝ)
    (hX : ∀ (r : Fin 1024) (k : Fin 2048), X (ValueIdx.ix2 r k) = ((Xr r k : ℝ) : EReal)) (r : Fin 1024) (col : Fin 2048) :
    Cert.ReferenceIdeal.Read.val_main_v8 (F := Ideal) X (ValueIdx.ix2 r col) = ((Cert.SoftmaxSpec.refReal Xr r col : ℝ) : EReal) := by
  have hidx : idx_main_v6 (idx_main_v7 (ix2 r col)) = ix1 r := by
    funext a
    match a with
    | ⟨0, _⟩ => rfl
  have hpos : (0 : ℝ) < ∑ k : Fin 2048, Real.exp (Xr r k - Cert.SoftmaxSpec.rowMax (Xr r)) :=
    Finset.sum_pos (fun k _ => Real.exp_pos _) Finset.univ_nonempty
  rw [val_main_v8_apply, val_main_v7_apply, val_main_v6_apply, hidx, v5_real X Xr hX r,
    v4_real X Xr hX r col, Ideal.hostDivf_def, Ideal.div_coe hpos.ne', ← EReal.coe_mul, mul_one_div]
  rfl

end Cert.ReferenceIdeal.RefValue

end
-- ==== Proof.Algebra.lean ====
/-
  The column-sharded softmax is the softmax of the whole row, over the reals.

  A row X of 2048 reals is four blocks x_0 .. x_3 of 512 side by side: X (512 j + k) = x_j k.
  * The maximum M of X is the maximum of the four block maxima m_j: every entry of X lies in some
    block, so X col ≤ m_j ≤ max_j m_j; and every entry of a block is an entry of X, so m_j ≤ M.
  * A sum over the 2048 columns is the sum over the four blocks of the sums over each block's 512
    columns, because (j, k) ↦ 512 j + k is a bijection from Fin 4 × Fin 512 onto Fin 2048.
  * With s_j = Σ_k exp (x_j k - m_j), one has s_j · exp (m_j - M) = Σ_k exp (x_j k - M), since
    exp (a - m) · exp (m - M) = exp (a - M). So the four rescaled block sums add up to
    S = Σ_col exp (X col - M).
  * Finally exp (x_c q - m_c) · (exp (m_c - M) / S) = exp (x_c q - M) / S, which is the softmax of
    the whole row at column 512 c + q.
-/
import proofs.«900600_g7700000000000601_dist_softmax_colshard_i_m1024_n512_v7x_i4_f32_1_alg».proof.Proof.Spec
import Mathlib.Analysis.Complex.Exponential
import Mathlib.Data.Finset.Lattice.Fold
import Mathlib.Data.Fintype.BigOperators
import Mathlib.Algebra.BigOperators.Fin
import Mathlib.Algebra.BigOperators.Ring.Finset
import Mathlib.Logic.Equiv.Defs

noncomputable section

namespace Cert.SoftmaxSpec

open scoped BigOperators

/-- The bijection (j, k) ↦ 512 j + k between (block, column in the block) and the row's columns. -/
def blockEquiv : Fin 4 × Fin 512 ≃ Fin 2048 where
  toFun p := ⟨512 * p.1.val + p.2.val, by omega⟩
  invFun col := (⟨col.val / 512, by omega⟩, ⟨col.val % 512, Nat.mod_lt _ (by decide)⟩)
  left_inv := by
    rintro ⟨j, k⟩
    refine Prod.ext (Fin.ext ?_) (Fin.ext ?_)
    · show (512 * j.val + k.val) / 512 = j.val
      omega
    · show (512 * j.val + k.val) % 512 = k.val
      omega
  right_inv := by
    intro col
    refine Fin.ext ?_
    show 512 * (col.val / 512) + col.val % 512 = col.val
    omega

/-- The whole row: the four blocks side by side, X (512 j + k) = x_j k. -/
def joinRow (x : Fin 4 → Fin 512 → ℝ) (col : Fin 2048) : ℝ :=
  x ⟨col.val / 512, by omega⟩ ⟨col.val % 512, Nat.mod_lt _ (by decide)⟩

/-- Reading the joined row at column 512 j + k gives entry k of block j. -/
theorem joinRow_block (x : Fin 4 → Fin 512 → ℝ) (j : Fin 4) (k : Fin 512)
    (h : 512 * j.val + k.val < 2048) :
    joinRow x ⟨512 * j.val + k.val, h⟩ = x j k := by
  have h1 : (⟨(512 * j.val + k.val) / 512, by omega⟩ : Fin 4) = j := Fin.ext (by
    show (512 * j.val + k.val) / 512 = j.val
    omega)
  have h2 : (⟨(512 * j.val + k.val) % 512, Nat.mod_lt _ (by decide)⟩ : Fin 512) = k := Fin.ext (by
    show (512 * j.val + k.val) % 512 = k.val
    omega)
  show x ⟨(512 * j.val + k.val) / 512, _⟩ ⟨(512 * j.val + k.val) % 512, _⟩ = x j k
  rw [h1, h2]

/-- The maximum of the joined row is the maximum of the four block maxima. -/
theorem rowMax_joinRow (x : Fin 4 → Fin 512 → ℝ) :
    rowMax (joinRow x)
      = max (max (max (rowMax (x 0)) (rowMax (x 1))) (rowMax (x 2))) (rowMax (x 3)) := by
  have hle : ∀ j : Fin 4, rowMax (x j)
      ≤ max (max (max (rowMax (x 0)) (rowMax (x 1))) (rowMax (x 2))) (rowMax (x 3)) := by
    intro j
    fin_cases j
    · exact le_max_of_le_left (le_max_of_le_left (le_max_left _ _))
    · exact le_max_of_le_left (le_max_of_le_left (le_max_right _ _))
    · exact le_max_of_le_left (le_max_right _ _)
    · exact le_max_right _ _
  have hge : ∀ j : Fin 4, rowMax (x j) ≤ rowMax (joinRow x) := by
    intro j
    refine Finset.sup'_le _ _ ?_
    intro k _
    have h : 512 * j.val + k.val < 2048 := by omega
    rw [← joinRow_block x j k h]
    exact Finset.le_sup' (joinRow x) (Finset.mem_univ _)
  refine le_antisymm ?_ ?_
  · refine Finset.sup'_le _ _ ?_
    intro col _
    exact le_trans (Finset.le_sup' (x _) (Finset.mem_univ _)) (hle _)
  · exact max_le (max_le (max_le (hge 0) (hge 1)) (hge 2)) (hge 3)

/-- A sum over the joined row's columns is the sum over the blocks of the sums over each block. -/
theorem sum_joinRow (x : Fin 4 → Fin 512 → ℝ) (g : ℝ → ℝ) :
    ∑ col : Fin 2048, g (joinRow x col) = ∑ j : Fin 4, ∑ k : Fin 512, g (x j k) := by
  have h1 : ∑ col : Fin 2048, g (joinRow x col)
      = ∑ p : Fin 4 × Fin 512, g (x p.1 p.2) :=
    Equiv.sum_comp blockEquiv.symm (fun p : Fin 4 × Fin 512 => g (x p.1 p.2))
  rw [h1]
  exact Fintype.sum_prod_type (fun p : Fin 4 × Fin 512 => g (x p.1 p.2))

/-- The block form of the softmax of a joined row. -/
theorem softmax_blocks (x : Fin 4 → Fin 512 → ℝ) (c : Fin 4) (q : Fin 512)
    (h : 512 * c.val + q.val < 2048) :
    Real.exp (x c q - rowMax (x c))
      * (Real.exp (rowMax (x c)
            - max (max (max (rowMax (x 0)) (rowMax (x 1))) (rowMax (x 2))) (rowMax (x 3)))
          / ((∑ k, Real.exp (x 0 k - rowMax (x 0)))
                * Real.exp (rowMax (x 0)
                    - max (max (max (rowMax (x 0)) (rowMax (x 1))) (rowMax (x 2))) (rowMax (x 3)))
              + (∑ k, Real.exp (x 1 k - rowMax (x 1)))
                * Real.exp (rowMax (x 1)
                    - max (max (max (rowMax (x 0)) (rowMax (x 1))) (rowMax (x 2))) (rowMax (x 3)))
              + (∑ k, Real.exp (x 2 k - rowMax (x 2)))
                * Real.exp (rowMax (x 2)
                    - max (max (max (rowMax (x 0)) (rowMax (x 1))) (rowMax (x 2))) (rowMax (x 3)))
              + (∑ k, Real.exp (x 3 k - rowMax (x 3)))
                * Real.exp (rowMax (x 3)
                    - max (max (max (rowMax (x 0)) (rowMax (x 1))) (rowMax (x 2))) (rowMax (x 3)))))
      = Real.exp (joinRow x ⟨512 * c.val + q.val, h⟩ - rowMax (joinRow x))
          / ∑ col, Real.exp (joinRow x col - rowMax (joinRow x)) := by
  rw [joinRow_block, rowMax_joinRow]
  generalize max (max (max (rowMax (x 0)) (rowMax (x 1))) (rowMax (x 2))) (rowMax (x 3)) = M
  have hs : ∀ j : Fin 4, (∑ k, Real.exp (x j k - rowMax (x j))) * Real.exp (rowMax (x j) - M)
      = ∑ k, Real.exp (x j k - M) := by
    intro j
    rw [Finset.sum_mul]
    refine Finset.sum_congr rfl ?_
    intro k _
    rw [← Real.exp_add, sub_add_sub_cancel]
  rw [hs 0, hs 1, hs 2, hs 3, sum_joinRow x (fun t => Real.exp (t - M)), Fin.sum_univ_four,
    ← mul_div_assoc, ← Real.exp_add, sub_add_sub_cancel]

theorem kerReal_eq_refReal (xr : Fin 4 → Fin 1024 → Fin 512 → ℝ) (c : Fin 4) (r : Fin 1024) (q : Fin 512) :
    kerReal xr c r q
      = refReal (fun r' col => xr ⟨col.val / 512, by omega⟩ r' ⟨col.val % 512, Nat.mod_lt _ (by decide)⟩) r
          ⟨512 * c.val + q.val, by omega⟩ :=
  softmax_blocks (fun j => xr j r) c q (by omega)

end Cert.SoftmaxSpec

end
-- ==== Proof.Bridge.lean ====
/-
  The two sides joined.

  A device's argument buffer is a block of the whole array: block c of a 1024 × 2048 array cut along
  its columns into four holds, at (r, q), the whole array's entry (r, 512 · c + q). The precondition
  says that every entry x of a buffer has |x| < +∞, so every entry is a real number. With the blocks'
  entries real, the kernel's result on device c is the blockwise formula over the reals, the
  reference's result is the softmax of the whole row over the reals, and the two agree by the
  algebraic identity between them: device c's result is block c of the reference's result.
-/
import proofs.«900600_g7700000000000601_dist_softmax_colshard_i_m1024_n512_v7x_i4_f32_1_alg».proof.Defs
import proofs.«900600_g7700000000000601_dist_softmax_colshard_i_m1024_n512_v7x_i4_f32_1_alg».proof.Proof.Gen.Pre_finite_inputs_Kernel
import proofs.«900600_g7700000000000601_dist_softmax_colshard_i_m1024_n512_v7x_i4_f32_1_alg».proof.Proof.Iface
import proofs.«900600_g7700000000000601_dist_softmax_colshard_i_m1024_n512_v7x_i4_f32_1_alg».proof.Proof.Spec
import Idealize.ShloMosaic.Lib.Layout
import Idealize.ShloMosaic.Lib.ValueIdx
import Idealize.ShloMosaic.Lib.ReduceAll
import Idealize.ShloMosaic.PureOps.Ideal

noncomputable section

namespace Cert.Bridge

open Idealize.ShloMosaic Idealize.ShloMosaic.ValueIdx

/-- An extended real whose absolute value is below +∞ is a real number. -/
theorem real_of_abs_lt_top (x : EReal) (h : max x (-x) < ⊤) : ∃ y : ℝ, x = ((y : ℝ) : EReal) := by
  induction x using EReal.rec with
  | bot => simp at h
  | coe y => exact ⟨y, rfl⟩
  | top => simp at h

/-- An ordered "less than" that answers 1 is the order's strict inequality. -/
theorem lt_of_cmp_olt (a b : EReal) (h : Ideal.cmp .olt a b = 1#1) : a < b := by
  have h' : BitVec.ofBool (decide (a < b)) = 1#1 := h
  by_contra hn
  rw [decide_eq_false hn] at h'
  exact absurd h' (by decide)

/-- The precondition read back: every entry of a buffer on which it holds is a real number. -/
theorem finite_of_pre [Cert.Pre_finite_inputs_Kernel.Facts] (x : Vec Ideal Cert.KernelIdeal.S1024x512 .f32)
    (h : Cert.Pre_finite_inputs_Kernel.fn (F := Ideal) x = fun _ => 1#1) : ∀ i, ∃ y : ℝ, x i = ((y : ℝ) : EReal) := by
  intro i
  have h0 := congrFun h ValueIdx.ix0
  dsimp only [Cert.Pre_finite_inputs_Kernel.fn] at h0
  -- the scalar shape has one index, so every entry reduces into the one result
  haveI : Subsingleton Cert.Pre_finite_inputs_Kernel.S_.Idx := ⟨fun a b => funext fun d => d.elim0⟩
  have hi := Host.reduce_andi_all _ _ _ _ _ h0 i
  have hi' : Ideal.cmp .olt (max (x i) (-(x i))) (Ideal.ofBits .f32 0x7F800000#32) = 1#1 := hi
  have htop : Ideal.ofBits .f32 0x7F800000#32 = ⊤ := by simp [Ideal.ofBits, Ideal.ieee]
  rw [htop] at hi'
  exact real_of_abs_lt_top (x i) (lt_of_cmp_olt _ _ hi')

/-- Block c of an array cut along its columns into four, at (r, q), is the array at (r, 512 · c + q). -/
theorem block_apply' (X : Vec Ideal ⟨2, ![1024, 2048]⟩ .f32) (c : Fin 4) (r : Fin 1024) (q : Fin 512) :
    (Layout.block ⟨2, ![1024, 512]⟩ ⟨2, ![1024, 2048]⟩ 1 4 c X) (ValueIdx.ix2 r q)
      = X (ValueIdx.ix2 r ⟨512 * c.val + q.val, by omega⟩) := by
  rw [Layout.block_apply]
  refine congrArg X (funext fun b => ?_)
  match b with
  | ⟨0, _⟩ => rfl
  | ⟨1, _⟩ => exact Fin.ext (by show c.val * 512 + q.val = 512 * c.val + q.val; omega)

/-- Device c's result is block c of the reference's result, given the three facts over the reals:
    the kernel's result on real blocks, the reference's result on a real array, and the identity
    between the two formulas. -/
theorem bridge
    (refOut : Vec Ideal ⟨2, ![1024, 2048]⟩ .f32 → Vec Ideal ⟨2, ![1024, 2048]⟩ .f32)
    (hker : ∀ (x : Dev Cert.KernelIdeal.nD → Vec Ideal Cert.KernelIdeal.S1024x512 .f32)
      (xr : Fin 4 → Fin 1024 → Fin 512 → ℝ),
      (∀ (j : Fin 4) (r : Fin 1024) (k : Fin 512), x j (ValueIdx.ix2 r k) = ((xr j r k : ℝ) : EReal)) →
      ∀ (c : Dev Cert.KernelIdeal.nD) (r : Fin 1024) (q : Fin 512),
        Cert.KernelIdeal.Iface.outOf (F := Ideal) c x (ValueIdx.ix2 r q)
          = ((Cert.SoftmaxSpec.kerReal xr c r q : ℝ) : EReal))
    (href : ∀ (X : Vec Ideal ⟨2, ![1024, 2048]⟩ .f32) (Xr : Fin 1024 → Fin 2048 → ℝ),
      (∀ (r : Fin 1024) (k : Fin 2048), X (ValueIdx.ix2 r k) = ((Xr r k : ℝ) : EReal)) →
      ∀ (r : Fin 1024) (col : Fin 2048),
        refOut X (ValueIdx.ix2 r col) = ((Cert.SoftmaxSpec.refReal Xr r col : ℝ) : EReal))
    (halg : ∀ (xr : Fin 4 → Fin 1024 → Fin 512 → ℝ) (c : Fin 4) (r : Fin 1024) (q : Fin 512),
      Cert.SoftmaxSpec.kerReal xr c r q
        = Cert.SoftmaxSpec.refReal
            (fun r' col => xr ⟨col.val / 512, by omega⟩ r' ⟨col.val % 512, by omega⟩) r
            ⟨512 * c.val + q.val, by omega⟩)
    (X : Vec Ideal ⟨2, ![1024, 2048]⟩ .f32)
    (hfin : ∀ (c : Fin 4) i, ∃ y : ℝ,
      (Layout.block ⟨2, ![1024, 512]⟩ ⟨2, ![1024, 2048]⟩ 1 4 c X) i = ((y : ℝ) : EReal))
    (c : Fin 4) :
    Cert.KernelIdeal.Iface.outOf (F := Ideal) c
        (fun j => Layout.block ⟨2, ![1024, 512]⟩ ⟨2, ![1024, 2048]⟩ 1 4 j X)
      = Layout.block ⟨2, ![1024, 512]⟩ ⟨2, ![1024, 2048]⟩ 1 4 c (refOut X) := by
  -- the real entries of the four blocks, by coordinates
  choose y hy using hfin
  let xr : Fin 4 → Fin 1024 → Fin 512 → ℝ := fun j r k => y j (ValueIdx.ix2 r k)
  have hxr : ∀ (j : Fin 4) (r : Fin 1024) (k : Fin 512),
      (Layout.block ⟨2, ![1024, 512]⟩ ⟨2, ![1024, 2048]⟩ 1 4 j X) (ValueIdx.ix2 r k) = ((xr j r k : ℝ) : EReal) :=
    fun j r k => hy j (ValueIdx.ix2 r k)
  -- the real entries of the whole array: column col lies in block col / 512 at col % 512
  let Xr : Fin 1024 → Fin 2048 → ℝ :=
    fun r' col => xr ⟨col.val / 512, by omega⟩ r' ⟨col.val % 512, by omega⟩
  have hX : ∀ (r : Fin 1024) (col : Fin 2048), X (ValueIdx.ix2 r col) = ((Xr r col : ℝ) : EReal) := by
    intro r col
    have e := hxr ⟨col.val / 512, by omega⟩ r ⟨col.val % 512, by omega⟩
    rw [block_apply'] at e
    have hc : (⟨512 * (col.val / 512) + col.val % 512, by omega⟩ : Fin 2048) = col :=
      Fin.ext (Nat.div_add_mod col.val 512)
    rw [hc] at e
    exact e
  funext i
  obtain ⟨r, q, rfl⟩ : ∃ r q, i = ValueIdx.ix2 r q := ⟨i 0, i 1, ValueIdx.eq_ix2 i⟩
  rw [hker _ xr hxr c r q, block_apply', href X Xr hX, halg xr c r q]

end Cert.Bridge

end
-- ==== Proof.lean ====
/-
  The column-sharded softmax on four devices against the softmax of the whole array.

  Every device holds one block of 512 columns of each row. It takes its block's row maxima m_c and row
  sums s_c of exp (x - m_c), exchanges these pairs with the three other devices under an entry
  handshake, and scales its exponentials by exp (m_c - M) / Σ_j s_j · exp (m_j - M), M the maximum of the
  four block maxima. For finite inputs this is exp (x - M) / Σ exp (x - M) over the whole row, the
  reference's value on that block: exp (a - m) · exp (m - M) = exp (a - M), and the four rescaled block
  sums add up to the whole row's sum. Finiteness of the inputs is what makes the extended-real
  operations the real ones.

  The frames: the kernel's run (the exchange's protocol: no wait is ever stuck, every copy lands before
  it is read) leaves the arguments unchanged; the reference's is its run with the result dropped. The
  idealization rewrote nothing.
-/
import proofs.«900600_g7700000000000601_dist_softmax_colshard_i_m1024_n512_v7x_i4_f32_1_alg».proof.Defs
import proofs.«900600_g7700000000000601_dist_softmax_colshard_i_m1024_n512_v7x_i4_f32_1_alg».proof.Proof.Gen.Kernel
import proofs.«900600_g7700000000000601_dist_softmax_colshard_i_m1024_n512_v7x_i4_f32_1_alg».proof.Proof.Gen.Kernel.Skeleton
import proofs.«900600_g7700000000000601_dist_softmax_colshard_i_m1024_n512_v7x_i4_f32_1_alg».proof.Proof.Gen.Kernel.Launch
import proofs.«900600_g7700000000000601_dist_softmax_colshard_i_m1024_n512_v7x_i4_f32_1_alg».proof.Proof.Gen.Kernel.Points
import proofs.«900600_g7700000000000601_dist_softmax_colshard_i_m1024_n512_v7x_i4_f32_1_alg».proof.Proof.Gen.Kernel.Frame
import proofs.«900600_g7700000000000601_dist_softmax_colshard_i_m1024_n512_v7x_i4_f32_1_alg».proof.Proof.Gen.KernelIdeal
import proofs.«900600_g7700000000000601_dist_softmax_colshard_i_m1024_n512_v7x_i4_f32_1_alg».proof.Proof.Gen.KernelIdeal.Skeleton
import proofs.«900600_g7700000000000601_dist_softmax_colshard_i_m1024_n512_v7x_i4_f32_1_alg».proof.Proof.Gen.KernelIdeal.Launch
import proofs.«900600_g7700000000000601_dist_softmax_colshard_i_m1024_n512_v7x_i4_f32_1_alg».proof.Proof.Gen.KernelIdeal.Points
import proofs.«900600_g7700000000000601_dist_softmax_colshard_i_m1024_n512_v7x_i4_f32_1_alg».proof.Proof.Gen.KernelIdeal.Frame
import proofs.«900600_g7700000000000601_dist_softmax_colshard_i_m1024_n512_v7x_i4_f32_1_alg».proof.Proof.Gen.ReferenceIdeal
import proofs.«900600_g7700000000000601_dist_softmax_colshard_i_m1024_n512_v7x_i4_f32_1_alg».proof.Proof.Gen.ReferenceIdeal.Run
import proofs.«900600_g7700000000000601_dist_softmax_colshard_i_m1024_n512_v7x_i4_f32_1_alg».proof.Proof.Gen.ReferenceIdeal.Read
import proofs.«900600_g7700000000000601_dist_softmax_colshard_i_m1024_n512_v7x_i4_f32_1_alg».proof.Proof.Gen.Pre_finite_inputs_Kernel
import proofs.«900600_g7700000000000601_dist_softmax_colshard_i_m1024_n512_v7x_i4_f32_1_alg».proof.Proof.Gen.Pre_finite_inputs_ReferenceIdeal
import proofs.«900600_g7700000000000601_dist_softmax_colshard_i_m1024_n512_v7x_i4_f32_1_alg».proof.Proof.Final
import proofs.«900600_g7700000000000601_dist_softmax_colshard_i_m1024_n512_v7x_i4_f32_1_alg».proof.Proof.FinalK
import proofs.«900600_g7700000000000601_dist_softmax_colshard_i_m1024_n512_v7x_i4_f32_1_alg».proof.Proof.KerValue
import proofs.«900600_g7700000000000601_dist_softmax_colshard_i_m1024_n512_v7x_i4_f32_1_alg».proof.Proof.RefValue
import proofs.«900600_g7700000000000601_dist_softmax_colshard_i_m1024_n512_v7x_i4_f32_1_alg».proof.Proof.Algebra
import proofs.«900600_g7700000000000601_dist_softmax_colshard_i_m1024_n512_v7x_i4_f32_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.KernelProof.frame_run (F := Bits) m ρ

theorem frame_ki : Cert.frame_KernelIdeal := fun m ρ _ => Cert.KernelIdealProof.frame_run (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs run; the reference's result is the softmax of the whole array, and each device's result is its block
    of it: the kernel's result term on the four blocks is the block of the reference's term on the array they tile,
    every block being finite. -/
theorem algebraic : Cert.algebraic_KernelIdeal_ReferenceIdeal := by
  intro m ρ m' ρ' hpre hagree
  refine ⟨Cert.ReferenceIdeal.Read.val_main_v8 (F := Ideal)
      (m' (((0 : Dev Cert.ReferenceIdeal.nD).tc : Thread Cert.ReferenceIdeal.nD Cert.ReferenceIdeal.τ).loc Cert.ReferenceIdeal.main_arg0)), ?_, ?_⟩
  · refine (θ_run _ _ _).mono (fun r h c => ⟨(h c).1.trans ?_, (h c).2⟩) (Cert.KernelIdealProof.run_value (F := Ideal) m ρ)
    have hm : (fun j : Dev Cert.KernelIdeal.nD => m ((j.tc : Thread Cert.KernelIdeal.nD Cert.KernelIdeal.τ).loc Cert.KernelIdeal.main_arg0))
        = fun j => Layout.block ⟨2, ![1024, 512]⟩ ⟨2, ![1024, 2048]⟩ 1 4 j
            (m' (((0 : Dev Cert.ReferenceIdeal.nD).tc : Thread Cert.ReferenceIdeal.nD Cert.ReferenceIdeal.τ).loc Cert.ReferenceIdeal.main_arg0)) :=
      funext hagree
    rw [hm]
    exact Cert.Bridge.bridge (Cert.ReferenceIdeal.Read.val_main_v8 (F := Ideal))
      Cert.KernelIdeal.KerValue.ker_real Cert.ReferenceIdeal.RefValue.ref_real Cert.SoftmaxSpec.kerReal_eq_refReal _
      (fun c => Cert.Bridge.finite_of_pre _ ((hagree c) ▸ hpre c)) c
  · refine (θ_run _ _ _).mono (fun r h => ⟨(h 0).1.trans (Cert.ReferenceIdeal.Read.val_main_v8_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
